-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x200000x1024 : Shape := ⟨3, ![1, 200000, 1024]⟩
abbrev S200000 : Shape := ⟨1, ![200000]⟩
abbrev S256x1024 : Shape := ⟨2, ![256, 1024]⟩
abbrev S256 : Shape := ⟨1, ![256]⟩
abbrev S256x256 : Shape := ⟨2, ![256, 256]⟩
abbrev S1x256 : Shape := ⟨2, ![1, 256]⟩
abbrev S1 : Shape := ⟨1, ![1]⟩
abbrev S_ : Shape := ⟨0, ![]⟩

class Facts : Prop where
  bcast_S_S1x200000x1024 : S_.BroadcastsInDim S1x200000x1024 (![] : Fin 0 → Fin S1x200000x1024.rank)
  reducesTo_S1x200000x1024_S_d0_1_2 : S1x200000x1024.ReducesTo [0, 1, 2] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S1x256 .f32) (main_arg13 : FVec F S1 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S1x256 .f32 := Host.absf main_arg12
  let main_cst_20 : FVec F S_ .f32 := constant S_ .f32 0x7F800000#32
  let main_v55 : FVec F S1x256 .f32 := broadcastInDim S1x256 ![] bcast_S_S1x256 main_cst_20
  let main_v56 : IVec S1x256 1 := cmpf .olt main_v54 main_v55
  let main_c_21 : IVec S_ 1 := constantI S_ 1 1#1
  let main_v57 : IVec S_ 1 := (fun x v => Host.reduce IntOp.andi x v reducesTo_S1x256_S_d0_1 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg8 : FVec F S256x256 .f32) (main_arg9 : FVec F S256 .f32) (main_arg10 : FVec F S1x256 .f32) (main_arg11 : FVec F S1 .f32) (main_arg12 : FVec F S1x256 .f32) (main_arg13 : FVec F S1 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S1x256 .f32 := Host.absf main_arg10
  let main_cst_16 : FVec F S_ .f32 := constant S_ .f32 0x7F800000#32
  let main_v45 : FVec F S1x256 .f32 := broadcastInDim S1x256 ![] bcast_S_S1x256 main_cst_16
  let main_v46 : IVec S1x256 1 := cmpf .olt main_v44 main_v45
  let main_c_17 : IVec S_ 1 := constantI S_ 1 1#1
  let main_v47 : IVec S_ 1 := (fun x v => Host.reduce IntOp.andi x v reducesTo_S1x256_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_arg12 main_arg13 main_v48 main_v49 main_v50

def fn_part1 {F : FTy → Type} [FloatOps F] (main_arg5 : FVec F S256 .f32) (main_arg6 : FVec F S256x256 .f32) (main_arg7 : FVec F S256 .f32) (main_arg8 : FVec F S256x256 .f32) (main_arg9 : FVec F S256 .f32) (main_arg10 : FVec F S1x256 .f32) (main_arg11 : FVec F S1 .f32) (main_arg12 : FVec F S1x256 .f32) (main_arg13 : FVec F S1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S1x200000x1024 .f32) (main_arg1 : IVec S200000 32) (main_arg2 : FVec F S256x1024 .f32) (main_arg3 : FVec F S256 .f32) (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S1x256 .f32) (main_arg11 : FVec F S1 .f32) (main_arg12 : FVec F S1x256 .f32) (main_arg13 : FVec F S1 .f32) : IVec S_ 1 :=
  let main_v0 : FVec F S1x200000x1024 .f32 := Host.absf main_arg0
  let main_cst : FVec F S_ .f32 := constant S_ .f32 0x7F800000#32
  let main_v1 : FVec F S1x200000x1024 .f32 := broadcastInDim S1x200000x1024 ![] bcast_S_S1x200000x1024 main_cst
  let main_v2 : IVec S1x200000x1024 1 := cmpf .olt main_v0 main_v1
  let main_c : IVec S_ 1 := constantI S_ 1 1#1
  let main_v3 : IVec S_ 1 := (fun x v => Host.reduce IntOp.andi x v reducesTo_S1x200000x1024_S_d0_1_2 h_S_) main_v2 main_c
  let main_v4 : FVec F S256x1024 .f32 := Host.absf main_arg2
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_arg9 main_arg10 main_arg11 main_arg12 main_arg13 main_v13 main_v16
-- ==== Kernel.lean ====
abbrev S1x200000x1024 : Shape := ⟨3, ![1, 200000, 1024]⟩
abbrev S200000 : Shape := ⟨1, ![200000]⟩
abbrev S256x1024 : Shape := ⟨2, ![256, 1024]⟩
abbrev S256 : Shape := ⟨1, ![256]⟩
abbrev S256x256 : Shape := ⟨2, ![256, 256]⟩
abbrev S1x256 : Shape := ⟨2, ![1, 256]⟩
abbrev S1 : Shape := ⟨1, ![1]⟩
abbrev S200000x1024 : Shape := ⟨2, ![200000, 1024]⟩
abbrev S1024x256 : Shape := ⟨2, ![1024, 256]⟩
abbrev S_ : Shape := ⟨0, ![]⟩
abbrev S200704x1024 : Shape := ⟨2, ![200704, 1024]⟩
abbrev S200704 : Shape := ⟨1, ![200704]⟩
abbrev S1x200704 : Shape := ⟨2, ![1, 200704]⟩
abbrev S10x256 : Shape := ⟨2, ![10, 256]⟩
abbrev S10x1 : Shape := ⟨2, ![10, 1]⟩
abbrev S2048x1024 : Shape := ⟨2, ![2048, 1024]⟩
abbrev S1x2048 : Shape := ⟨2, ![1, 2048]⟩
abbrev S2048x256 : Shape := ⟨2, ![2048, 256]⟩
abbrev S10x2048 : Shape := ⟨2, ![10, 2048]⟩
abbrev S10 : Shape := ⟨1, ![10]⟩
abbrev S256x1 : Shape := ⟨2, ![256, 1]⟩
abbrev S1x1 : Shape := ⟨2, ![1, 1]⟩
abbrev S1x10 : Shape := ⟨2, ![1, 10]⟩

abbrev nBuf : Space → Nat
  | .hbm => 96
  | .vmem => 10
  | .smem => 0
  | _ => 0

abbrev bufTy : (tb : Table) → Fin (tcTables nBuf tb) → BufTy
  | .hbm, ⟨0, _⟩ => ⟨S1x200000x1024, .f32⟩
  | .hbm, ⟨1, _⟩ => ⟨S200000, .i32⟩
  | .hbm, ⟨2, _⟩ => ⟨S256x1024, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S1x256, .f32⟩
  | .hbm, ⟨11, _⟩ => ⟨S1, .f32⟩
  | .hbm, ⟨12, _⟩ => ⟨S1x256, .f32⟩
  | .hbm, ⟨13, _⟩ => ⟨S1, .f32⟩
  | .hbm, ⟨14, _⟩ => ⟨S200000x1024, .f32⟩
  | .hbm, ⟨15, _⟩ => ⟨S1024x256, .f32⟩
  | .hbm, ⟨16, _⟩ => ⟨S1024x256, .bf16⟩
  | .hbm, ⟨17, _⟩ => ⟨S1x256, .f32⟩
  | .hbm, ⟨18, _⟩ => ⟨S_, .i32⟩
  | .hbm, ⟨19, _⟩ => ⟨S_, .f32⟩
  | .hbm, ⟨20, _⟩ => ⟨S200704x1024, .f32⟩
  | .hbm, ⟨21, _⟩ => ⟨S_, .i32⟩
  | .hbm, ⟨22, _⟩ => ⟨S_, .i32⟩
  | .hbm, ⟨23, _⟩ => ⟨S200704, .i32⟩
  | .hbm, ⟨24, _⟩ => ⟨S1x200704, .i32⟩
  | .hbm, ⟨25, _⟩ => ⟨S10x256, .f32⟩
  | .hbm, ⟨26, _⟩ => ⟨S10x1, .f32⟩
  | .hbm, ⟨27, _⟩ => ⟨S10, .f32⟩
  | .hbm, ⟨28, _⟩ => ⟨S10x1, .f32⟩
  | .hbm, ⟨29, _⟩ => ⟨S_, .f32⟩
  | .hbm, ⟨30, _⟩ => ⟨S10x1, .f32⟩
  | .hbm, ⟨31, _⟩ => ⟨S10x1, .i1⟩
  | .hbm, ⟨32, _⟩ => ⟨S_, .f32⟩
  | .hbm, ⟨33, _⟩ => ⟨S10, .f32⟩
  | .hbm, ⟨34, _⟩ => ⟨S10, .f32⟩
  | .hbm, ⟨35, _⟩ => ⟨S10x1, .f32⟩
  | .hbm, ⟨36, _⟩ => ⟨S10x256, .f32⟩
  | .hbm, ⟨37, _⟩ => ⟨S10x256, .f32⟩
  | .hbm, ⟨38, _⟩ => ⟨S_, .f32⟩
  | .hbm, ⟨39, _⟩ => ⟨S_, .f32⟩
  | .hbm, ⟨40, _⟩ => ⟨S10x256, .i1⟩
  | .hbm, ⟨41, _⟩ => ⟨S10x256, .f32⟩
  | .hbm, ⟨42, _⟩ => ⟨S10x256, .f32⟩
  | .hbm, ⟨43, _⟩ => ⟨S256x256, .f32⟩
  | .hbm, ⟨44, _⟩ => ⟨S10x256, .f32⟩
  | .hbm, ⟨45, _⟩ => ⟨S1x256, .f32⟩
  | .hbm, ⟨46, _⟩ => ⟨S10x256, .f32⟩
  | .hbm, ⟨47, _⟩ => ⟨S10x256, .f32⟩
  | .hbm, ⟨48, _⟩ => ⟨S_, .f32⟩
  | .hbm, ⟨49, _⟩ => ⟨S10x256, .f32⟩
  | .hbm, ⟨50, _⟩ => ⟨S10x256, .f32⟩
  | .hbm, ⟨51, _⟩ => ⟨S256x256, .f32⟩
  | .hbm, ⟨52, _⟩ => ⟨S10x256, .f32⟩
  | .hbm, ⟨53, _⟩ => ⟨S1x256, .f32⟩
  | .hbm, ⟨54, _⟩ => ⟨S10x256, .f32⟩
  | .hbm, ⟨55, _⟩ => ⟨S10x256, .f32⟩
  | .hbm, ⟨56, _⟩ => ⟨S10x256, .f32⟩
  | .hbm, ⟨57, _⟩ => ⟨S256x256, .f32⟩
  | .hbm, ⟨58, _⟩ => ⟨S10x256, .f32⟩
  | .hbm, ⟨59, _⟩ => ⟨S1x256, .f32⟩
  | .hbm, ⟨60, _⟩ => ⟨S10x256, .f32⟩
  | .hbm, ⟨61, _⟩ => ⟨S10x256, .f32⟩
  | .hbm, ⟨62, _⟩ => ⟨S10x256, .f32⟩
  | .hbm, ⟨63, _⟩ => ⟨S10x256, .f32⟩
  | .hbm, ⟨64, _⟩ => ⟨S_, .f32⟩
  | .hbm, ⟨65, _⟩ => ⟨S10x256, .f32⟩
  | .hbm, ⟨66, _⟩ => ⟨S10x256, .f32⟩
  | .hbm, ⟨67, _⟩ => ⟨S_, .f32⟩
  | .hbm, ⟨68, _⟩ => ⟨S10x256, .f32⟩
  | .hbm, ⟨69, _⟩ => ⟨S10x256, .f32⟩
  | .hbm, ⟨70, _⟩ => ⟨S10x256, .f32⟩
  | .hbm, ⟨71, _⟩ => ⟨S256x1, .f32⟩
  | .hbm, ⟨72, _⟩ => ⟨S10x1, .f32⟩
  | .hbm, ⟨73, _⟩ => ⟨S1x1, .f32⟩
  | .hbm, ⟨74, _⟩ => ⟨S10x1, .f32⟩
  | .hbm, ⟨75, _⟩ => ⟨S10x1, .f32⟩
  | .hbm, ⟨76, _⟩ => ⟨S1x10, .f32⟩
  | .hbm, ⟨77, _⟩ => ⟨S_, .f32⟩
  | .hbm, ⟨78, _⟩ => ⟨S1, .f32⟩
  | .hbm, ⟨79, _⟩ => ⟨S_, .f32⟩
  | .hbm, ⟨80, _⟩ => ⟨S1, .f32⟩
  | .hbm, ⟨81, _⟩ => ⟨S1, .f32⟩
  | .hbm, ⟨82, _⟩ => ⟨S1x1, .f32⟩
  | .hbm, ⟨83, _⟩ => ⟨S1x10, .f32⟩
  | .hbm, ⟨84, _⟩ => ⟨S1x10, .f32⟩
  | .hbm, ⟨85, _⟩ => ⟨S1x10, .f32⟩
  | .hbm, ⟨86, _⟩ => ⟨S_, .f32⟩
  | .hbm, ⟨87, _⟩ => ⟨S1, .f32⟩
  | .hbm, ⟨88, _⟩ => ⟨S1x1, .f32⟩
  | .hbm, ⟨89, _⟩ => ⟨S1x10, .f32⟩
  | .hbm, ⟨90, _⟩ => ⟨S1x10, .f32⟩
  | .hbm, ⟨91, _⟩ => ⟨S1x256, .f32⟩
  | .hbm, ⟨92, _⟩ => ⟨S256x1, .f32⟩
  | .hbm, ⟨93, _⟩ => ⟨S1x1, .f32⟩
  | .hbm, ⟨94, _⟩ => ⟨S1x1, .f32⟩
  | .hbm, ⟨95, _⟩ => ⟨S1x1, .f32⟩
  | .local _ .vmem, ⟨0, _⟩ => ⟨S2048x1024, .f32⟩
  | .local _ .vmem, ⟨1, _⟩ => ⟨S2048x1024, .f32⟩
  | .local _ .vmem, ⟨2, _⟩ => ⟨S1x2048, .i32⟩
  | .local _ .vmem, ⟨3, _⟩ => ⟨S1x2048, .i32⟩
  | .local _ .vmem, ⟨4, _⟩ => ⟨S1024x256, .bf16⟩
  | .local _ .vmem, ⟨5, _⟩ => ⟨S1x256, .f32⟩
  | .local _ .vmem, ⟨6, _⟩ => ⟨S10x256, .f32⟩
  | .local _ .vmem, ⟨7, _⟩ => ⟨S10x1, .f32⟩
  | .local _ .vmem, ⟨8, _⟩ => ⟨S10x256, .f32⟩
  | .local _ .vmem, ⟨9, _⟩ => ⟨S10x1, .f32⟩
  | _, _ => ⟨S1x200000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_call0_v0 : Ref sig .tc := ⟨.hbm, 19, rfl⟩
abbrev main_v4 : Ref sig .tc := ⟨.hbm, 20, rfl⟩
abbrev main_c_0 : Ref sig .tc := ⟨.hbm, 21, rfl⟩
abbrev main_call1_v0 : Ref sig .tc := ⟨.hbm, 22, rfl⟩
abbrev main_v5 : Ref sig .tc := ⟨.hbm, 23, rfl⟩
abbrev main_v6 : Ref sig .tc := ⟨.hbm, 24, rfl⟩
abbrev main_v7_0 : Ref sig .tc := ⟨.hbm, 25, rfl⟩
abbrev main_v7_1 : Ref sig .tc := ⟨.hbm, 26, rfl⟩
abbrev main_v8 : Ref sig .tc := ⟨.hbm, 27, rfl⟩
abbrev main_v9 : Ref sig .tc := ⟨.hbm, 28, rfl⟩
abbrev main_cst : Ref sig .tc := ⟨.hbm, 29, rfl⟩
abbrev main_v10 : Ref sig .tc := ⟨.hbm, 30, rfl⟩
abbrev main_v11 : Ref sig .tc := ⟨.hbm, 31, rfl⟩
abbrev main_cst_1 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_2 : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_call3_cst : Ref sig .tc := ⟨.hbm, 48, rfl⟩
abbrev main_call3_v0 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_3 : Ref sig .tc := ⟨.hbm, 64, rfl⟩
abbrev main_v37 : Ref sig .tc := ⟨.hbm, 65, rfl⟩
abbrev main_v38 : Ref sig .tc := ⟨.hbm, 66, rfl⟩
abbrev main_cst_4 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_5 : Ref sig .tc := ⟨.hbm, 77, rfl⟩
abbrev main_v48 : Ref sig .tc := ⟨.hbm, 78, rfl⟩
abbrev main_cst_6 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_7 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![98], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S10x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  shapeCasts_S1x200000x1024_S200000x1024 : S1x200000x1024.ShapeCasts S200000x1024
  transposes_S256x1024_S1024x256_1_0 : S256x1024.Transposes [1, 0] S1024x256
  bitsLt_bf16_f32 : FTy.bits .bf16 < FTy.bits .f32
  shapeCasts_S256_S1x256 : S256.ShapeCasts S1x256
  pads_S200000x1024_S200704x1024_07040_000 : S200000x1024.Pads (![0, 0] : Fin 2 → Nat) ![704, 0] ![0, 0] S200704x1024
  h_S_ : 0 < S_.numel
  pads_S200000_S200704_07040 : S200000.Pads (![0] : Fin 1 → Nat) ![704] ![0] S200704
  shapeCasts_S200704_S1x200704 : S200704.ShapeCasts S1x200704
  inb_S10x256_S10x256_0_0 : ∀ a, (![0, 0] : Fin 2 → Nat) a + S10x256.size a ≤ S10x256.size a
  h_S10x256 : 0 < S10x256.numel
  shapeCasts_S10x256_S10x256 : S10x256.ShapeCasts S10x256
  inb_S10x1_S10x1_0_0 : ∀ a, (![0, 0] : Fin 2 → Nat) a + S10x1.size a ≤ S10x1.size a
  h_S10x1 : 0 < S10x1.numel
  shapeCasts_S10x1_S10x1 : S10x1.ShapeCasts S10x1
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  iota_S10x1_d0_w32 : S10x1.Iotas .tc 32 [0]
  broadcasts_S10x1_S10x2048 : S10x1.Broadcasts S10x2048
  broadcasts_S1x2048_S10x2048 : S1x2048.Broadcasts S10x2048
  natLt_1_32 : 1 < 32
  reduces_S10x2048_S10 : S10x2048.Reduces [1] S10
  shapeCasts_S10_S10x1 : S10.ShapeCasts S10x1
  shapeCasts_S10x1_S10 : S10x1.ShapeCasts S10
  bcast_S10_S10x1_0 : S10.BroadcastsInDim S10x1 (![0] : Fin 1 → Fin S10x1.rank)
  bcast_S_S10x1 : S_.BroadcastsInDim S10x1 (![] : Fin 0 → Fin S10x1.rank)
  bcast_S_S10 : S_.BroadcastsInDim S10 (![] : Fin 0 → Fin S10.rank)
  bcast_S10x1_S10x256_0_1 : S10x1.BroadcastsInDim S10x256 (![0, 1] : Fin 2 → Fin S10x256.rank)
  bcast_S_S10x256 : S_.BroadcastsInDim S10x256 (![] : Fin 0 → Fin S10x256.rank)
  transposes_S256x256_S256x256_1_0 : S256x256.Transposes [1, 0] S256x256
  bcast_S256_S1x256_1 : S256.BroadcastsInDim S1x256 (![1] : Fin 1 → Fin S1x256.rank)
  bcast_S1x256_S10x256_0_1 : S1x256.BroadcastsInDim S10x256 (![0, 1] : Fin 2 → Fin S10x256.rank)
  transposes_S1x256_S256x1_1_0 : S1x256.Transposes [1, 0] S256x1
  bcast_S1_S1x1_1 : S1.BroadcastsInDim S1x1 (![1] : Fin 1 → Fin S1x1.rank)
  bcast_S1x1_S10x1_0_1 : S1x1.BroadcastsInDim S10x1 (![0, 1] : Fin 2 → Fin S10x1.rank)
  transposes_S10x1_S1x10_1_0 : S10x1.Transposes [1, 0] S1x10
  reducesTo_S1x10_S1_d1 : S1x10.ReducesTo [1] S1
  bcast_S_S1 : S_.BroadcastsInDim S1 (![] : Fin 0 → Fin S1.rank)
  bcast_S1_S1x1_0 : S1.BroadcastsInDim S1x1 (![0] : Fin 1 → Fin S1x1.rank)
  bcast_S1x1_S1x10_0_1 : S1x1.BroadcastsInDim S1x10 (![0, 1] : Fin 2 → Fin S1x10.rank)
  dot_S2048x1024_S1024x256_S2048x256_1_0_0_1_n_n_wf : DotDims.WF S2048x1024 S1024x256 S2048x256 [1] [0] [0] [1] [] []
  dot_S10x2048_S2048x256_S10x256_1_0_0_1_n_n_wf : DotDims.WF S10x2048 S2048x256 S10x256 [1] [0] [0] [1] [] []
  dot_S10x256_S256x256_S10x256_1_0_0_1_n_n_wf : DotDims.WF S10x256 S256x256 S10x256 [1] [0] [0] [1] [] []
  dot_S10x256_S256x1_S10x1_1_0_0_1_n_n_wf : DotDims.WF S10x256 S256x1 S10x1 [1] [0] [0] [1] [] []
  dot_S1x10_S10x256_S1x256_1_0_0_1_n_n_wf : DotDims.WF S1x10 S10x256 S1x256 [1] [0] [0] [1] [] []
  dot_S1x256_S256x1_S1x1_1_0_0_1_n_n_wf : DotDims.WF S1x256 S256x1 S1x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S200704x1024.size a
  hwx0_0 : ∀ i : grid0.Coords, EltTy.bits .f32 = 32 ∨ (Rect.block (s := S200704x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x200704.size a
  hwx0_1 : ∀ i : grid0.Coords, EltTy.bits .i32 = 32 ∨ (Rect.block (s := S1x200704) S1x2048.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S1024x256.size a
  hwx0_2 : ∀ i : grid0.Coords, EltTy.bits .bf16 = 32 ∨ (Rect.block (s := S1024x256) S1024x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10x256.size a ≤ S10x256.size a
  hwx0_4 : ∀ i : grid0.Coords, EltTy.bits .f32 = 32 ∨ (Rect.block (s := S10x256) S10x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S10x1.size a ≤ S10x1.size a
  hwx0_5 : ∀ i : grid0.Coords, EltTy.bits .f32 = 32 ∨ (Rect.block (s := S10x1) S10x1.size (cc0_transform_5 i) (hinb0_5 i)).WholeWords (EltTy.packing .f32)

variable [Facts₀]

def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf
def dot_S10x2048_S2048x256_S10x256_1_0_0_1_n_n : DotDims S10x2048 S2048x256 S10x256 where
  lhsContracting := [1]
  rhsContracting := [0]
  lhsNonContracting := [0]
  rhsNonContracting := [1]
  lhsBatch := []
  rhsBatch := []
  wf := dot_S10x2048_S2048x256_S10x256_1_0_0_1_n_n_wf
def dot_S10x256_S256x256_S10x256_1_0_0_1_n_n : DotDims S10x256 S256x256 S10x256 where
  lhsContracting := [1]
  rhsContracting := [0]
  lhsNonContracting := [0]
  rhsNonContracting := [1]
  lhsBatch := []
  rhsBatch := []
  wf := dot_S10x256_S256x256_S10x256_1_0_0_1_n_n_wf
def dot_S10x256_S256x1_S10x1_1_0_0_1_n_n : DotDims S10x256 S256x1 S10x1 where
  lhsContracting := [1]
  rhsContracting := [0]
  lhsNonContracting := [0]
  rhsNonContracting := [1]
  lhsBatch := []
  rhsBatch := []
  wf := dot_S10x256_S256x1_S10x1_1_0_0_1_n_n_wf
def dot_S1x10_S10x256_S1x256_1_0_0_1_n_n : DotDims S1x10 S10x256 S1x256 where
  lhsContracting := [1]
  rhsContracting := [0]
  lhsNonContracting := [0]
  rhsNonContracting := [1]
  lhsBatch := []
  rhsBatch := []
  wf := dot_S1x10_S10x256_S1x256_1_0_0_1_n_n_wf
def dot_S1x256_S256x1_S1x1_1_0_0_1_n_n : DotDims S1x256 S256x1 S1x1 where
  lhsContracting := [1]
  rhsContracting := [0]
  lhsNonContracting := [0]
  rhsNonContracting := [1]
  lhsBatch := []
  rhsBatch := []
  wf := dot_S1x256_S256x1_S1x1_1_0_0_1_n_n_wf

abbrev win0_0 : Pipeline.Window sig grid0 :=
  Pipeline.Window.ofSpec (Memref.whole main_v4) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7_0) S10x256.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7_1) S10x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1x200000x1024 : Shape := ⟨3, ![1, 200000, 1024]⟩
abbrev S200000 : Shape := ⟨1, ![200000]⟩
abbrev S256x1024 : Shape := ⟨2, ![256, 1024]⟩
abbrev S256 : Shape := ⟨1, ![256]⟩
abbrev S256x256 : Shape := ⟨2, ![256, 256]⟩
abbrev S1x256 : Shape := ⟨2, ![1, 256]⟩
abbrev S1 : Shape := ⟨1, ![1]⟩
abbrev S200000x1024 : Shape := ⟨2, ![200000, 1024]⟩
abbrev S1024x256 : Shape := ⟨2, ![1024, 256]⟩
abbrev S200000x256 : Shape := ⟨2, ![200000, 256]⟩
abbrev S_ : Shape := ⟨0, ![]⟩
abbrev S10x256 : Shape := ⟨2, ![10, 256]⟩
abbrev S200000x1 : Shape := ⟨2, ![200000, 1]⟩
abbrev S10 : Shape := ⟨1, ![10]⟩
abbrev S10x1 : Shape := ⟨2, ![10, 1]⟩
abbrev S256x1 : Shape := ⟨2, ![256, 1]⟩
abbrev S1x1 : Shape := ⟨2, ![1, 1]⟩
abbrev S1x10 : Shape := ⟨2, ![1, 10]⟩

abbrev nBuf : Space → Nat
  | .hbm => 101
  | .vmem => 0
  | .smem => 0
  | _ => 0

abbrev bufTy : (tb : Table) → Fin (tcTables nBuf tb) → BufTy
  | .hbm, ⟨0, _⟩ => ⟨S1x200000x1024, .f32⟩
  | .hbm, ⟨1, _⟩ => ⟨S200000, .i32⟩
  | .hbm, ⟨2, _⟩ => ⟨S256x1024, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S1x256, .f32⟩
  | .hbm, ⟨11, _⟩ => ⟨S1, .f32⟩
  | .hbm, ⟨12, _⟩ => ⟨S1x256, .f32⟩
  | .hbm, ⟨13, _⟩ => ⟨S1, .f32⟩
  | .hbm, ⟨14, _⟩ => ⟨S200000x1024, .f32⟩
  | .hbm, ⟨15, _⟩ => ⟨S1024x256, .f32⟩
  | .hbm, ⟨16, _⟩ => ⟨S200000x256, .f32⟩
  | .hbm, ⟨17, _⟩ => ⟨S1x256, .f32⟩
  | .hbm, ⟨18, _⟩ => ⟨S200000x256, .f32⟩
  | .hbm, ⟨19, _⟩ => ⟨S200000x256, .f32⟩
  | .hbm, ⟨20, _⟩ => ⟨S_, .f32⟩
  | .hbm, ⟨21, _⟩ => ⟨S200000x256, .f32⟩
  | .hbm, ⟨22, _⟩ => ⟨S200000x256, .f32⟩
  | .hbm, ⟨23, _⟩ => ⟨S_, .f32⟩
  | .hbm, ⟨24, _⟩ => ⟨S10x256, .f32⟩
  | .hbm, ⟨25, _⟩ => ⟨S200000x1, .i32⟩
  | .hbm, ⟨26, _⟩ => ⟨S10x256, .f32⟩
  | .hbm, ⟨27, _⟩ => ⟨S_, .f32⟩
  | .hbm, ⟨28, _⟩ => ⟨S200000, .f32⟩
  | .hbm, ⟨29, _⟩ => ⟨S_, .f32⟩
  | .hbm, ⟨30, _⟩ => ⟨S10, .f32⟩
  | .hbm, ⟨31, _⟩ => ⟨S200000x1, .i32⟩
  | .hbm, ⟨32, _⟩ => ⟨S10, .f32⟩
  | .hbm, ⟨33, _⟩ => ⟨S10x1, .f32⟩
  | .hbm, ⟨34, _⟩ => ⟨S_, .f32⟩
  | .hbm, ⟨35, _⟩ => ⟨S10x1, .f32⟩
  | .hbm, ⟨36, _⟩ => ⟨S10x1, .i1⟩
  | .hbm, ⟨37, _⟩ => ⟨S_, .f32⟩
  | .hbm, ⟨38, _⟩ => ⟨S10, .f32⟩
  | .hbm, ⟨39, _⟩ => ⟨S10, .f32⟩
  | .hbm, ⟨40, _⟩ => ⟨S10x1, .f32⟩
  | .hbm, ⟨41, _⟩ => ⟨S10x256, .f32⟩
  | .hbm, ⟨42, _⟩ => ⟨S10x256, .f32⟩
  | .hbm, ⟨43, _⟩ => ⟨S_, .f32⟩
  | .hbm, ⟨44, _⟩ => ⟨S_, .f32⟩
  | .hbm, ⟨45, _⟩ => ⟨S10x256, .i1⟩
  | .hbm, ⟨46, _⟩ => ⟨S10x256, .f32⟩
  | .hbm, ⟨47, _⟩ => ⟨S10x256, .f32⟩
  | .hbm, ⟨48, _⟩ => ⟨S256x256, .f32⟩
  | .hbm, ⟨49, _⟩ => ⟨S10x256, .f32⟩
  | .hbm, ⟨50, _⟩ => ⟨S1x256, .f32⟩
  | .hbm, ⟨51, _⟩ => ⟨S10x256, .f32⟩
  | .hbm, ⟨52, _⟩ => ⟨S10x256, .f32⟩
  | .hbm, ⟨53, _⟩ => ⟨S_, .f32⟩
  | .hbm, ⟨54, _⟩ => ⟨S10x256, .f32⟩
  | .hbm, ⟨55, _⟩ => ⟨S10x256, .f32⟩
  | .hbm, ⟨56, _⟩ => ⟨S256x256, .f32⟩
  | .hbm, ⟨57, _⟩ => ⟨S10x256, .f32⟩
  | .hbm, ⟨58, _⟩ => ⟨S1x256, .f32⟩
  | .hbm, ⟨59, _⟩ => ⟨S10x256, .f32⟩
  | .hbm, ⟨60, _⟩ => ⟨S10x256, .f32⟩
  | .hbm, ⟨61, _⟩ => ⟨S10x256, .f32⟩
  | .hbm, ⟨62, _⟩ => ⟨S256x256, .f32⟩
  | .hbm, ⟨63, _⟩ => ⟨S10x256, .f32⟩
  | .hbm, ⟨64, _⟩ => ⟨S1x256, .f32⟩
  | .hbm, ⟨65, _⟩ => ⟨S10x256, .f32⟩
  | .hbm, ⟨66, _⟩ => ⟨S10x256, .f32⟩
  | .hbm, ⟨67, _⟩ => ⟨S10x256, .f32⟩
  | .hbm, ⟨68, _⟩ => ⟨S10x256, .f32⟩
  | .hbm, ⟨69, _⟩ => ⟨S_, .f32⟩
  | .hbm, ⟨70, _⟩ => ⟨S10x256, .f32⟩
  | .hbm, ⟨71, _⟩ => ⟨S10x256, .f32⟩
  | .hbm, ⟨72, _⟩ => ⟨S_, .f32⟩
  | .hbm, ⟨73, _⟩ => ⟨S10x256, .f32⟩
  | .hbm, ⟨74, _⟩ => ⟨S10x256, .f32⟩
  | .hbm, ⟨75, _⟩ => ⟨S10x256, .f32⟩
  | .hbm, ⟨76, _⟩ => ⟨S256x1, .f32⟩
  | .hbm, ⟨77, _⟩ => ⟨S10x1, .f32⟩
  | .hbm, ⟨78, _⟩ => ⟨S1x1, .f32⟩
  | .hbm, ⟨79, _⟩ => ⟨S10x1, .f32⟩
  | .hbm, ⟨80, _⟩ => ⟨S10x1, .f32⟩
  | .hbm, ⟨81, _⟩ => ⟨S1x10, .f32⟩
  | .hbm, ⟨82, _⟩ => ⟨S_, .f32⟩
  | .hbm, ⟨83, _⟩ => ⟨S1, .f32⟩
  | .hbm, ⟨84, _⟩ => ⟨S_, .f32⟩
  | .hbm, ⟨85, _⟩ => ⟨S1, .f32⟩
  | .hbm, ⟨86, _⟩ => ⟨S1, .f32⟩
  | .hbm, ⟨87, _⟩ => ⟨S1x1, .f32⟩
  | .hbm, ⟨88, _⟩ => ⟨S1x10, .f32⟩
  | .hbm, ⟨89, _⟩ => ⟨S1x10, .f32⟩
  | .hbm, ⟨90, _⟩ => ⟨S1x10, .f32⟩
  | .hbm, ⟨91, _⟩ => ⟨S_, .f32⟩
  | .hbm, ⟨92, _⟩ => ⟨S1, .f32⟩
  | .hbm, ⟨93, _⟩ => ⟨S1x1, .f32⟩
  | .hbm, ⟨94, _⟩ => ⟨S1x10, .f32⟩
  | .hbm, ⟨95, _⟩ => ⟨S1x10, .f32⟩
  | .hbm, ⟨96, _⟩ => ⟨S1x256, .f32⟩
  | .hbm, ⟨97, _⟩ => ⟨S256x1, .f32⟩
  | .hbm, ⟨98, _⟩ => ⟨S1x1, .f32⟩
  | .hbm, ⟨99, _⟩ => ⟨S1x1, .f32⟩
  | .hbm, ⟨100, _⟩ => ⟨S1x1, .f32⟩
  | _, _ => ⟨S1x200000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_call0_cst : Ref sig .tc := ⟨.hbm, 20, rfl⟩
abbrev main_call0_v0 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_0 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_cst_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_4 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_call2_cst : Ref sig .tc := ⟨.hbm, 53, rfl⟩
abbrev main_call2_v0 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_5 : Ref sig .tc := ⟨.hbm, 69, rfl⟩
abbrev main_v42 : Ref sig .tc := ⟨.hbm, 70, rfl⟩
abbrev main_v43 : Ref sig .tc := ⟨.hbm, 71, rfl⟩
abbrev main_cst_6 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_7 : Ref sig .tc := ⟨.hbm, 82, rfl⟩
abbrev main_v53 : Ref sig .tc := ⟨.hbm, 83, rfl⟩
abbrev main_cst_8 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_9 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩

abbrev nD : Nat := 1
abbrev τ : Topo := Topo.v7x

variable {F : FTy → Type} [FloatOps F]

class Facts₀ : Prop where
  shapeCasts_S1x200000x1024_S200000x1024 : S1x200000x1024.ShapeCasts S200000x1024
  transposes_S256x1024_S1024x256_1_0 : S256x1024.Transposes [1, 0] S1024x256
  bcast_S256_S1x256_1 : S256.BroadcastsInDim S1x256 (![1] : Fin 1 → Fin S1x256.rank)
  bcast_S1x256_S200000x256_0_1 : S1x256.BroadcastsInDim S200000x256 (![0, 1] : Fin 2 → Fin S200000x256.rank)
  bcast_S_S200000x256 : S_.BroadcastsInDim S200000x256 (![] : Fin 0 → Fin S200000x256.rank)
  bcast_S_S10x256 : S_.BroadcastsInDim S10x256 (![] : Fin 0 → Fin S10x256.rank)
  bcast_S200000_S200000x1_0 : S200000.BroadcastsInDim S200000x1 (![0] : Fin 1 → Fin S200000x1.rank)
  bcast_S_S200000 : S_.BroadcastsInDim S200000 (![] : Fin 0 → Fin S200000.rank)
  bcast_S_S10 : S_.BroadcastsInDim S10 (![] : Fin 0 → Fin S10.rank)
  bcast_S10_S10x1_0 : S10.BroadcastsInDim S10x1 (![0] : Fin 1 → Fin S10x1.rank)
  bcast_S_S10x1 : S_.BroadcastsInDim S10x1 (![] : Fin 0 → Fin S10x1.rank)
  bcast_S10x1_S10x256_0_1 : S10x1.BroadcastsInDim S10x256 (![0, 1] : Fin 2 → Fin S10x256.rank)
  transposes_S256x256_S256x256_1_0 : S256x256.Transposes [1, 0] S256x256
  bcast_S1x256_S10x256_0_1 : S1x256.BroadcastsInDim S10x256 (![0, 1] : Fin 2 → Fin S10x256.rank)
  transposes_S1x256_S256x1_1_0 : S1x256.Transposes [1, 0] S256x1
  bcast_S1_S1x1_1 : S1.BroadcastsInDim S1x1 (![1] : Fin 1 → Fin S1x1.rank)
  bcast_S1x1_S10x1_0_1 : S1x1.BroadcastsInDim S10x1 (![0, 1] : Fin 2 → Fin S10x1.rank)
  transposes_S10x1_S1x10_1_0 : S10x1.Transposes [1, 0] S1x10
  reducesTo_S1x10_S1_d1 : S1x10.ReducesTo [1] S1
  h_S_ : 0 < S_.numel
  bcast_S_S1 : S_.BroadcastsInDim S1 (![] : Fin 0 → Fin S1.rank)
  bcast_S1_S1x1_0 : S1.BroadcastsInDim S1x1 (![0] : Fin 1 → Fin S1x1.rank)
  bcast_S1x1_S1x10_0_1 : S1x1.BroadcastsInDim S1x10 (![0, 1] : Fin 2 → Fin S1x10.rank)
  dot_S200000x1024_S1024x256_S200000x256_1_0_0_1_n_n_wf : DotDims.WF S200000x1024 S1024x256 S200000x256 [1] [0] [0] [1] [] []
  scatter_S10x256_S200000x1_S200000x256_1_0_0_1_wf : ScatterDims.WF S10x256 S200000x1 S200000x256 [1] [0] [0] 1
  scatter_S10_S200000x1_S200000_n_0_0_1_wf : ScatterDims.WF S10 S200000x1 S200000 [] [0] [0] 1
  dot_S10x256_S256x256_S10x256_1_0_0_1_n_n_wf : DotDims.WF S10x256 S256x256 S10x256 [1] [0] [0] [1] [] []
  dot_S10x256_S256x1_S10x1_1_0_0_1_n_n_wf : DotDims.WF S10x256 S256x1 S10x1 [1] [0] [0] [1] [] []
  dot_S1x10_S10x256_S1x256_1_0_0_1_n_n_wf : DotDims.WF S1x10 S10x256 S1x256 [1] [0] [0] [1] [] []
  dot_S1x256_S256x1_S1x1_1_0_0_1_n_n_wf : DotDims.WF S1x256 S256x1 S1x1 [1] [0] [0] [1] [] []

variable [Facts₀]

def dot_S200000x1024_S1024x256_S200000x256_1_0_0_1_n_n : DotDims S200000x1024 S1024x256 S200000x256 where
  lhsContracting := [1]
  rhsContracting := [0]
  lhsNonContracting := [0]
  rhsNonContracting := [1]
  lhsBatch := []
  rhsBatch := []
  wf := dot_S200000x1024_S1024x256_S200000x256_1_0_0_1_n_n_wf
def scatter_S10x256_S200000x1_S200000x256_1_0_0_1 : ScatterDims S10x256 S200000x1 S200000x256 where
  updateWindowDims := [1]
  insertedWindowDims := [0]
  scatterDimsToOperandDims := [0]
  indexVectorDim := 1
  wf := scatter_S10x256_S200000x1_S200000x256_1_0_0_1_wf
def scatter_S10_S200000x1_S200000_n_0_0_1 : ScatterDims S10 S200000x1 S200000 where
  updateWindowDims := []
  insertedWindowDims := [0]
  scatterDimsToOperandDims := [0]
  indexVectorDim := 1
  wf := scatter_S10_S200000x1_S200000_n_0_0_1_wf
def dot_S10x256_S256x256_S10x256_1_0_0_1_n_n : DotDims S10x256 S256x256 S10x256 where
  lhsContracting := [1]
  rhsContracting := [0]
  lhsNonContracting := [0]
  rhsNonContracting := [1]
  lhsBatch := []
  rhsBatch := []
  wf := dot_S10x256_S256x256_S10x256_1_0_0_1_n_n_wf
def dot_S10x256_S256x1_S10x1_1_0_0_1_n_n : DotDims S10x256 S256x1 S10x1 where
  lhsContracting := [1]
  rhsContracting := [0]
  lhsNonContracting := [0]
  rhsNonContracting := [1]
  lhsBatch := []
  rhsBatch := []
  wf := dot_S10x256_S256x1_S10x1_1_0_0_1_n_n_wf
def dot_S1x10_S10x256_S1x256_1_0_0_1_n_n : DotDims S1x10 S10x256 S1x256 where
  lhsContracting := [1]
  rhsContracting := [0]
  lhsNonContracting := [0]
  rhsNonContracting := [1]
  lhsBatch := []
  rhsBatch := []
  wf := dot_S1x10_S10x256_S1x256_1_0_0_1_n_n_wf
def dot_S1x256_S256x1_S1x1_1_0_0_1_n_n : DotDims S1x256 S256x1 S1x1 where
  lhsContracting := [1]
  rhsContracting := [0]
  lhsNonContracting := [0]
  rhsNonContracting := [1]
  lhsBatch := []
  rhsBatch := []
  wf := dot_S1x256_S256x1_S1x1_1_0_0_1_n_n_wf

class Facts : Prop extends Facts₀ where

variable [Facts]
-- ==== Proof.SegBits.Around.lean ====
/-
  The segment-mean program around its one kernel call.

  @main is: eleven host operations (the row array X[0] and the cluster ids padded from 200000 to
  200704 = 98 · 2048 rows — the padding rows zero, their ids -1 —, W_phi transposed, b_phi as a
  row), the call over a grid of 98 points, and sixty-nine host operations on the call's two results
  (the per-cluster sums [10, 256] and counts [10, 1]).

  Here: what every buffer holds when the call is entered (`V`: the launch memory after the eleven
  operations); that @main is those operations, the call, and the later ones as a continuation; which
  buffers each side writes (eleven intermediates before, sixty-nine after — never an argument, and
  after the call never one of the six arrays the call's windows move); window `w`'s block at grid
  point `t` read off its array (`iblk`), which is what an input window's staging buffer holds at
  every point; and that a run of @main ending with the six arrays as the call leaves them and every
  other buffer as the later operations leave it, ends with the fourteen arguments as launched.

  Then what the two control cases of the body share: the condition "this is grid point 0" (the
  accumulators are reset there and only there), the staging and scratch memrefs at a point, and the
  call's invariant spelt out (the two scratch accumulators, each whole at some contents, and the
  generator register).
-/
import proofs.«408968_j90941637525542_1_alg».proof.Proof.Gen.Kernel.Launch
import proofs.«408968_j90941637525542_1_alg».proof.Proof.Gen.Kernel.Skeleton
import proofs.«408968_j90941637525542_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Seg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the call -/

/-- The host operations before the call, stretch by stretch (@main's own lines and the two inlined pads). -/
abbrev headOps : List (List (HloOp τ sig (Elt F))) := [hostOps0, hostOps0_1, hostOps0_2, hostOps0_3, hostOps0_4]
/-- The host operations after the call, stretch by stretch. -/
abbrev tailOps : List (List (HloOp τ sig (Elt F))) := [hostOps1, hostOps1_1, hostOps1_2, hostOps1_3, hostOps1_4]

/-- Core `c`'s buffer contents when the call is entered: the launch memory after the operations before it. -/
abbrev V0 (c : Dev nD) : Valuation τ sig (Elt F) := StableHlo.after (List.flatten headOps) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- @main is the operations before the call, the call, and the later operations as its continuation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main headOps tailOps
    (by simp only [headOps, List.Forall]; exact ⟨hostOps0_sub, hostOps0_1_sub, hostOps0_2_sub, hostOps0_3_sub, hostOps0_4_sub⟩)
    (by simp only [headOps, List.Forall]; exact ⟨hostOps0_fresh, hostOps0_1_fresh, hostOps0_2_fresh, hostOps0_3_fresh, hostOps0_4_fresh⟩)
    main_chain

/-! ## Which buffers each side writes -/

/-- The eleven intermediates the operations before the call write. -/
abbrev headW : List (Ref sig .tc) := [main_v0, main_v1, main_v2, main_v3, main_c, main_call0_v0, main_v4, main_c_0, main_call1_v0, main_v5, main_v6]
/-- The sixty-nine intermediates (the result among them) the operations after the call write. -/
abbrev tailW : List (Ref sig .tc) := [main_v8, main_v9, main_cst, main_v10, main_v11, main_cst_1, main_v12, main_v13, main_v14, main_v15, main_v16, main_cst_2, main_call2_v0, main_call2_v1, main_call2_v2, main_v17, main_v18, main_v19, main_v20, main_v21, main_v22, main_call3_cst, main_call3_v0, main_v23, main_v24, main_v25, main_v26, main_v27, main_v28, main_v29, main_v30, main_v31, main_v32, main_v33, main_v34, main_v35, main_v36, main_cst_3, main_v37, main_v38, main_cst_4, main_v39, main_v40, main_v41, main_v42, main_v43, main_v44, main_v45, main_v46, main_v47, main_cst_5, main_v48, main_cst_6, main_v49, main_v50, main_v51, main_v52, main_v53, main_v54, main_cst_7, main_v55, main_v56, main_v57, main_v58, main_v59, main_v60, main_v61, main_v62, main_v63]

/-- One result buffer lies in a list of references that names it. -/
theorem single_sub_of_mem {W : List (Ref sig .tc)} (y : Ref sig .tc) (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

/-- Every operation before the call writes one of the eleven. -/
theorem head_writes : (List.flatten (headOps (F := F))).Forall fun op => op.writes ⊆ (headW.map (Proc.devRef (τ := τ) .tc)).toFinset := by
  simp only [headOps, hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes]
  repeat' apply And.intro
  all_goals exact single_sub_of_mem _ (by decide)

/-- Every operation after the call writes one of the sixty-nine. -/
theorem tail_writes : (List.flatten (tailOps (F := F))).Forall fun op => op.writes ⊆ (tailW.map (Proc.devRef (τ := τ) .tc)).toFinset := by
  simp only [tailOps, hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes]
  repeat' apply And.intro
  all_goals exact single_sub_of_mem _ (by decide)

/-- A buffer outside the eleven is entered as launched. -/
theorem V_of_not_written (c : Dev nD) (r : Ref sig .tc) (hr : r ∉ headW) : V m c r = m ((c : Thread nD τ).loc r) :=
  StableHlo.after_of_writes_sub _ _ head_writes hr

/-- The later operations touch the call's arrays and the buffers that bypass it only. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
/-- They allocate nothing. -/
theorem tail_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
/-- And write none of the six arrays the call's windows move (each writes one of the sixty-nine, which are others). -/
theorem tail_keeps : ∀ ops ∈ (tailOps : List (List (HloOp τ sig (Elt F)))), ∀ op ∈ ops,
    ∀ w, Proc.devRef .tc (Pipeline.arrRef spec0 w) ∉ op.writes := by
  intro ops hops op hop w hw
  have hmem : op ∈ List.flatten (tailOps (F := F)) := List.mem_flatten.mpr ⟨ops, hops, hop⟩
  obtain ⟨y, hy, he⟩ := List.mem_map.mp (List.mem_toFinset.mp ((List.forall_iff_forall_mem.mp tail_writes) op hmem hw))
  exact (by decide : ∀ w, Pipeline.arrRef spec0 w ∉ tailW) w (Proc.devRef_injective _ he ▸ hy)

/-- A buffer that is none of the sixty-nine and no array of the call holds, after the later operations, what it held
    when the call was entered. -/
theorem tail_of_not_written (dats : (p : Fin 1) → (c : Dev nD) → Dat τ (Elt F) Unit ℕ (UR sig nD τ) ℕ (cfgs p) c) (c : Dev nD)
    (r : Ref sig .tc) (hr : r ∉ tailW) (ha : ∀ w, Pipeline.arrRef spec0 w ≠ r) :
    Pipeline.afterTail₀ cfgs dats 0 (V0 m) tailOps c r = V m c r := by
  unfold Pipeline.afterTail₀
  rw [StableHlo.after_of_writes_sub _ _ tail_writes hr, Pipeline.withArrays_of_ne _ c (V0 m c) _ r ha]

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (unfetched, the block
    index has not moved): windows 0 and 1 move every point, windows 2 and 3 are fetched once. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The arguments end as launched -/

/-- An argument is none of the six arrays, and neither side of the call writes it: read after the later operations it
    is the launch memory's. -/
theorem arg_kept (dats : (p : Fin 1) → (c : Dev nD) → Dat τ (Elt F) Unit ℕ (UR sig nD τ) ℕ (cfgs p) c) (c : Dev nD)
    (r : Ref sig .tc) (hh : r ∉ headW) (ht : r ∉ tailW) (ha : ∀ w, Pipeline.arrRef spec0 w ≠ r) :
    Pipeline.afterTail₀ cfgs dats 0 (V0 m) tailOps c r = m ((c : Thread nD τ).loc r) :=
  (tail_of_not_written m dats c r ht ha).trans (V_of_not_written m c r hh)

/-- From a run of @main that ends with the call's arrays as the call leaves them and every other unscoped buffer as the
    later operations leave it: the fourteen arguments end as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).2 main_arg0 (Pipeline.mem_restRefs_of main_arg0 (by decide) (by decide))).trans (arg_kept m dats c main_arg0 (by decide) (by decide) (by decide)),
    ((h c).2 main_arg1 (Pipeline.mem_restRefs_of main_arg1 (by decide) (by decide))).trans (arg_kept m dats c main_arg1 (by decide) (by decide) (by decide)),
    ((h c).2 main_arg2 (Pipeline.mem_restRefs_of main_arg2 (by decide) (by decide))).trans (arg_kept m dats c main_arg2 (by decide) (by decide) (by decide)),
    ((h c).2 main_arg3 (Pipeline.mem_restRefs_of main_arg3 (by decide) (by decide))).trans (arg_kept m dats c main_arg3 (by decide) (by decide) (by decide)),
    ((h c).2 main_arg4 (Pipeline.mem_restRefs_of main_arg4 (by decide) (by decide))).trans (arg_kept m dats c main_arg4 (by decide) (by decide) (by decide)),
    ((h c).2 main_arg5 (Pipeline.mem_restRefs_of main_arg5 (by decide) (by decide))).trans (arg_kept m dats c main_arg5 (by decide) (by decide) (by decide)),
    ((h c).2 main_arg6 (Pipeline.mem_restRefs_of main_arg6 (by decide) (by decide))).trans (arg_kept m dats c main_arg6 (by decide) (by decide) (by decide)),
    ((h c).2 main_arg7 (Pipeline.mem_restRefs_of main_arg7 (by decide) (by decide))).trans (arg_kept m dats c main_arg7 (by decide) (by decide) (by decide)),
    ((h c).2 main_arg8 (Pipeline.mem_restRefs_of main_arg8 (by decide) (by decide))).trans (arg_kept m dats c main_arg8 (by decide) (by decide) (by decide)),
    ((h c).2 main_arg9 (Pipeline.mem_restRefs_of main_arg9 (by decide) (by decide))).trans (arg_kept m dats c main_arg9 (by decide) (by decide) (by decide)),
    ((h c).2 main_arg10 (Pipeline.mem_restRefs_of main_arg10 (by decide) (by decide))).trans (arg_kept m dats c main_arg10 (by decide) (by decide) (by decide)),
    ((h c).2 main_arg11 (Pipeline.mem_restRefs_of main_arg11 (by decide) (by decide))).trans (arg_kept m dats c main_arg11 (by decide) (by decide) (by decide)),
    ((h c).2 main_arg12 (Pipeline.mem_restRefs_of main_arg12 (by decide) (by decide))).trans (arg_kept m dats c main_arg12 (by decide) (by decide) (by decide)),
    ((h c).2 main_arg13 (Pipeline.mem_restRefs_of main_arg13 (by decide) (by decide))).trans (arg_kept m dats c main_arg13 (by decide) (by decide) (by decide))⟩) h

/-! ## The body's one condition: is this the grid's first point? -/

/-- The condition of the body's `scf.if`, from the grid coordinate. -/
abbrev cond0_0 (i : grid0.Coords) : Prop := (Scalar.cmpi .ne (Scalar.extui (Scalar.cmpi .eq (BitVec.ofNat 32 (i 0).val) 0#32)) 0#32) = 1#1
/-- It holds at point 0 and at no other of the 98 — decided over the grid. -/
theorem hcond0_0 : ∀ t : Fin cfg0.N, cond0_0 (grid0.coords t) ↔ t.val = 0 :=
  (by decide +kernel : ∀ t : Fin grid0.N, cond0_0 (grid0.coords t) ↔ t.val = 0)

/-- No window is idle at any point: the body stores into both outputs at every point. -/
theorem liveAt0 (w : Fin cfg0.W) (t : Fin cfg0.N) : cfg0.idle w (grid0.coords t) = false := rfl

/-! ## The memrefs the body is called on -/

/-- One staging buffer of each output window, through which its contents are stated. -/
abbrev VO0_4 : View sig .tc .vmem S10x256 .f32 := (Memref.whole cc0_stg4_0 : Memref sig .tc .vmem S10x256 .f32).view
abbrev VO0_5 : View sig .tc .vmem S10x1 .f32 := (Memref.whole cc0_stg5_0 : Memref sig .tc .vmem S10x1 .f32).view
/-- Each window's current staging memref at point `t`, and its wholeness. -/
abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S10x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S10x1 .f32 := win0_5.stage (cfg0.slots t 5)
abbrev hs0_5 (t : Fin cfg0.N) : (ms0_5 t).IsWhole := hstage0_5 ((cfg0.slots t 5).cast nbuf0_5)
/-- The two scratch accumulators (the running sums [10, 256] and counts [10, 1]): whole scoped buffers of the kernel's own. -/
abbrev scM0_0 : Memref sig .tc .vmem S10x256 .f32 := Memref.whole cc0_scratch0
abbrev scM0_1 : Memref sig .tc .vmem S10x1 .f32 := Memref.whole cc0_scratch1
/-- The same as views: what each holds is stated through them. -/
abbrev VS0_0 : View sig .tc .vmem S10x256 .f32 := scM0_0.view
abbrev VS0_1 : View sig .tc .vmem S10x1 .f32 := scM0_1.view

/-- The call's invariant spelt out: the two accumulators, each whole at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Seg

end
-- ==== Proof.SegBits.RunFirst.lean ====
/-
  The body at the grid's first point. The two accumulators are entered at anything: the body stores
  zeros into both, then loads them back, adds the tile's per-cluster sums and counts, stores the new
  totals, and copies both accumulators into the output windows' staging buffers. What each of the four
  buffers ends with is the list of pieces its stores wrote, last first; the input windows' buffers are
  only read.
-/
import proofs.«408968_j90941637525542_1_alg».proof.Proof.SegBits.Around

set_option maxRecDepth 16384

noncomputable section

namespace Cert.Kernel.Seg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 4000000 in
/-- The pieces the body's stores leave in the two output staging buffers and the two accumulators when the
    first-point branch is taken, with the proof that from whole memrefs — the four inputs' at given contents, the
    other four at anything — the body runs to a continuation that is handed the inputs' as they were and the other
    four with those pieces written. -/
noncomputable def kernelRun0_A (c : Dev nD) (i : grid0.Coords) (arg1 : Memref sig .tc .vmem S2048x1024 .f32) (harg1 : arg1.IsWhole) (arg2 : Memref sig .tc .vmem S1x2048 .i32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S10x256 .f32) (harg5 : arg5.IsWhole) (arg6 : Memref sig .tc .vmem S10x1 .f32) (harg6 : arg6.IsWhole) (arg7 : Memref sig .tc .vmem S10x256 .f32) (harg7 : arg7.IsWhole) (arg8 : Memref sig .tc .vmem S10x1 .f32) (harg8 : arg8.IsWhole) (hc0 : cond0_0 i)
    (x0 : Vec F S2048x1024 .f32) (x1 : Vec F S1x2048 .i32) (x2 : Vec F S1024x256 .bf16) (x3 : Vec F S1x256 .f32) :
    Σ' (L4 : List (View.Piece (Elt F) S10x256 .f32)) (L5 : List (View.Piece (Elt F) S10x1 .f32)) (LS0 : List (View.Piece (Elt F) S10x256 .f32)), { LS1 : List (View.Piece (Elt F) S10x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__seg_kernel i arg1 harg1 arg2 harg2 arg3 harg3 arg4 harg4 arg5 harg5 arg6 harg6 arg7 harg7 arg8 harg8) K } := by
  refine ⟨?_, ?_, ?_, ?_, fun E K => ?run⟩
  case run =>
    simp only [cc0__seg_kernel_eq_skeleton]; unfold cc0__seg_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [HS0]; · iexists _; iexact HS0
    iexists _; iexact HS1

end Cert.Kernel.Seg

end
-- ==== Proof.SegBits.RunLater.lean ====
/-
  The body at a grid point after the first. The reset branch is not taken: the two accumulators are
  entered at what the point before left (`xs0`: the running per-cluster sums, `xs1`: the running counts);
  the body loads them, adds the tile's per-cluster sums and counts, stores the new totals, and copies
  both accumulators into the output windows' staging buffers.
-/
import proofs.«408968_j90941637525542_1_alg».proof.Proof.SegBits.RunFirst

set_option maxRecDepth 16384

noncomputable section

namespace Cert.Kernel.Seg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 4000000 in
/-- The pieces the body's stores leave in the two output staging buffers and the two accumulators when the
    first-point branch is not taken, with the proof that from whole memrefs — the four inputs' and the two
    accumulators' at given contents, the two outputs' at anything — the body runs to a continuation that is handed the
    inputs' as they were and the other four with those pieces written. -/
noncomputable def kernelRun0_B (c : Dev nD) (i : grid0.Coords) (arg1 : Memref sig .tc .vmem S2048x1024 .f32) (harg1 : arg1.IsWhole) (arg2 : Memref sig .tc .vmem S1x2048 .i32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S10x256 .f32) (harg5 : arg5.IsWhole) (arg6 : Memref sig .tc .vmem S10x1 .f32) (harg6 : arg6.IsWhole) (arg7 : Memref sig .tc .vmem S10x256 .f32) (harg7 : arg7.IsWhole) (arg8 : Memref sig .tc .vmem S10x1 .f32) (harg8 : arg8.IsWhole) (hc0 : ¬cond0_0 i)
    (x0 : Vec F S2048x1024 .f32) (x1 : Vec F S1x2048 .i32) (x2 : Vec F S1024x256 .bf16) (x3 : Vec F S1x256 .f32) (xs0 : Vec F S10x256 .f32) (xs1 : Vec F S10x1 .f32) :
    Σ' (L4 : List (View.Piece (Elt F) S10x256 .f32)) (L5 : List (View.Piece (Elt F) S10x1 .f32)) (LS0 : List (View.Piece (Elt F) S10x256 .f32)), { LS1 : List (View.Piece (Elt F) S10x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__seg_kernel i arg1 harg1 arg2 harg2 arg3 harg3 arg4 harg4 arg5 harg5 arg6 harg6 arg7 harg7 arg8 harg8) K } := by
  refine ⟨?_, ?_, ?_, ?_, fun E K => ?run⟩
  case run =>
    simp only [cc0__seg_kernel_eq_skeleton]; unfold cc0__seg_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg7.eq_unread hfs0; obtain rfl := harg8.eq_unread hfs1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [HS0]; · iexists _; iexact HS0
    iexists _; iexact HS1

end Cert.Kernel.Seg

end
-- ==== Proof.SegBits.Accumulate.lean ====
/-
  The call, point by point.

  What the two output staging buffers and the two accumulators hold after the body at grid point n,
  by recursion on n: at point 0 the first-point case's pieces (accumulators reset, then the tile added);
  at point n + 1 the later case's, run on what point n left in the two accumulators. The call's
  invariant before point 0 is "both accumulators at anything"; before point n + 1 it holds them at
  exactly what point n left. With that the body meets its obligation at every one of the 98 points,
  so @main runs: the call's arrays end as the library computes from these per-point contents, every
  other buffer as the sixty-nine later operations leave it, and the fourteen arguments as launched.
-/
import proofs.«408968_j90941637525542_1_alg».proof.Proof.SegBits.RunLater

set_option maxRecDepth 16384

noncomputable section

namespace Cert.Kernel.Seg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves, as pieces read back -/

/-- Case A's pieces for output window 4 (the sums) tile its block, so they cover it. -/
theorem cover0_A_4 (c : Dev nD) (i : grid0.Coords) (arg1 : Memref sig .tc .vmem S2048x1024 .f32) (harg1 : arg1.IsWhole) (arg2 : Memref sig .tc .vmem S1x2048 .i32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S10x256 .f32) (harg5 : arg5.IsWhole) (arg6 : Memref sig .tc .vmem S10x1 .f32) (harg6 : arg6.IsWhole) (arg7 : Memref sig .tc .vmem S10x256 .f32) (harg7 : arg7.IsWhole) (arg8 : Memref sig .tc .vmem S10x1 .f32) (harg8 : arg8.IsWhole) (hc0 : cond0_0 i)
    (x0 : Vec F S2048x1024 .f32) (x1 : Vec F S1x2048 .i32) (x2 : Vec F S1024x256 .bf16) (x3 : Vec F S1x256 .f32) (y : S10x256.Idx) :
    ∃ pc ∈ (kernelRun0_A c i arg1 harg1 arg2 harg2 arg3 harg3 arg4 harg4 arg5 harg5 arg6 harg6 arg7 harg7 arg8 harg8 hc0 x0 x1 x2 x3).1, y ∈ pc.1.set :=
  View.cover_of_tiledL (kernelRun0_A c i arg1 harg1 arg2 harg2 arg3 harg3 arg4 harg4 arg5 harg5 arg6 harg6 arg7 harg7 arg8 harg8 hc0 x0 x1 x2 x3).1 S10x256.size (by sl_kernel_rfl) y
/-- What case A leaves in output window 4's staging buffer: its pieces read back. -/
def out0_A_4 (c : Dev nD) (i : grid0.Coords) (arg1 : Memref sig .tc .vmem S2048x1024 .f32) (harg1 : arg1.IsWhole) (arg2 : Memref sig .tc .vmem S1x2048 .i32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S10x256 .f32) (harg5 : arg5.IsWhole) (arg6 : Memref sig .tc .vmem S10x1 .f32) (harg6 : arg6.IsWhole) (arg7 : Memref sig .tc .vmem S10x256 .f32) (harg7 : arg7.IsWhole) (arg8 : Memref sig .tc .vmem S10x1 .f32) (harg8 : arg8.IsWhole) (hc0 : cond0_0 i)
    (x0 : Vec F S2048x1024 .f32) (x1 : Vec F S1x2048 .i32) (x2 : Vec F S1024x256 .bf16) (x3 : Vec F S1x256 .f32) : Vec F S10x256 .f32 :=
  VO0_4.read (Elt F) (VO0_4.writes (Elt F) VO0_4.junk (kernelRun0_A c i arg1 harg1 arg2 harg2 arg3 harg3 arg4 harg4 arg5 harg5 arg6 harg6 arg7 harg7 arg8 harg8 hc0 x0 x1 x2 x3).1)
/-- Case A's pieces for output window 5 (the counts) tile its block, so they cover it. -/
theorem cover0_A_5 (c : Dev nD) (i : grid0.Coords) (arg1 : Memref sig .tc .vmem S2048x1024 .f32) (harg1 : arg1.IsWhole) (arg2 : Memref sig .tc .vmem S1x2048 .i32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S10x256 .f32) (harg5 : arg5.IsWhole) (arg6 : Memref sig .tc .vmem S10x1 .f32) (harg6 : arg6.IsWhole) (arg7 : Memref sig .tc .vmem S10x256 .f32) (harg7 : arg7.IsWhole) (arg8 : Memref sig .tc .vmem S10x1 .f32) (harg8 : arg8.IsWhole) (hc0 : cond0_0 i)
    (x0 : Vec F S2048x1024 .f32) (x1 : Vec F S1x2048 .i32) (x2 : Vec F S1024x256 .bf16) (x3 : Vec F S1x256 .f32) (y : S10x1.Idx) :
    ∃ pc ∈ (kernelRun0_A c i arg1 harg1 arg2 harg2 arg3 harg3 arg4 harg4 arg5 harg5 arg6 harg6 arg7 harg7 arg8 harg8 hc0 x0 x1 x2 x3).2.1, y ∈ pc.1.set :=
  View.cover_of_tiledL (kernelRun0_A c i arg1 harg1 arg2 harg2 arg3 harg3 arg4 harg4 arg5 harg5 arg6 harg6 arg7 harg7 arg8 harg8 hc0 x0 x1 x2 x3).2.1 S10x1.size (by sl_kernel_rfl) y
/-- What case A leaves in output window 5's staging buffer: its pieces read back. -/
def out0_A_5 (c : Dev nD) (i : grid0.Coords) (arg1 : Memref sig .tc .vmem S2048x1024 .f32) (harg1 : arg1.IsWhole) (arg2 : Memref sig .tc .vmem S1x2048 .i32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S10x256 .f32) (harg5 : arg5.IsWhole) (arg6 : Memref sig .tc .vmem S10x1 .f32) (harg6 : arg6.IsWhole) (arg7 : Memref sig .tc .vmem S10x256 .f32) (harg7 : arg7.IsWhole) (arg8 : Memref sig .tc .vmem S10x1 .f32) (harg8 : arg8.IsWhole) (hc0 : cond0_0 i)
    (x0 : Vec F S2048x1024 .f32) (x1 : Vec F S1x2048 .i32) (x2 : Vec F S1024x256 .bf16) (x3 : Vec F S1x256 .f32) : Vec F S10x1 .f32 :=
  VO0_5.read (Elt F) (VO0_5.writes (Elt F) VO0_5.junk (kernelRun0_A c i arg1 harg1 arg2 harg2 arg3 harg3 arg4 harg4 arg5 harg5 arg6 harg6 arg7 harg7 arg8 harg8 hc0 x0 x1 x2 x3).2.1)
/-- Case A's pieces for the sums accumulator cover it. -/
theorem scover0_A_0 (c : Dev nD) (i : grid0.Coords) (arg1 : Memref sig .tc .vmem S2048x1024 .f32) (harg1 : arg1.IsWhole) (arg2 : Memref sig .tc .vmem S1x2048 .i32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S10x256 .f32) (harg5 : arg5.IsWhole) (arg6 : Memref sig .tc .vmem S10x1 .f32) (harg6 : arg6.IsWhole) (arg7 : Memref sig .tc .vmem S10x256 .f32) (harg7 : arg7.IsWhole) (arg8 : Memref sig .tc .vmem S10x1 .f32) (harg8 : arg8.IsWhole) (hc0 : cond0_0 i)
    (x0 : Vec F S2048x1024 .f32) (x1 : Vec F S1x2048 .i32) (x2 : Vec F S1024x256 .bf16) (x3 : Vec F S1x256 .f32) (y : S10x256.Idx) :
    ∃ pc ∈ (kernelRun0_A c i arg1 harg1 arg2 harg2 arg3 harg3 arg4 harg4 arg5 harg5 arg6 harg6 arg7 harg7 arg8 harg8 hc0 x0 x1 x2 x3).2.2.1, y ∈ pc.1.set :=
  View.cover_of_tiledL (kernelRun0_A c i arg1 harg1 arg2 harg2 arg3 harg3 arg4 harg4 arg5 harg5 arg6 harg6 arg7 harg7 arg8 harg8 hc0 x0 x1 x2 x3).2.2.1 S10x256.size (by sl_kernel_rfl) y
/-- What case A leaves in the sums accumulator: its pieces read back. -/
def sout0_A_0 (c : Dev nD) (i : grid0.Coords) (arg1 : Memref sig .tc .vmem S2048x1024 .f32) (harg1 : arg1.IsWhole) (arg2 : Memref sig .tc .vmem S1x2048 .i32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S10x256 .f32) (harg5 : arg5.IsWhole) (arg6 : Memref sig .tc .vmem S10x1 .f32) (harg6 : arg6.IsWhole) (arg7 : Memref sig .tc .vmem S10x256 .f32) (harg7 : arg7.IsWhole) (arg8 : Memref sig .tc .vmem S10x1 .f32) (harg8 : arg8.IsWhole) (hc0 : cond0_0 i)
    (x0 : Vec F S2048x1024 .f32) (x1 : Vec F S1x2048 .i32) (x2 : Vec F S1024x256 .bf16) (x3 : Vec F S1x256 .f32) : Vec F S10x256 .f32 :=
  VS0_0.read (Elt F) (VS0_0.writes (Elt F) VS0_0.junk (kernelRun0_A c i arg1 harg1 arg2 harg2 arg3 harg3 arg4 harg4 arg5 harg5 arg6 harg6 arg7 harg7 arg8 harg8 hc0 x0 x1 x2 x3).2.2.1)
/-- Case A's pieces for the counts accumulator cover it. -/
theorem scover0_A_1 (c : Dev nD) (i : grid0.Coords) (arg1 : Memref sig .tc .vmem S2048x1024 .f32) (harg1 : arg1.IsWhole) (arg2 : Memref sig .tc .vmem S1x2048 .i32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S10x256 .f32) (harg5 : arg5.IsWhole) (arg6 : Memref sig .tc .vmem S10x1 .f32) (harg6 : arg6.IsWhole) (arg7 : Memref sig .tc .vmem S10x256 .f32) (harg7 : arg7.IsWhole) (arg8 : Memref sig .tc .vmem S10x1 .f32) (harg8 : arg8.IsWhole) (hc0 : cond0_0 i)
    (x0 : Vec F S2048x1024 .f32) (x1 : Vec F S1x2048 .i32) (x2 : Vec F S1024x256 .bf16) (x3 : Vec F S1x256 .f32) (y : S10x1.Idx) :
    ∃ pc ∈ (kernelRun0_A c i arg1 harg1 arg2 harg2 arg3 harg3 arg4 harg4 arg5 harg5 arg6 harg6 arg7 harg7 arg8 harg8 hc0 x0 x1 x2 x3).2.2.2.1, y ∈ pc.1.set :=
  View.cover_of_tiledL (kernelRun0_A c i arg1 harg1 arg2 harg2 arg3 harg3 arg4 harg4 arg5 harg5 arg6 harg6 arg7 harg7 arg8 harg8 hc0 x0 x1 x2 x3).2.2.2.1 S10x1.size (by sl_kernel_rfl) y
/-- What case A leaves in the counts accumulator: its pieces read back. -/
def sout0_A_1 (c : Dev nD) (i : grid0.Coords) (arg1 : Memref sig .tc .vmem S2048x1024 .f32) (harg1 : arg1.IsWhole) (arg2 : Memref sig .tc .vmem S1x2048 .i32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S10x256 .f32) (harg5 : arg5.IsWhole) (arg6 : Memref sig .tc .vmem S10x1 .f32) (harg6 : arg6.IsWhole) (arg7 : Memref sig .tc .vmem S10x256 .f32) (harg7 : arg7.IsWhole) (arg8 : Memref sig .tc .vmem S10x1 .f32) (harg8 : arg8.IsWhole) (hc0 : cond0_0 i)
    (x0 : Vec F S2048x1024 .f32) (x1 : Vec F S1x2048 .i32) (x2 : Vec F S1024x256 .bf16) (x3 : Vec F S1x256 .f32) : Vec F S10x1 .f32 :=
  VS0_1.read (Elt F) (VS0_1.writes (Elt F) VS0_1.junk (kernelRun0_A c i arg1 harg1 arg2 harg2 arg3 harg3 arg4 harg4 arg5 harg5 arg6 harg6 arg7 harg7 arg8 harg8 hc0 x0 x1 x2 x3).2.2.2.1)

/-- Case B's pieces for output window 4 (the sums) tile its block, so they cover it. -/
theorem cover0_B_4 (c : Dev nD) (i : grid0.Coords) (arg1 : Memref sig .tc .vmem S2048x1024 .f32) (harg1 : arg1.IsWhole) (arg2 : Memref sig .tc .vmem S1x2048 .i32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S10x256 .f32) (harg5 : arg5.IsWhole) (arg6 : Memref sig .tc .vmem S10x1 .f32) (harg6 : arg6.IsWhole) (arg7 : Memref sig .tc .vmem S10x256 .f32) (harg7 : arg7.IsWhole) (arg8 : Memref sig .tc .vmem S10x1 .f32) (harg8 : arg8.IsWhole) (hc0 : ¬cond0_0 i)
    (x0 : Vec F S2048x1024 .f32) (x1 : Vec F S1x2048 .i32) (x2 : Vec F S1024x256 .bf16) (x3 : Vec F S1x256 .f32) (xs0 : Vec F S10x256 .f32) (xs1 : Vec F S10x1 .f32) (y : S10x256.Idx) :
    ∃ pc ∈ (kernelRun0_B c i arg1 harg1 arg2 harg2 arg3 harg3 arg4 harg4 arg5 harg5 arg6 harg6 arg7 harg7 arg8 harg8 hc0 x0 x1 x2 x3 xs0 xs1).1, y ∈ pc.1.set :=
  View.cover_of_tiledL (kernelRun0_B c i arg1 harg1 arg2 harg2 arg3 harg3 arg4 harg4 arg5 harg5 arg6 harg6 arg7 harg7 arg8 harg8 hc0 x0 x1 x2 x3 xs0 xs1).1 S10x256.size (by sl_kernel_rfl) y
/-- What case B leaves in output window 4's staging buffer: its pieces read back. -/
def out0_B_4 (c : Dev nD) (i : grid0.Coords) (arg1 : Memref sig .tc .vmem S2048x1024 .f32) (harg1 : arg1.IsWhole) (arg2 : Memref sig .tc .vmem S1x2048 .i32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S10x256 .f32) (harg5 : arg5.IsWhole) (arg6 : Memref sig .tc .vmem S10x1 .f32) (harg6 : arg6.IsWhole) (arg7 : Memref sig .tc .vmem S10x256 .f32) (harg7 : arg7.IsWhole) (arg8 : Memref sig .tc .vmem S10x1 .f32) (harg8 : arg8.IsWhole) (hc0 : ¬cond0_0 i)
    (x0 : Vec F S2048x1024 .f32) (x1 : Vec F S1x2048 .i32) (x2 : Vec F S1024x256 .bf16) (x3 : Vec F S1x256 .f32) (xs0 : Vec F S10x256 .f32) (xs1 : Vec F S10x1 .f32) : Vec F S10x256 .f32 :=
  VO0_4.read (Elt F) (VO0_4.writes (Elt F) VO0_4.junk (kernelRun0_B c i arg1 harg1 arg2 harg2 arg3 harg3 arg4 harg4 arg5 harg5 arg6 harg6 arg7 harg7 arg8 harg8 hc0 x0 x1 x2 x3 xs0 xs1).1)
/-- Case B's pieces for output window 5 (the counts) tile its block, so they cover it. -/
theorem cover0_B_5 (c : Dev nD) (i : grid0.Coords) (arg1 : Memref sig .tc .vmem S2048x1024 .f32) (harg1 : arg1.IsWhole) (arg2 : Memref sig .tc .vmem S1x2048 .i32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S10x256 .f32) (harg5 : arg5.IsWhole) (arg6 : Memref sig .tc .vmem S10x1 .f32) (harg6 : arg6.IsWhole) (arg7 : Memref sig .tc .vmem S10x256 .f32) (harg7 : arg7.IsWhole) (arg8 : Memref sig .tc .vmem S10x1 .f32) (harg8 : arg8.IsWhole) (hc0 : ¬cond0_0 i)
    (x0 : Vec F S2048x1024 .f32) (x1 : Vec F S1x2048 .i32) (x2 : Vec F S1024x256 .bf16) (x3 : Vec F S1x256 .f32) (xs0 : Vec F S10x256 .f32) (xs1 : Vec F S10x1 .f32) (y : S10x1.Idx) :
    ∃ pc ∈ (kernelRun0_B c i arg1 harg1 arg2 harg2 arg3 harg3 arg4 harg4 arg5 harg5 arg6 harg6 arg7 harg7 arg8 harg8 hc0 x0 x1 x2 x3 xs0 xs1).2.1, y ∈ pc.1.set :=
  View.cover_of_tiledL (kernelRun0_B c i arg1 harg1 arg2 harg2 arg3 harg3 arg4 harg4 arg5 harg5 arg6 harg6 arg7 harg7 arg8 harg8 hc0 x0 x1 x2 x3 xs0 xs1).2.1 S10x1.size (by sl_kernel_rfl) y
/-- What case B leaves in output window 5's staging buffer: its pieces read back. -/
def out0_B_5 (c : Dev nD) (i : grid0.Coords) (arg1 : Memref sig .tc .vmem S2048x1024 .f32) (harg1 : arg1.IsWhole) (arg2 : Memref sig .tc .vmem S1x2048 .i32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S10x256 .f32) (harg5 : arg5.IsWhole) (arg6 : Memref sig .tc .vmem S10x1 .f32) (harg6 : arg6.IsWhole) (arg7 : Memref sig .tc .vmem S10x256 .f32) (harg7 : arg7.IsWhole) (arg8 : Memref sig .tc .vmem S10x1 .f32) (harg8 : arg8.IsWhole) (hc0 : ¬cond0_0 i)
    (x0 : Vec F S2048x1024 .f32) (x1 : Vec F S1x2048 .i32) (x2 : Vec F S1024x256 .bf16) (x3 : Vec F S1x256 .f32) (xs0 : Vec F S10x256 .f32) (xs1 : Vec F S10x1 .f32) : Vec F S10x1 .f32 :=
  VO0_5.read (Elt F) (VO0_5.writes (Elt F) VO0_5.junk (kernelRun0_B c i arg1 harg1 arg2 harg2 arg3 harg3 arg4 harg4 arg5 harg5 arg6 harg6 arg7 harg7 arg8 harg8 hc0 x0 x1 x2 x3 xs0 xs1).2.1)
/-- Case B's pieces for the sums accumulator cover it. -/
theorem scover0_B_0 (c : Dev nD) (i : grid0.Coords) (arg1 : Memref sig .tc .vmem S2048x1024 .f32) (harg1 : arg1.IsWhole) (arg2 : Memref sig .tc .vmem S1x2048 .i32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S10x256 .f32) (harg5 : arg5.IsWhole) (arg6 : Memref sig .tc .vmem S10x1 .f32) (harg6 : arg6.IsWhole) (arg7 : Memref sig .tc .vmem S10x256 .f32) (harg7 : arg7.IsWhole) (arg8 : Memref sig .tc .vmem S10x1 .f32) (harg8 : arg8.IsWhole) (hc0 : ¬cond0_0 i)
    (x0 : Vec F S2048x1024 .f32) (x1 : Vec F S1x2048 .i32) (x2 : Vec F S1024x256 .bf16) (x3 : Vec F S1x256 .f32) (xs0 : Vec F S10x256 .f32) (xs1 : Vec F S10x1 .f32) (y : S10x256.Idx) :
    ∃ pc ∈ (kernelRun0_B c i arg1 harg1 arg2 harg2 arg3 harg3 arg4 harg4 arg5 harg5 arg6 harg6 arg7 harg7 arg8 harg8 hc0 x0 x1 x2 x3 xs0 xs1).2.2.1, y ∈ pc.1.set :=
  View.cover_of_tiledL (kernelRun0_B c i arg1 harg1 arg2 harg2 arg3 harg3 arg4 harg4 arg5 harg5 arg6 harg6 arg7 harg7 arg8 harg8 hc0 x0 x1 x2 x3 xs0 xs1).2.2.1 S10x256.size (by sl_kernel_rfl) y
/-- What case B leaves in the sums accumulator: its pieces read back. -/
def sout0_B_0 (c : Dev nD) (i : grid0.Coords) (arg1 : Memref sig .tc .vmem S2048x1024 .f32) (harg1 : arg1.IsWhole) (arg2 : Memref sig .tc .vmem S1x2048 .i32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S10x256 .f32) (harg5 : arg5.IsWhole) (arg6 : Memref sig .tc .vmem S10x1 .f32) (harg6 : arg6.IsWhole) (arg7 : Memref sig .tc .vmem S10x256 .f32) (harg7 : arg7.IsWhole) (arg8 : Memref sig .tc .vmem S10x1 .f32) (harg8 : arg8.IsWhole) (hc0 : ¬cond0_0 i)
    (x0 : Vec F S2048x1024 .f32) (x1 : Vec F S1x2048 .i32) (x2 : Vec F S1024x256 .bf16) (x3 : Vec F S1x256 .f32) (xs0 : Vec F S10x256 .f32) (xs1 : Vec F S10x1 .f32) : Vec F S10x256 .f32 :=
  VS0_0.read (Elt F) (VS0_0.writes (Elt F) VS0_0.junk (kernelRun0_B c i arg1 harg1 arg2 harg2 arg3 harg3 arg4 harg4 arg5 harg5 arg6 harg6 arg7 harg7 arg8 harg8 hc0 x0 x1 x2 x3 xs0 xs1).2.2.1)
/-- Case B's pieces for the counts accumulator cover it. -/
theorem scover0_B_1 (c : Dev nD) (i : grid0.Coords) (arg1 : Memref sig .tc .vmem S2048x1024 .f32) (harg1 : arg1.IsWhole) (arg2 : Memref sig .tc .vmem S1x2048 .i32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S10x256 .f32) (harg5 : arg5.IsWhole) (arg6 : Memref sig .tc .vmem S10x1 .f32) (harg6 : arg6.IsWhole) (arg7 : Memref sig .tc .vmem S10x256 .f32) (harg7 : arg7.IsWhole) (arg8 : Memref sig .tc .vmem S10x1 .f32) (harg8 : arg8.IsWhole) (hc0 : ¬cond0_0 i)
    (x0 : Vec F S2048x1024 .f32) (x1 : Vec F S1x2048 .i32) (x2 : Vec F S1024x256 .bf16) (x3 : Vec F S1x256 .f32) (xs0 : Vec F S10x256 .f32) (xs1 : Vec F S10x1 .f32) (y : S10x1.Idx) :
    ∃ pc ∈ (kernelRun0_B c i arg1 harg1 arg2 harg2 arg3 harg3 arg4 harg4 arg5 harg5 arg6 harg6 arg7 harg7 arg8 harg8 hc0 x0 x1 x2 x3 xs0 xs1).2.2.2.1, y ∈ pc.1.set :=
  View.cover_of_tiledL (kernelRun0_B c i arg1 harg1 arg2 harg2 arg3 harg3 arg4 harg4 arg5 harg5 arg6 harg6 arg7 harg7 arg8 harg8 hc0 x0 x1 x2 x3 xs0 xs1).2.2.2.1 S10x1.size (by sl_kernel_rfl) y
/-- What case B leaves in the counts accumulator: its pieces read back. -/
def sout0_B_1 (c : Dev nD) (i : grid0.Coords) (arg1 : Memref sig .tc .vmem S2048x1024 .f32) (harg1 : arg1.IsWhole) (arg2 : Memref sig .tc .vmem S1x2048 .i32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S10x256 .f32) (harg5 : arg5.IsWhole) (arg6 : Memref sig .tc .vmem S10x1 .f32) (harg6 : arg6.IsWhole) (arg7 : Memref sig .tc .vmem S10x256 .f32) (harg7 : arg7.IsWhole) (arg8 : Memref sig .tc .vmem S10x1 .f32) (harg8 : arg8.IsWhole) (hc0 : ¬cond0_0 i)
    (x0 : Vec F S2048x1024 .f32) (x1 : Vec F S1x2048 .i32) (x2 : Vec F S1024x256 .bf16) (x3 : Vec F S1x256 .f32) (xs0 : Vec F S10x256 .f32) (xs1 : Vec F S10x1 .f32) : Vec F S10x1 .f32 :=
  VS0_1.read (Elt F) (VS0_1.writes (Elt F) VS0_1.junk (kernelRun0_B c i arg1 harg1 arg2 harg2 arg3 harg3 arg4 harg4 arg5 harg5 arg6 harg6 arg7 harg7 arg8 harg8 hc0 x0 x1 x2 x3 xs0 xs1).2.2.2.1)

/-! ## What the buffers hold after each point -/

/-- THE ACCUMULATION. After the body at point `n`: output window 4's buffer, output window 5's, the sums accumulator, the
    counts accumulator. Point 0 is the first-point case; point `n + 1` the later case on what point `n` left in the
    two accumulators. -/
def outsAt0 (c : Dev nD) : (n : ℕ) → n < cfg0.N → Vec F S10x256 .f32 × Vec F S10x1 .f32 × Vec F S10x256 .f32 × Vec F S10x1 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr rfl) (iblk m c 0 ⟨0, hn⟩) (iblk m c 1 ⟨0, hn⟩) (iblk m c 2 ⟨0, hn⟩) (iblk m c 3 ⟨0, hn⟩),
      out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr rfl) (iblk m c 0 ⟨0, hn⟩) (iblk m c 1 ⟨0, hn⟩) (iblk m c 2 ⟨0, hn⟩) (iblk m c 3 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr rfl) (iblk m c 0 ⟨0, hn⟩) (iblk m c 1 ⟨0, hn⟩) (iblk m c 2 ⟨0, hn⟩) (iblk m c 3 ⟨0, hn⟩),
      sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr rfl) (iblk m c 0 ⟨0, hn⟩) (iblk m c 1 ⟨0, hn⟩) (iblk m c 2 ⟨0, hn⟩) (iblk m c 3 ⟨0, hn⟩))
  | n + 1, hn => (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2,
      out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2,
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2,
      sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2)

/-- `outsAt0` at the first point. -/
theorem outsAt0_A (c : Dev nD) (t : Fin cfg0.N) (h0 : t.val = 0) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t),
      out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t),
      sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t),
      sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t)) := by
  obtain ⟨n, hn⟩ := t
  cases n with
  | zero => rfl
  | succ n => exact absurd h0 (Nat.succ_ne_zero n)

/-- `outsAt0` at a later point: the later case over what the point before left. -/
theorem outsAt0_B (c : Dev nD) (t : Fin cfg0.N) (h0 : ¬t.val = 0) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2,
      out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2,
      sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2,
      sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact absurd rfl h0
  | succ n => rfl

/-- The call's invariant before position `n`: before the first point both accumulators at anything; afterwards each at
    what the point before left in it; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2)) ∗ (∃ r, prngReg c r)) := by
  cases n with
  | zero => exact absurd rfl hz
  | succ n => rfl

/-! ## The call's proof data -/

/-- On core `c`: the arrays as the call finds them; after the body at point `t` each input's buffer at its block and the
    outputs' at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point. The inputs' buffers hold their blocks. At point 0 the invariant hands the body both accumulators
    at anything and the first-point case runs; at a later point it hands them at what the point before left and the later
    case runs on those. Either way the invariant takes the accumulators back at this point's contents (the case's pieces
    cover them), and each output's buffer is left at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from rfl, after0_0]
  rw [show (dats m 0 c).leavesExact 1 t = owns (c : Thread nD τ) (ms0_1 t) fullShare ((dats m 0 c).after 1 t) from rfl, after0_1]
  rw [show (dats m 0 c).leavesExact 2 t = owns (c : Thread nD τ) (ms0_2 t) fullShare ((dats m 0 c).after 2 t) from rfl, after0_2]
  rw [show (dats m 0 c).leavesExact 3 t = owns (c : Thread nD τ) (ms0_3 t) fullShare ((dats m 0 c).after 3 t) from rfl, after0_3]
  rw [show (dats m 0 c).leavesExact 4 t = owns (c : Thread nD τ) (ms0_4 t) fullShare ((dats m 0 c).after 4 t) from rfl, after0_4]
  rw [show (dats m 0 c).leavesExact 5 t = owns (c : Thread nD τ) (ms0_5 t) fullShare ((dats m 0 c).after 5 t) from rfl, after0_5]
  by_cases h0 : t.val = 0
  · rw [outsAt0_A m c t h0]
    unfold out0_A_4 out0_A_5 sout0_A_0 sout0_A_1; (try dsimp only)
    rw [PhiS_castSucc m c t, PhiS_zero m c _ _ h0, PhiA0_eq]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ _ _ ((hcond0_0 t).mpr h0) (iblk m c 0 t) (iblk m c 1 t) (iblk m c 2 t) (iblk m c 3 t)).2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    iintro ⟨H0, H1, H2, H3, ⟨%e4, H4⟩, ⟨%e5, H5⟩, ⟨%es0, HS0⟩, ⟨%es1, HS1⟩⟩
    isplitl [HS0 HS1 Hg]
    · isplitl [HS0 HS1]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _)
        · unfold owns; iexists _; isplitr
          swap; · iexact HS1
          ipureintro; exact View.read_writes_of_cover _ _ _ _ _ (scover0_A_1 c _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_A_4 c _ _ _ _ _ _ _ _ _ _ _ _ _ _ _ _ _ _ _ _ _ _)
    unfold owns; iexists _; isplitr
    swap; · iexact H5
    ipureintro; exact View.read_writes_of_cover _ _ _ _ _ (cover0_A_5 c _ _ _ _ _ _ _ _ _ _ _ _ _ _ _ _ _ _ _ _ _ _)
  · rw [outsAt0_B m c t h0]
    unfold out0_B_4 out0_B_5 sout0_B_0 sout0_B_1; (try dsimp only)
    rw [PhiS_castSucc m c t, PhiS_pos m c _ _ h0]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ _ _ _ _ (fun h => h0 ((hcond0_0 t).mp h)) (iblk m c 0 t) (iblk m c 1 t) (iblk m c 2 t) (iblk m c 3 t) _ _).2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    iintro ⟨H0, H1, H2, H3, ⟨%e4, H4⟩, ⟨%e5, H5⟩, ⟨%es0, HS0⟩, ⟨%es1, HS1⟩⟩
    isplitl [HS0 HS1 Hg]
    · isplitl [HS0 HS1]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _)
        · unfold owns; iexists _; isplitr
          swap; · iexact HS1
          ipureintro; exact View.read_writes_of_cover _ _ _ _ _ (scover0_B_1 c _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_B_4 c _ _ _ _ _ _ _ _ _ _ _ _ _ _ _ _ _ _ _ _ _ _ _ _)
    unfold owns; iexists _; isplitr
    swap; · iexact H5
    ipureintro; exact View.read_writes_of_cover _ _ _ _ _ (cover0_B_5 c _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the call is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives it back: the accumulators' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 98 := N_0; omega)

/-! ## The run and the frame -/

set_option backward.isDefEq.respectTransparency.types false in
/-- From any memory with zero counters every weakly fair execution of @main terminates, each array of the call at what the
    library computes from the proof data and every other unscoped buffer as the later operations leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hin := hin m) (hout := hout m)

/-- The frame: @main runs and the fourteen arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (run_main m ρ)

end Cert.Kernel.Seg

end
-- ==== Proof.SegIdeal.Around.lean ====
/-
  The segment-mean program around its one kernel call.

  @main is: eleven host operations (the row array X[0] and the cluster ids padded from 200000 to
  200704 = 98 · 2048 rows — the padding rows zero, their ids -1 —, W_phi transposed, b_phi as a
  row), the call over a grid of 98 points, and sixty-nine host operations on the call's two results
  (the per-cluster sums [10, 256] and counts [10, 1]).

  Here: what every buffer holds when the call is entered (`V`: the launch memory after the eleven
  operations); that @main is those operations, the call, and the later ones as a continuation; which
  buffers each side writes (eleven intermediates before, sixty-nine after — never an argument, and
  after the call never one of the six arrays the call's windows move); window `w`'s block at grid
  point `t` read off its array (`iblk`), which is what an input window's staging buffer holds at
  every point; and that a run of @main ending with the six arrays as the call leaves them and every
  other buffer as the later operations leave it, ends with the fourteen arguments as launched.

  Then what the two control cases of the body share: the condition "this is grid point 0" (the
  accumulators are reset there and only there), the staging and scratch memrefs at a point, and the
  call's invariant spelt out (the two scratch accumulators, each whole at some contents, and the
  generator register).
-/
import proofs.«408968_j90941637525542_1_alg».proof.Proof.Gen.KernelIdeal.Launch
import proofs.«408968_j90941637525542_1_alg».proof.Proof.Gen.KernelIdeal.Skeleton
import proofs.«408968_j90941637525542_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Seg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the call -/

/-- The host operations before the call, stretch by stretch (@main's own lines and the two inlined pads). -/
abbrev headOps : List (List (HloOp τ sig (Elt F))) := [hostOps0, hostOps0_1, hostOps0_2, hostOps0_3, hostOps0_4]
/-- The host operations after the call, stretch by stretch. -/
abbrev tailOps : List (List (HloOp τ sig (Elt F))) := [hostOps1, hostOps1_1, hostOps1_2, hostOps1_3, hostOps1_4]

/-- Core `c`'s buffer contents when the call is entered: the launch memory after the operations before it. -/
abbrev V0 (c : Dev nD) : Valuation τ sig (Elt F) := StableHlo.after (List.flatten headOps) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- @main is the operations before the call, the call, and the later operations as its continuation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main headOps tailOps
    (by simp only [headOps, List.Forall]; exact ⟨hostOps0_sub, hostOps0_1_sub, hostOps0_2_sub, hostOps0_3_sub, hostOps0_4_sub⟩)
    (by simp only [headOps, List.Forall]; exact ⟨hostOps0_fresh, hostOps0_1_fresh, hostOps0_2_fresh, hostOps0_3_fresh, hostOps0_4_fresh⟩)
    main_chain

/-! ## Which buffers each side writes -/

/-- The eleven intermediates the operations before the call write. -/
abbrev headW : List (Ref sig .tc) := [main_v0, main_v1, main_v2, main_v3, main_c, main_call0_v0, main_v4, main_c_0, main_call1_v0, main_v5, main_v6]
/-- The sixty-nine intermediates (the result among them) the operations after the call write. -/
abbrev tailW : List (Ref sig .tc) := [main_v8, main_v9, main_cst, main_v10, main_v11, main_cst_1, main_v12, main_v13, main_v14, main_v15, main_v16, main_cst_2, main_call2_v0, main_call2_v1, main_call2_v2, main_v17, main_v18, main_v19, main_v20, main_v21, main_v22, main_call3_cst, main_call3_v0, main_v23, main_v24, main_v25, main_v26, main_v27, main_v28, main_v29, main_v30, main_v31, main_v32, main_v33, main_v34, main_v35, main_v36, main_cst_3, main_v37, main_v38, main_cst_4, main_v39, main_v40, main_v41, main_v42, main_v43, main_v44, main_v45, main_v46, main_v47, main_cst_5, main_v48, main_cst_6, main_v49, main_v50, main_v51, main_v52, main_v53, main_v54, main_cst_7, main_v55, main_v56, main_v57, main_v58, main_v59, main_v60, main_v61, main_v62, main_v63]

/-- One result buffer lies in a list of references that names it. -/
theorem single_sub_of_mem {W : List (Ref sig .tc)} (y : Ref sig .tc) (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

/-- Every operation before the call writes one of the eleven. -/
theorem head_writes : (List.flatten (headOps (F := F))).Forall fun op => op.writes ⊆ (headW.map (Proc.devRef (τ := τ) .tc)).toFinset := by
  simp only [headOps, hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes]
  repeat' apply And.intro
  all_goals exact single_sub_of_mem _ (by decide)

/-- Every operation after the call writes one of the sixty-nine. -/
theorem tail_writes : (List.flatten (tailOps (F := F))).Forall fun op => op.writes ⊆ (tailW.map (Proc.devRef (τ := τ) .tc)).toFinset := by
  simp only [tailOps, hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes]
  repeat' apply And.intro
  all_goals exact single_sub_of_mem _ (by decide)

/-- A buffer outside the eleven is entered as launched. -/
theorem V_of_not_written (c : Dev nD) (r : Ref sig .tc) (hr : r ∉ headW) : V m c r = m ((c : Thread nD τ).loc r) :=
  StableHlo.after_of_writes_sub _ _ head_writes hr

/-- The later operations touch the call's arrays and the buffers that bypass it only. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
/-- They allocate nothing. -/
theorem tail_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
/-- And write none of the six arrays the call's windows move (each writes one of the sixty-nine, which are others). -/
theorem tail_keeps : ∀ ops ∈ (tailOps : List (List (HloOp τ sig (Elt F)))), ∀ op ∈ ops,
    ∀ w, Proc.devRef .tc (Pipeline.arrRef spec0 w) ∉ op.writes := by
  intro ops hops op hop w hw
  have hmem : op ∈ List.flatten (tailOps (F := F)) := List.mem_flatten.mpr ⟨ops, hops, hop⟩
  obtain ⟨y, hy, he⟩ := List.mem_map.mp (List.mem_toFinset.mp ((List.forall_iff_forall_mem.mp tail_writes) op hmem hw))
  exact (by decide : ∀ w, Pipeline.arrRef spec0 w ∉ tailW) w (Proc.devRef_injective _ he ▸ hy)

/-- A buffer that is none of the sixty-nine and no array of the call holds, after the later operations, what it held
    when the call was entered. -/
theorem tail_of_not_written (dats : (p : Fin 1) → (c : Dev nD) → Dat τ (Elt F) Unit ℕ (UR sig nD τ) ℕ (cfgs p) c) (c : Dev nD)
    (r : Ref sig .tc) (hr : r ∉ tailW) (ha : ∀ w, Pipeline.arrRef spec0 w ≠ r) :
    Pipeline.afterTail₀ cfgs dats 0 (V0 m) tailOps c r = V m c r := by
  unfold Pipeline.afterTail₀
  rw [StableHlo.after_of_writes_sub _ _ tail_writes hr, Pipeline.withArrays_of_ne _ c (V0 m c) _ r ha]

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (unfetched, the block
    index has not moved): windows 0 and 1 move every point, windows 2 and 3 are fetched once. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The arguments end as launched -/

/-- An argument is none of the six arrays, and neither side of the call writes it: read after the later operations it
    is the launch memory's. -/
theorem arg_kept (dats : (p : Fin 1) → (c : Dev nD) → Dat τ (Elt F) Unit ℕ (UR sig nD τ) ℕ (cfgs p) c) (c : Dev nD)
    (r : Ref sig .tc) (hh : r ∉ headW) (ht : r ∉ tailW) (ha : ∀ w, Pipeline.arrRef spec0 w ≠ r) :
    Pipeline.afterTail₀ cfgs dats 0 (V0 m) tailOps c r = m ((c : Thread nD τ).loc r) :=
  (tail_of_not_written m dats c r ht ha).trans (V_of_not_written m c r hh)

/-- From a run of @main that ends with the call's arrays as the call leaves them and every other unscoped buffer as the
    later operations leave it: the fourteen arguments end as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).2 main_arg0 (Pipeline.mem_restRefs_of main_arg0 (by decide) (by decide))).trans (arg_kept m dats c main_arg0 (by decide) (by decide) (by decide)),
    ((h c).2 main_arg1 (Pipeline.mem_restRefs_of main_arg1 (by decide) (by decide))).trans (arg_kept m dats c main_arg1 (by decide) (by decide) (by decide)),
    ((h c).2 main_arg2 (Pipeline.mem_restRefs_of main_arg2 (by decide) (by decide))).trans (arg_kept m dats c main_arg2 (by decide) (by decide) (by decide)),
    ((h c).2 main_arg3 (Pipeline.mem_restRefs_of main_arg3 (by decide) (by decide))).trans (arg_kept m dats c main_arg3 (by decide) (by decide) (by decide)),
    ((h c).2 main_arg4 (Pipeline.mem_restRefs_of main_arg4 (by decide) (by decide))).trans (arg_kept m dats c main_arg4 (by decide) (by decide) (by decide)),
    ((h c).2 main_arg5 (Pipeline.mem_restRefs_of main_arg5 (by decide) (by decide))).trans (arg_kept m dats c main_arg5 (by decide) (by decide) (by decide)),
    ((h c).2 main_arg6 (Pipeline.mem_restRefs_of main_arg6 (by decide) (by decide))).trans (arg_kept m dats c main_arg6 (by decide) (by decide) (by decide)),
    ((h c).2 main_arg7 (Pipeline.mem_restRefs_of main_arg7 (by decide) (by decide))).trans (arg_kept m dats c main_arg7 (by decide) (by decide) (by decide)),
    ((h c).2 main_arg8 (Pipeline.mem_restRefs_of main_arg8 (by decide) (by decide))).trans (arg_kept m dats c main_arg8 (by decide) (by decide) (by decide)),
    ((h c).2 main_arg9 (Pipeline.mem_restRefs_of main_arg9 (by decide) (by decide))).trans (arg_kept m dats c main_arg9 (by decide) (by decide) (by decide)),
    ((h c).2 main_arg10 (Pipeline.mem_restRefs_of main_arg10 (by decide) (by decide))).trans (arg_kept m dats c main_arg10 (by decide) (by decide) (by decide)),
    ((h c).2 main_arg11 (Pipeline.mem_restRefs_of main_arg11 (by decide) (by decide))).trans (arg_kept m dats c main_arg11 (by decide) (by decide) (by decide)),
    ((h c).2 main_arg12 (Pipeline.mem_restRefs_of main_arg12 (by decide) (by decide))).trans (arg_kept m dats c main_arg12 (by decide) (by decide) (by decide)),
    ((h c).2 main_arg13 (Pipeline.mem_restRefs_of main_arg13 (by decide) (by decide))).trans (arg_kept m dats c main_arg13 (by decide) (by decide) (by decide))⟩) h

/-! ## The body's one condition: is this the grid's first point? -/

/-- The condition of the body's `scf.if`, from the grid coordinate. -/
abbrev cond0_0 (i : grid0.Coords) : Prop := (Scalar.cmpi .ne (Scalar.extui (Scalar.cmpi .eq (BitVec.ofNat 32 (i 0).val) 0#32)) 0#32) = 1#1
/-- It holds at point 0 and at no other of the 98 — decided over the grid. -/
theorem hcond0_0 : ∀ t : Fin cfg0.N, cond0_0 (grid0.coords t) ↔ t.val = 0 :=
  (by decide +kernel : ∀ t : Fin grid0.N, cond0_0 (grid0.coords t) ↔ t.val = 0)

/-- No window is idle at any point: the body stores into both outputs at every point. -/
theorem liveAt0 (w : Fin cfg0.W) (t : Fin cfg0.N) : cfg0.idle w (grid0.coords t) = false := rfl

/-! ## The memrefs the body is called on -/

/-- One staging buffer of each output window, through which its contents are stated. -/
abbrev VO0_4 : View sig .tc .vmem S10x256 .f32 := (Memref.whole cc0_stg4_0 : Memref sig .tc .vmem S10x256 .f32).view
abbrev VO0_5 : View sig .tc .vmem S10x1 .f32 := (Memref.whole cc0_stg5_0 : Memref sig .tc .vmem S10x1 .f32).view
/-- Each window's current staging memref at point `t`, and its wholeness. -/
abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S10x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S10x1 .f32 := win0_5.stage (cfg0.slots t 5)
abbrev hs0_5 (t : Fin cfg0.N) : (ms0_5 t).IsWhole := hstage0_5 ((cfg0.slots t 5).cast nbuf0_5)
/-- The two scratch accumulators (the running sums [10, 256] and counts [10, 1]): whole scoped buffers of the kernel's own. -/
abbrev scM0_0 : Memref sig .tc .vmem S10x256 .f32 := Memref.whole cc0_scratch0
abbrev scM0_1 : Memref sig .tc .vmem S10x1 .f32 := Memref.whole cc0_scratch1
/-- The same as views: what each holds is stated through them. -/
abbrev VS0_0 : View sig .tc .vmem S10x256 .f32 := scM0_0.view
abbrev VS0_1 : View sig .tc .vmem S10x1 .f32 := scM0_1.view

/-- The call's invariant spelt out: the two accumulators, each whole at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Seg

end
-- ==== Proof.SegIdeal.RunFirst.lean ====
/-
  The body at the grid's first point. The two accumulators are entered at anything: the body stores
  zeros into both, then loads them back, adds the tile's per-cluster sums and counts, stores the new
  totals, and copies both accumulators into the output windows' staging buffers. What each of the four
  buffers ends with is the list of pieces its stores wrote, last first; the input windows' buffers are
  only read.
-/
import proofs.«408968_j90941637525542_1_alg».proof.Proof.SegIdeal.Around

set_option maxRecDepth 16384

noncomputable section

namespace Cert.KernelIdeal.Seg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 4000000 in
/-- The pieces the body's stores leave in the two output staging buffers and the two accumulators when the
    first-point branch is taken, with the proof that from whole memrefs — the four inputs' at given contents, the
    other four at anything — the body runs to a continuation that is handed the inputs' as they were and the other
    four with those pieces written. -/
noncomputable def kernelRun0_A (c : Dev nD) (i : grid0.Coords) (arg1 : Memref sig .tc .vmem S2048x1024 .f32) (harg1 : arg1.IsWhole) (arg2 : Memref sig .tc .vmem S1x2048 .i32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S10x256 .f32) (harg5 : arg5.IsWhole) (arg6 : Memref sig .tc .vmem S10x1 .f32) (harg6 : arg6.IsWhole) (arg7 : Memref sig .tc .vmem S10x256 .f32) (harg7 : arg7.IsWhole) (arg8 : Memref sig .tc .vmem S10x1 .f32) (harg8 : arg8.IsWhole) (hc0 : cond0_0 i)
    (x0 : Vec F S2048x1024 .f32) (x1 : Vec F S1x2048 .i32) (x2 : Vec F S1024x256 .bf16) (x3 : Vec F S1x256 .f32) :
    Σ' (L4 : List (View.Piece (Elt F) S10x256 .f32)) (L5 : List (View.Piece (Elt F) S10x1 .f32)) (LS0 : List (View.Piece (Elt F) S10x256 .f32)), { LS1 : List (View.Piece (Elt F) S10x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__seg_kernel i arg1 harg1 arg2 harg2 arg3 harg3 arg4 harg4 arg5 harg5 arg6 harg6 arg7 harg7 arg8 harg8) K } := by
  refine ⟨?_, ?_, ?_, ?_, fun E K => ?run⟩
  case run =>
    simp only [cc0__seg_kernel_eq_skeleton]; unfold cc0__seg_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [HS0]; · iexists _; iexact HS0
    iexists _; iexact HS1

end Cert.KernelIdeal.Seg

end
-- ==== Proof.SegIdeal.RunLater.lean ====
/-
  The body at a grid point after the first. The reset branch is not taken: the two accumulators are
  entered at what the point before left (`xs0`: the running per-cluster sums, `xs1`: the running counts);
  the body loads them, adds the tile's per-cluster sums and counts, stores the new totals, and copies
  both accumulators into the output windows' staging buffers.
-/
import proofs.«408968_j90941637525542_1_alg».proof.Proof.SegIdeal.RunFirst

set_option maxRecDepth 16384

noncomputable section

namespace Cert.KernelIdeal.Seg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 4000000 in
/-- The pieces the body's stores leave in the two output staging buffers and the two accumulators when the
    first-point branch is not taken, with the proof that from whole memrefs — the four inputs' and the two
    accumulators' at given contents, the two outputs' at anything — the body runs to a continuation that is handed the
    inputs' as they were and the other four with those pieces written. -/
noncomputable def kernelRun0_B (c : Dev nD) (i : grid0.Coords) (arg1 : Memref sig .tc .vmem S2048x1024 .f32) (harg1 : arg1.IsWhole) (arg2 : Memref sig .tc .vmem S1x2048 .i32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S10x256 .f32) (harg5 : arg5.IsWhole) (arg6 : Memref sig .tc .vmem S10x1 .f32) (harg6 : arg6.IsWhole) (arg7 : Memref sig .tc .vmem S10x256 .f32) (harg7 : arg7.IsWhole) (arg8 : Memref sig .tc .vmem S10x1 .f32) (harg8 : arg8.IsWhole) (hc0 : ¬cond0_0 i)
    (x0 : Vec F S2048x1024 .f32) (x1 : Vec F S1x2048 .i32) (x2 : Vec F S1024x256 .bf16) (x3 : Vec F S1x256 .f32) (xs0 : Vec F S10x256 .f32) (xs1 : Vec F S10x1 .f32) :
    Σ' (L4 : List (View.Piece (Elt F) S10x256 .f32)) (L5 : List (View.Piece (Elt F) S10x1 .f32)) (LS0 : List (View.Piece (Elt F) S10x256 .f32)), { LS1 : List (View.Piece (Elt F) S10x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__seg_kernel i arg1 harg1 arg2 harg2 arg3 harg3 arg4 harg4 arg5 harg5 arg6 harg6 arg7 harg7 arg8 harg8) K } := by
  refine ⟨?_, ?_, ?_, ?_, fun E K => ?run⟩
  case run =>
    simp only [cc0__seg_kernel_eq_skeleton]; unfold cc0__seg_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg7.eq_unread hfs0; obtain rfl := harg8.eq_unread hfs1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [HS0]; · iexists _; iexact HS0
    iexists _; iexact HS1

end Cert.KernelIdeal.Seg

end
-- ==== Proof.SegIdeal.Accumulate.lean ====
/-
  The call, point by point.

  What the two output staging buffers and the two accumulators hold after the body at grid point n,
  by recursion on n: at point 0 the first-point case's pieces (accumulators reset, then the tile added);
  at point n + 1 the later case's, run on what point n left in the two accumulators. The call's
  invariant before point 0 is "both accumulators at anything"; before point n + 1 it holds them at
  exactly what point n left. With that the body meets its obligation at every one of the 98 points,
  so @main runs: the call's arrays end as the library computes from these per-point contents, every
  other buffer as the sixty-nine later operations leave it, and the fourteen arguments as launched.
-/
import proofs.«408968_j90941637525542_1_alg».proof.Proof.SegIdeal.RunLater

set_option maxRecDepth 16384

noncomputable section

namespace Cert.KernelIdeal.Seg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves, as pieces read back -/

/-- Case A's pieces for output window 4 (the sums) tile its block, so they cover it. -/
theorem cover0_A_4 (c : Dev nD) (i : grid0.Coords) (arg1 : Memref sig .tc .vmem S2048x1024 .f32) (harg1 : arg1.IsWhole) (arg2 : Memref sig .tc .vmem S1x2048 .i32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S10x256 .f32) (harg5 : arg5.IsWhole) (arg6 : Memref sig .tc .vmem S10x1 .f32) (harg6 : arg6.IsWhole) (arg7 : Memref sig .tc .vmem S10x256 .f32) (harg7 : arg7.IsWhole) (arg8 : Memref sig .tc .vmem S10x1 .f32) (harg8 : arg8.IsWhole) (hc0 : cond0_0 i)
    (x0 : Vec F S2048x1024 .f32) (x1 : Vec F S1x2048 .i32) (x2 : Vec F S1024x256 .bf16) (x3 : Vec F S1x256 .f32) (y : S10x256.Idx) :
    ∃ pc ∈ (kernelRun0_A c i arg1 harg1 arg2 harg2 arg3 harg3 arg4 harg4 arg5 harg5 arg6 harg6 arg7 harg7 arg8 harg8 hc0 x0 x1 x2 x3).1, y ∈ pc.1.set :=
  View.cover_of_tiledL (kernelRun0_A c i arg1 harg1 arg2 harg2 arg3 harg3 arg4 harg4 arg5 harg5 arg6 harg6 arg7 harg7 arg8 harg8 hc0 x0 x1 x2 x3).1 S10x256.size (by sl_kernel_rfl) y
/-- What case A leaves in output window 4's staging buffer: its pieces read back. -/
def out0_A_4 (c : Dev nD) (i : grid0.Coords) (arg1 : Memref sig .tc .vmem S2048x1024 .f32) (harg1 : arg1.IsWhole) (arg2 : Memref sig .tc .vmem S1x2048 .i32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S10x256 .f32) (harg5 : arg5.IsWhole) (arg6 : Memref sig .tc .vmem S10x1 .f32) (harg6 : arg6.IsWhole) (arg7 : Memref sig .tc .vmem S10x256 .f32) (harg7 : arg7.IsWhole) (arg8 : Memref sig .tc .vmem S10x1 .f32) (harg8 : arg8.IsWhole) (hc0 : cond0_0 i)
    (x0 : Vec F S2048x1024 .f32) (x1 : Vec F S1x2048 .i32) (x2 : Vec F S1024x256 .bf16) (x3 : Vec F S1x256 .f32) : Vec F S10x256 .f32 :=
  VO0_4.read (Elt F) (VO0_4.writes (Elt F) VO0_4.junk (kernelRun0_A c i arg1 harg1 arg2 harg2 arg3 harg3 arg4 harg4 arg5 harg5 arg6 harg6 arg7 harg7 arg8 harg8 hc0 x0 x1 x2 x3).1)
/-- Case A's pieces for output window 5 (the counts) tile its block, so they cover it. -/
theorem cover0_A_5 (c : Dev nD) (i : grid0.Coords) (arg1 : Memref sig .tc .vmem S2048x1024 .f32) (harg1 : arg1.IsWhole) (arg2 : Memref sig .tc .vmem S1x2048 .i32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S10x256 .f32) (harg5 : arg5.IsWhole) (arg6 : Memref sig .tc .vmem S10x1 .f32) (harg6 : arg6.IsWhole) (arg7 : Memref sig .tc .vmem S10x256 .f32) (harg7 : arg7.IsWhole) (arg8 : Memref sig .tc .vmem S10x1 .f32) (harg8 : arg8.IsWhole) (hc0 : cond0_0 i)
    (x0 : Vec F S2048x1024 .f32) (x1 : Vec F S1x2048 .i32) (x2 : Vec F S1024x256 .bf16) (x3 : Vec F S1x256 .f32) (y : S10x1.Idx) :
    ∃ pc ∈ (kernelRun0_A c i arg1 harg1 arg2 harg2 arg3 harg3 arg4 harg4 arg5 harg5 arg6 harg6 arg7 harg7 arg8 harg8 hc0 x0 x1 x2 x3).2.1, y ∈ pc.1.set :=
  View.cover_of_tiledL (kernelRun0_A c i arg1 harg1 arg2 harg2 arg3 harg3 arg4 harg4 arg5 harg5 arg6 harg6 arg7 harg7 arg8 harg8 hc0 x0 x1 x2 x3).2.1 S10x1.size (by sl_kernel_rfl) y
/-- What case A leaves in output window 5's staging buffer: its pieces read back. -/
def out0_A_5 (c : Dev nD) (i : grid0.Coords) (arg1 : Memref sig .tc .vmem S2048x1024 .f32) (harg1 : arg1.IsWhole) (arg2 : Memref sig .tc .vmem S1x2048 .i32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S10x256 .f32) (harg5 : arg5.IsWhole) (arg6 : Memref sig .tc .vmem S10x1 .f32) (harg6 : arg6.IsWhole) (arg7 : Memref sig .tc .vmem S10x256 .f32) (harg7 : arg7.IsWhole) (arg8 : Memref sig .tc .vmem S10x1 .f32) (harg8 : arg8.IsWhole) (hc0 : cond0_0 i)
    (x0 : Vec F S2048x1024 .f32) (x1 : Vec F S1x2048 .i32) (x2 : Vec F S1024x256 .bf16) (x3 : Vec F S1x256 .f32) : Vec F S10x1 .f32 :=
  VO0_5.read (Elt F) (VO0_5.writes (Elt F) VO0_5.junk (kernelRun0_A c i arg1 harg1 arg2 harg2 arg3 harg3 arg4 harg4 arg5 harg5 arg6 harg6 arg7 harg7 arg8 harg8 hc0 x0 x1 x2 x3).2.1)
/-- Case A's pieces for the sums accumulator cover it. -/
theorem scover0_A_0 (c : Dev nD) (i : grid0.Coords) (arg1 : Memref sig .tc .vmem S2048x1024 .f32) (harg1 : arg1.IsWhole) (arg2 : Memref sig .tc .vmem S1x2048 .i32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S10x256 .f32) (harg5 : arg5.IsWhole) (arg6 : Memref sig .tc .vmem S10x1 .f32) (harg6 : arg6.IsWhole) (arg7 : Memref sig .tc .vmem S10x256 .f32) (harg7 : arg7.IsWhole) (arg8 : Memref sig .tc .vmem S10x1 .f32) (harg8 : arg8.IsWhole) (hc0 : cond0_0 i)
    (x0 : Vec F S2048x1024 .f32) (x1 : Vec F S1x2048 .i32) (x2 : Vec F S1024x256 .bf16) (x3 : Vec F S1x256 .f32) (y : S10x256.Idx) :
    ∃ pc ∈ (kernelRun0_A c i arg1 harg1 arg2 harg2 arg3 harg3 arg4 harg4 arg5 harg5 arg6 harg6 arg7 harg7 arg8 harg8 hc0 x0 x1 x2 x3).2.2.1, y ∈ pc.1.set :=
  View.cover_of_tiledL (kernelRun0_A c i arg1 harg1 arg2 harg2 arg3 harg3 arg4 harg4 arg5 harg5 arg6 harg6 arg7 harg7 arg8 harg8 hc0 x0 x1 x2 x3).2.2.1 S10x256.size (by sl_kernel_rfl) y
/-- What case A leaves in the sums accumulator: its pieces read back. -/
def sout0_A_0 (c : Dev nD) (i : grid0.Coords) (arg1 : Memref sig .tc .vmem S2048x1024 .f32) (harg1 : arg1.IsWhole) (arg2 : Memref sig .tc .vmem S1x2048 .i32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S10x256 .f32) (harg5 : arg5.IsWhole) (arg6 : Memref sig .tc .vmem S10x1 .f32) (harg6 : arg6.IsWhole) (arg7 : Memref sig .tc .vmem S10x256 .f32) (harg7 : arg7.IsWhole) (arg8 : Memref sig .tc .vmem S10x1 .f32) (harg8 : arg8.IsWhole) (hc0 : cond0_0 i)
    (x0 : Vec F S2048x1024 .f32) (x1 : Vec F S1x2048 .i32) (x2 : Vec F S1024x256 .bf16) (x3 : Vec F S1x256 .f32) : Vec F S10x256 .f32 :=
  VS0_0.read (Elt F) (VS0_0.writes (Elt F) VS0_0.junk (kernelRun0_A c i arg1 harg1 arg2 harg2 arg3 harg3 arg4 harg4 arg5 harg5 arg6 harg6 arg7 harg7 arg8 harg8 hc0 x0 x1 x2 x3).2.2.1)
/-- Case A's pieces for the counts accumulator cover it. -/
theorem scover0_A_1 (c : Dev nD) (i : grid0.Coords) (arg1 : Memref sig .tc .vmem S2048x1024 .f32) (harg1 : arg1.IsWhole) (arg2 : Memref sig .tc .vmem S1x2048 .i32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S10x256 .f32) (harg5 : arg5.IsWhole) (arg6 : Memref sig .tc .vmem S10x1 .f32) (harg6 : arg6.IsWhole) (arg7 : Memref sig .tc .vmem S10x256 .f32) (harg7 : arg7.IsWhole) (arg8 : Memref sig .tc .vmem S10x1 .f32) (harg8 : arg8.IsWhole) (hc0 : cond0_0 i)
    (x0 : Vec F S2048x1024 .f32) (x1 : Vec F S1x2048 .i32) (x2 : Vec F S1024x256 .bf16) (x3 : Vec F S1x256 .f32) (y : S10x1.Idx) :
    ∃ pc ∈ (kernelRun0_A c i arg1 harg1 arg2 harg2 arg3 harg3 arg4 harg4 arg5 harg5 arg6 harg6 arg7 harg7 arg8 harg8 hc0 x0 x1 x2 x3).2.2.2.1, y ∈ pc.1.set :=
  View.cover_of_tiledL (kernelRun0_A c i arg1 harg1 arg2 harg2 arg3 harg3 arg4 harg4 arg5 harg5 arg6 harg6 arg7 harg7 arg8 harg8 hc0 x0 x1 x2 x3).2.2.2.1 S10x1.size (by sl_kernel_rfl) y
/-- What case A leaves in the counts accumulator: its pieces read back. -/
def sout0_A_1 (c : Dev nD) (i : grid0.Coords) (arg1 : Memref sig .tc .vmem S2048x1024 .f32) (harg1 : arg1.IsWhole) (arg2 : Memref sig .tc .vmem S1x2048 .i32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S10x256 .f32) (harg5 : arg5.IsWhole) (arg6 : Memref sig .tc .vmem S10x1 .f32) (harg6 : arg6.IsWhole) (arg7 : Memref sig .tc .vmem S10x256 .f32) (harg7 : arg7.IsWhole) (arg8 : Memref sig .tc .vmem S10x1 .f32) (harg8 : arg8.IsWhole) (hc0 : cond0_0 i)
    (x0 : Vec F S2048x1024 .f32) (x1 : Vec F S1x2048 .i32) (x2 : Vec F S1024x256 .bf16) (x3 : Vec F S1x256 .f32) : Vec F S10x1 .f32 :=
  VS0_1.read (Elt F) (VS0_1.writes (Elt F) VS0_1.junk (kernelRun0_A c i arg1 harg1 arg2 harg2 arg3 harg3 arg4 harg4 arg5 harg5 arg6 harg6 arg7 harg7 arg8 harg8 hc0 x0 x1 x2 x3).2.2.2.1)

/-- Case B's pieces for output window 4 (the sums) tile its block, so they cover it. -/
theorem cover0_B_4 (c : Dev nD) (i : grid0.Coords) (arg1 : Memref sig .tc .vmem S2048x1024 .f32) (harg1 : arg1.IsWhole) (arg2 : Memref sig .tc .vmem S1x2048 .i32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S10x256 .f32) (harg5 : arg5.IsWhole) (arg6 : Memref sig .tc .vmem S10x1 .f32) (harg6 : arg6.IsWhole) (arg7 : Memref sig .tc .vmem S10x256 .f32) (harg7 : arg7.IsWhole) (arg8 : Memref sig .tc .vmem S10x1 .f32) (harg8 : arg8.IsWhole) (hc0 : ¬cond0_0 i)
    (x0 : Vec F S2048x1024 .f32) (x1 : Vec F S1x2048 .i32) (x2 : Vec F S1024x256 .bf16) (x3 : Vec F S1x256 .f32) (xs0 : Vec F S10x256 .f32) (xs1 : Vec F S10x1 .f32) (y : S10x256.Idx) :
    ∃ pc ∈ (kernelRun0_B c i arg1 harg1 arg2 harg2 arg3 harg3 arg4 harg4 arg5 harg5 arg6 harg6 arg7 harg7 arg8 harg8 hc0 x0 x1 x2 x3 xs0 xs1).1, y ∈ pc.1.set :=
  View.cover_of_tiledL (kernelRun0_B c i arg1 harg1 arg2 harg2 arg3 harg3 arg4 harg4 arg5 harg5 arg6 harg6 arg7 harg7 arg8 harg8 hc0 x0 x1 x2 x3 xs0 xs1).1 S10x256.size (by sl_kernel_rfl) y
/-- What case B leaves in output window 4's staging buffer: its pieces read back. -/
def out0_B_4 (c : Dev nD) (i : grid0.Coords) (arg1 : Memref sig .tc .vmem S2048x1024 .f32) (harg1 : arg1.IsWhole) (arg2 : Memref sig .tc .vmem S1x2048 .i32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S10x256 .f32) (harg5 : arg5.IsWhole) (arg6 : Memref sig .tc .vmem S10x1 .f32) (harg6 : arg6.IsWhole) (arg7 : Memref sig .tc .vmem S10x256 .f32) (harg7 : arg7.IsWhole) (arg8 : Memref sig .tc .vmem S10x1 .f32) (harg8 : arg8.IsWhole) (hc0 : ¬cond0_0 i)
    (x0 : Vec F S2048x1024 .f32) (x1 : Vec F S1x2048 .i32) (x2 : Vec F S1024x256 .bf16) (x3 : Vec F S1x256 .f32) (xs0 : Vec F S10x256 .f32) (xs1 : Vec F S10x1 .f32) : Vec F S10x256 .f32 :=
  VO0_4.read (Elt F) (VO0_4.writes (Elt F) VO0_4.junk (kernelRun0_B c i arg1 harg1 arg2 harg2 arg3 harg3 arg4 harg4 arg5 harg5 arg6 harg6 arg7 harg7 arg8 harg8 hc0 x0 x1 x2 x3 xs0 xs1).1)
/-- Case B's pieces for output window 5 (the counts) tile its block, so they cover it. -/
theorem cover0_B_5 (c : Dev nD) (i : grid0.Coords) (arg1 : Memref sig .tc .vmem S2048x1024 .f32) (harg1 : arg1.IsWhole) (arg2 : Memref sig .tc .vmem S1x2048 .i32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S10x256 .f32) (harg5 : arg5.IsWhole) (arg6 : Memref sig .tc .vmem S10x1 .f32) (harg6 : arg6.IsWhole) (arg7 : Memref sig .tc .vmem S10x256 .f32) (harg7 : arg7.IsWhole) (arg8 : Memref sig .tc .vmem S10x1 .f32) (harg8 : arg8.IsWhole) (hc0 : ¬cond0_0 i)
    (x0 : Vec F S2048x1024 .f32) (x1 : Vec F S1x2048 .i32) (x2 : Vec F S1024x256 .bf16) (x3 : Vec F S1x256 .f32) (xs0 : Vec F S10x256 .f32) (xs1 : Vec F S10x1 .f32) (y : S10x1.Idx) :
    ∃ pc ∈ (kernelRun0_B c i arg1 harg1 arg2 harg2 arg3 harg3 arg4 harg4 arg5 harg5 arg6 harg6 arg7 harg7 arg8 harg8 hc0 x0 x1 x2 x3 xs0 xs1).2.1, y ∈ pc.1.set :=
  View.cover_of_tiledL (kernelRun0_B c i arg1 harg1 arg2 harg2 arg3 harg3 arg4 harg4 arg5 harg5 arg6 harg6 arg7 harg7 arg8 harg8 hc0 x0 x1 x2 x3 xs0 xs1).2.1 S10x1.size (by sl_kernel_rfl) y
/-- What case B leaves in output window 5's staging buffer: its pieces read back. -/
def out0_B_5 (c : Dev nD) (i : grid0.Coords) (arg1 : Memref sig .tc .vmem S2048x1024 .f32) (harg1 : arg1.IsWhole) (arg2 : Memref sig .tc .vmem S1x2048 .i32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S10x256 .f32) (harg5 : arg5.IsWhole) (arg6 : Memref sig .tc .vmem S10x1 .f32) (harg6 : arg6.IsWhole) (arg7 : Memref sig .tc .vmem S10x256 .f32) (harg7 : arg7.IsWhole) (arg8 : Memref sig .tc .vmem S10x1 .f32) (harg8 : arg8.IsWhole) (hc0 : ¬cond0_0 i)
    (x0 : Vec F S2048x1024 .f32) (x1 : Vec F S1x2048 .i32) (x2 : Vec F S1024x256 .bf16) (x3 : Vec F S1x256 .f32) (xs0 : Vec F S10x256 .f32) (xs1 : Vec F S10x1 .f32) : Vec F S10x1 .f32 :=
  VO0_5.read (Elt F) (VO0_5.writes (Elt F) VO0_5.junk (kernelRun0_B c i arg1 harg1 arg2 harg2 arg3 harg3 arg4 harg4 arg5 harg5 arg6 harg6 arg7 harg7 arg8 harg8 hc0 x0 x1 x2 x3 xs0 xs1).2.1)
/-- Case B's pieces for the sums accumulator cover it. -/
theorem scover0_B_0 (c : Dev nD) (i : grid0.Coords) (arg1 : Memref sig .tc .vmem S2048x1024 .f32) (harg1 : arg1.IsWhole) (arg2 : Memref sig .tc .vmem S1x2048 .i32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S10x256 .f32) (harg5 : arg5.IsWhole) (arg6 : Memref sig .tc .vmem S10x1 .f32) (harg6 : arg6.IsWhole) (arg7 : Memref sig .tc .vmem S10x256 .f32) (harg7 : arg7.IsWhole) (arg8 : Memref sig .tc .vmem S10x1 .f32) (harg8 : arg8.IsWhole) (hc0 : ¬cond0_0 i)
    (x0 : Vec F S2048x1024 .f32) (x1 : Vec F S1x2048 .i32) (x2 : Vec F S1024x256 .bf16) (x3 : Vec F S1x256 .f32) (xs0 : Vec F S10x256 .f32) (xs1 : Vec F S10x1 .f32) (y : S10x256.Idx) :
    ∃ pc ∈ (kernelRun0_B c i arg1 harg1 arg2 harg2 arg3 harg3 arg4 harg4 arg5 harg5 arg6 harg6 arg7 harg7 arg8 harg8 hc0 x0 x1 x2 x3 xs0 xs1).2.2.1, y ∈ pc.1.set :=
  View.cover_of_tiledL (kernelRun0_B c i arg1 harg1 arg2 harg2 arg3 harg3 arg4 harg4 arg5 harg5 arg6 harg6 arg7 harg7 arg8 harg8 hc0 x0 x1 x2 x3 xs0 xs1).2.2.1 S10x256.size (by sl_kernel_rfl) y
/-- What case B leaves in the sums accumulator: its pieces read back. -/
def sout0_B_0 (c : Dev nD) (i : grid0.Coords) (arg1 : Memref sig .tc .vmem S2048x1024 .f32) (harg1 : arg1.IsWhole) (arg2 : Memref sig .tc .vmem S1x2048 .i32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S10x256 .f32) (harg5 : arg5.IsWhole) (arg6 : Memref sig .tc .vmem S10x1 .f32) (harg6 : arg6.IsWhole) (arg7 : Memref sig .tc .vmem S10x256 .f32) (harg7 : arg7.IsWhole) (arg8 : Memref sig .tc .vmem S10x1 .f32) (harg8 : arg8.IsWhole) (hc0 : ¬cond0_0 i)
    (x0 : Vec F S2048x1024 .f32) (x1 : Vec F S1x2048 .i32) (x2 : Vec F S1024x256 .bf16) (x3 : Vec F S1x256 .f32) (xs0 : Vec F S10x256 .f32) (xs1 : Vec F S10x1 .f32) : Vec F S10x256 .f32 :=
  VS0_0.read (Elt F) (VS0_0.writes (Elt F) VS0_0.junk (kernelRun0_B c i arg1 harg1 arg2 harg2 arg3 harg3 arg4 harg4 arg5 harg5 arg6 harg6 arg7 harg7 arg8 harg8 hc0 x0 x1 x2 x3 xs0 xs1).2.2.1)
/-- Case B's pieces for the counts accumulator cover it. -/
theorem scover0_B_1 (c : Dev nD) (i : grid0.Coords) (arg1 : Memref sig .tc .vmem S2048x1024 .f32) (harg1 : arg1.IsWhole) (arg2 : Memref sig .tc .vmem S1x2048 .i32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S10x256 .f32) (harg5 : arg5.IsWhole) (arg6 : Memref sig .tc .vmem S10x1 .f32) (harg6 : arg6.IsWhole) (arg7 : Memref sig .tc .vmem S10x256 .f32) (harg7 : arg7.IsWhole) (arg8 : Memref sig .tc .vmem S10x1 .f32) (harg8 : arg8.IsWhole) (hc0 : ¬cond0_0 i)
    (x0 : Vec F S2048x1024 .f32) (x1 : Vec F S1x2048 .i32) (x2 : Vec F S1024x256 .bf16) (x3 : Vec F S1x256 .f32) (xs0 : Vec F S10x256 .f32) (xs1 : Vec F S10x1 .f32) (y : S10x1.Idx) :
    ∃ pc ∈ (kernelRun0_B c i arg1 harg1 arg2 harg2 arg3 harg3 arg4 harg4 arg5 harg5 arg6 harg6 arg7 harg7 arg8 harg8 hc0 x0 x1 x2 x3 xs0 xs1).2.2.2.1, y ∈ pc.1.set :=
  View.cover_of_tiledL (kernelRun0_B c i arg1 harg1 arg2 harg2 arg3 harg3 arg4 harg4 arg5 harg5 arg6 harg6 arg7 harg7 arg8 harg8 hc0 x0 x1 x2 x3 xs0 xs1).2.2.2.1 S10x1.size (by sl_kernel_rfl) y
/-- What case B leaves in the counts accumulator: its pieces read back. -/
def sout0_B_1 (c : Dev nD) (i : grid0.Coords) (arg1 : Memref sig .tc .vmem S2048x1024 .f32) (harg1 : arg1.IsWhole) (arg2 : Memref sig .tc .vmem S1x2048 .i32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S10x256 .f32) (harg5 : arg5.IsWhole) (arg6 : Memref sig .tc .vmem S10x1 .f32) (harg6 : arg6.IsWhole) (arg7 : Memref sig .tc .vmem S10x256 .f32) (harg7 : arg7.IsWhole) (arg8 : Memref sig .tc .vmem S10x1 .f32) (harg8 : arg8.IsWhole) (hc0 : ¬cond0_0 i)
    (x0 : Vec F S2048x1024 .f32) (x1 : Vec F S1x2048 .i32) (x2 : Vec F S1024x256 .bf16) (x3 : Vec F S1x256 .f32) (xs0 : Vec F S10x256 .f32) (xs1 : Vec F S10x1 .f32) : Vec F S10x1 .f32 :=
  VS0_1.read (Elt F) (VS0_1.writes (Elt F) VS0_1.junk (kernelRun0_B c i arg1 harg1 arg2 harg2 arg3 harg3 arg4 harg4 arg5 harg5 arg6 harg6 arg7 harg7 arg8 harg8 hc0 x0 x1 x2 x3 xs0 xs1).2.2.2.1)

/-! ## What the buffers hold after each point -/

/-- THE ACCUMULATION. After the body at point `n`: output window 4's buffer, output window 5's, the sums accumulator, the
    counts accumulator. Point 0 is the first-point case; point `n + 1` the later case on what point `n` left in the
    two accumulators. -/
def outsAt0 (c : Dev nD) : (n : ℕ) → n < cfg0.N → Vec F S10x256 .f32 × Vec F S10x1 .f32 × Vec F S10x256 .f32 × Vec F S10x1 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr rfl) (iblk m c 0 ⟨0, hn⟩) (iblk m c 1 ⟨0, hn⟩) (iblk m c 2 ⟨0, hn⟩) (iblk m c 3 ⟨0, hn⟩),
      out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr rfl) (iblk m c 0 ⟨0, hn⟩) (iblk m c 1 ⟨0, hn⟩) (iblk m c 2 ⟨0, hn⟩) (iblk m c 3 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr rfl) (iblk m c 0 ⟨0, hn⟩) (iblk m c 1 ⟨0, hn⟩) (iblk m c 2 ⟨0, hn⟩) (iblk m c 3 ⟨0, hn⟩),
      sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr rfl) (iblk m c 0 ⟨0, hn⟩) (iblk m c 1 ⟨0, hn⟩) (iblk m c 2 ⟨0, hn⟩) (iblk m c 3 ⟨0, hn⟩))
  | n + 1, hn => (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2,
      out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2,
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2,
      sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2)

/-- `outsAt0` at the first point. -/
theorem outsAt0_A (c : Dev nD) (t : Fin cfg0.N) (h0 : t.val = 0) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t),
      out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t),
      sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t),
      sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t)) := by
  obtain ⟨n, hn⟩ := t
  cases n with
  | zero => rfl
  | succ n => exact absurd h0 (Nat.succ_ne_zero n)

/-- `outsAt0` at a later point: the later case over what the point before left. -/
theorem outsAt0_B (c : Dev nD) (t : Fin cfg0.N) (h0 : ¬t.val = 0) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2,
      out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2,
      sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2,
      sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact absurd rfl h0
  | succ n => rfl

/-- The call's invariant before position `n`: before the first point both accumulators at anything; afterwards each at
    what the point before left in it; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2)) ∗ (∃ r, prngReg c r)) := by
  cases n with
  | zero => exact absurd rfl hz
  | succ n => rfl

/-! ## The call's proof data -/

/-- On core `c`: the arrays as the call finds them; after the body at point `t` each input's buffer at its block and the
    outputs' at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point. The inputs' buffers hold their blocks. At point 0 the invariant hands the body both accumulators
    at anything and the first-point case runs; at a later point it hands them at what the point before left and the later
    case runs on those. Either way the invariant takes the accumulators back at this point's contents (the case's pieces
    cover them), and each output's buffer is left at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from rfl, after0_0]
  rw [show (dats m 0 c).leavesExact 1 t = owns (c : Thread nD τ) (ms0_1 t) fullShare ((dats m 0 c).after 1 t) from rfl, after0_1]
  rw [show (dats m 0 c).leavesExact 2 t = owns (c : Thread nD τ) (ms0_2 t) fullShare ((dats m 0 c).after 2 t) from rfl, after0_2]
  rw [show (dats m 0 c).leavesExact 3 t = owns (c : Thread nD τ) (ms0_3 t) fullShare ((dats m 0 c).after 3 t) from rfl, after0_3]
  rw [show (dats m 0 c).leavesExact 4 t = owns (c : Thread nD τ) (ms0_4 t) fullShare ((dats m 0 c).after 4 t) from rfl, after0_4]
  rw [show (dats m 0 c).leavesExact 5 t = owns (c : Thread nD τ) (ms0_5 t) fullShare ((dats m 0 c).after 5 t) from rfl, after0_5]
  by_cases h0 : t.val = 0
  · rw [outsAt0_A m c t h0]
    unfold out0_A_4 out0_A_5 sout0_A_0 sout0_A_1; (try dsimp only)
    rw [PhiS_castSucc m c t, PhiS_zero m c _ _ h0, PhiA0_eq]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ _ _ ((hcond0_0 t).mpr h0) (iblk m c 0 t) (iblk m c 1 t) (iblk m c 2 t) (iblk m c 3 t)).2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    iintro ⟨H0, H1, H2, H3, ⟨%e4, H4⟩, ⟨%e5, H5⟩, ⟨%es0, HS0⟩, ⟨%es1, HS1⟩⟩
    isplitl [HS0 HS1 Hg]
    · isplitl [HS0 HS1]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _)
        · unfold owns; iexists _; isplitr
          swap; · iexact HS1
          ipureintro; exact View.read_writes_of_cover _ _ _ _ _ (scover0_A_1 c _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_A_4 c _ _ _ _ _ _ _ _ _ _ _ _ _ _ _ _ _ _ _ _ _ _)
    unfold owns; iexists _; isplitr
    swap; · iexact H5
    ipureintro; exact View.read_writes_of_cover _ _ _ _ _ (cover0_A_5 c _ _ _ _ _ _ _ _ _ _ _ _ _ _ _ _ _ _ _ _ _ _)
  · rw [outsAt0_B m c t h0]
    unfold out0_B_4 out0_B_5 sout0_B_0 sout0_B_1; (try dsimp only)
    rw [PhiS_castSucc m c t, PhiS_pos m c _ _ h0]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ _ _ _ _ (fun h => h0 ((hcond0_0 t).mp h)) (iblk m c 0 t) (iblk m c 1 t) (iblk m c 2 t) (iblk m c 3 t) _ _).2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    iintro ⟨H0, H1, H2, H3, ⟨%e4, H4⟩, ⟨%e5, H5⟩, ⟨%es0, HS0⟩, ⟨%es1, HS1⟩⟩
    isplitl [HS0 HS1 Hg]
    · isplitl [HS0 HS1]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _)
        · unfold owns; iexists _; isplitr
          swap; · iexact HS1
          ipureintro; exact View.read_writes_of_cover _ _ _ _ _ (scover0_B_1 c _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_B_4 c _ _ _ _ _ _ _ _ _ _ _ _ _ _ _ _ _ _ _ _ _ _ _ _)
    unfold owns; iexists _; isplitr
    swap; · iexact H5
    ipureintro; exact View.read_writes_of_cover _ _ _ _ _ (cover0_B_5 c _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the call is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives it back: the accumulators' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 98 := N_0; omega)

/-! ## The run and the frame -/

set_option backward.isDefEq.respectTransparency.types false in
/-- From any memory with zero counters every weakly fair execution of @main terminates, each array of the call at what the
    library computes from the proof data and every other unscoped buffer as the later operations leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hin := hin m) (hout := hout m)

/-- The frame: @main runs and the fourteen arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (run_main m ρ)

end Cert.KernelIdeal.Seg

end
-- ==== Proof.SegIdeal.Pieces.lean ====
/-
  What each control case leaves, in the body's own arithmetic.

  With x the tile of rows, w the transposed weights, b the bias row, ids the tile's cluster ids:
  the sums accumulator ends at  acc + onehot(ids) · max(x · w + b, 0)  (the payload `k0_pay5` of the
  loaded blocks and of the accumulator as it was loaded) and the counts accumulator at
  acc + row sums of onehot(ids)  (`k0_pay1 ∘ k0_pay6`), where at the first point `acc` is the zeros
  just stored (`k0_pay2`, `k0_pay3`) and at a later point what the point before left. Each output
  buffer ends at a copy of its accumulator. So the four per-point contents follow one recurrence over
  the grid points, and at every point the two outputs equal the two accumulators.
-/
import proofs.«408968_j90941637525542_1_alg».proof.Proof.SegIdeal.Accumulate
import Idealize.ShloMosaic.Lib.Pipeline.Value

set_option maxRecDepth 16384

noncomputable section

namespace Cert.KernelIdeal.Seg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ)

theorem hz2 : (![0, 0] : Fin 2 → Nat) = fun _ => 0 := funext fun a => by fin_cases a <;> rfl

/-- A whole-buffer load after a whole-buffer store reads that store's payload, whatever was stored before it. -/
theorem readCov_cons_unit_zero {S : Shape} {e : EltTy} {sig' : RefSig} {κ : Kind} {sp : Space}
    (v : View sig' κ sp S e) {off : Fin S.rank → Nat} (h : off = fun _ => 0)
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-! ## The first point -/

/-- At the first point the sums accumulator ends at the tile's per-cluster sums added to the zeros just stored. -/
theorem sout0_A_0_eq (c : Dev nD) (i : grid0.Coords) (arg1 : Memref sig .tc .vmem S2048x1024 .f32) (harg1 : arg1.IsWhole) (arg2 : Memref sig .tc .vmem S1x2048 .i32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S10x256 .f32) (harg5 : arg5.IsWhole) (arg6 : Memref sig .tc .vmem S10x1 .f32) (harg6 : arg6.IsWhole) (arg7 : Memref sig .tc .vmem S10x256 .f32) (harg7 : arg7.IsWhole) (arg8 : Memref sig .tc .vmem S10x1 .f32) (harg8 : arg8.IsWhole) (hc0 : cond0_0 i)
    (x0 : Vec F S2048x1024 .f32) (x1 : Vec F S1x2048 .i32) (x2 : Vec F S1024x256 .bf16) (x3 : Vec F S1x256 .f32) :
    sout0_A_0 c i arg1 harg1 arg2 harg2 arg3 harg3 arg4 harg4 arg5 harg5 arg6 harg6 arg7 harg7 arg8 harg8 hc0 x0 x1 x2 x3 = k0_pay5 x0 x2 x3 x1 (k0_pay2 (F := F)) := by
  unfold sout0_A_0
  rw [View.read_writes_eq_canon _ _ _ (scover0_A_0 c i arg1 harg1 arg2 harg2 arg3 harg3 arg4 harg4 arg5 harg5 arg6 harg6 arg7 harg7 arg8 harg8 hc0 x0 x1 x2 x3)]
  unfold kernelRun0_A
  dsimp only
  sl_unfold_words
  rw [View.canon_cons_unit_zero (S := S10x256) hz2]
  simp only [View.readAt_eq_ld, harg1.read_unread, harg2.read_unread, harg3.read_unread, harg4.read_unread, harg7.read_unread, harg8.read_unread, View.ld_unit_zero (S := S2048x1024) hz2, View.ld_unit_zero (S := S1x2048) hz2, View.ld_unit_zero (S := S1024x256) hz2, View.ld_unit_zero (S := S1x256) hz2, View.ld_unit_zero (S := S10x256) hz2, View.ld_unit_zero (S := S10x1) hz2, readCov_cons_unit_zero (S := S10x256) _ hz2, readCov_cons_unit_zero (S := S10x1) _ hz2]

/-- At the first point the counts accumulator ends at the tile's per-cluster counts added to the zeros just stored. -/
theorem sout0_A_1_eq (c : Dev nD) (i : grid0.Coords) (arg1 : Memref sig .tc .vmem S2048x1024 .f32) (harg1 : arg1.IsWhole) (arg2 : Memref sig .tc .vmem S1x2048 .i32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S10x256 .f32) (harg5 : arg5.IsWhole) (arg6 : Memref sig .tc .vmem S10x1 .f32) (harg6 : arg6.IsWhole) (arg7 : Memref sig .tc .vmem S10x256 .f32) (harg7 : arg7.IsWhole) (arg8 : Memref sig .tc .vmem S10x1 .f32) (harg8 : arg8.IsWhole) (hc0 : cond0_0 i)
    (x0 : Vec F S2048x1024 .f32) (x1 : Vec F S1x2048 .i32) (x2 : Vec F S1024x256 .bf16) (x3 : Vec F S1x256 .f32) :
    sout0_A_1 c i arg1 harg1 arg2 harg2 arg3 harg3 arg4 harg4 arg5 harg5 arg6 harg6 arg7 harg7 arg8 harg8 hc0 x0 x1 x2 x3 = k0_pay1 (k0_pay6 x1 (k0_pay3 (F := F))) := by
  unfold sout0_A_1
  rw [View.read_writes_eq_canon _ _ _ (scover0_A_1 c i arg1 harg1 arg2 harg2 arg3 harg3 arg4 harg4 arg5 harg5 arg6 harg6 arg7 harg7 arg8 harg8 hc0 x0 x1 x2 x3)]
  unfold kernelRun0_A
  dsimp only
  sl_unfold_words
  rw [View.canon_cons_unit_zero (S := S10x1) hz2]
  simp only [View.readAt_eq_ld, harg1.read_unread, harg2.read_unread, harg3.read_unread, harg4.read_unread, harg7.read_unread, harg8.read_unread, View.ld_unit_zero (S := S2048x1024) hz2, View.ld_unit_zero (S := S1x2048) hz2, View.ld_unit_zero (S := S1024x256) hz2, View.ld_unit_zero (S := S1x256) hz2, View.ld_unit_zero (S := S10x256) hz2, View.ld_unit_zero (S := S10x1) hz2, readCov_cons_unit_zero (S := S10x256) _ hz2, readCov_cons_unit_zero (S := S10x1) _ hz2]

/-- At the first point output window 4's buffer ends at a copy of the sums accumulator. -/
theorem out0_A_4_eq (c : Dev nD) (i : grid0.Coords) (arg1 : Memref sig .tc .vmem S2048x1024 .f32) (harg1 : arg1.IsWhole) (arg2 : Memref sig .tc .vmem S1x2048 .i32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S10x256 .f32) (harg5 : arg5.IsWhole) (arg6 : Memref sig .tc .vmem S10x1 .f32) (harg6 : arg6.IsWhole) (arg7 : Memref sig .tc .vmem S10x256 .f32) (harg7 : arg7.IsWhole) (arg8 : Memref sig .tc .vmem S10x1 .f32) (harg8 : arg8.IsWhole) (hc0 : cond0_0 i)
    (x0 : Vec F S2048x1024 .f32) (x1 : Vec F S1x2048 .i32) (x2 : Vec F S1024x256 .bf16) (x3 : Vec F S1x256 .f32) :
    out0_A_4 c i arg1 harg1 arg2 harg2 arg3 harg3 arg4 harg4 arg5 harg5 arg6 harg6 arg7 harg7 arg8 harg8 hc0 x0 x1 x2 x3 = k0_pay5 x0 x2 x3 x1 (k0_pay2 (F := F)) := by
  unfold out0_A_4
  rw [View.read_writes_eq_canon _ _ _ (cover0_A_4 c i arg1 harg1 arg2 harg2 arg3 harg3 arg4 harg4 arg5 harg5 arg6 harg6 arg7 harg7 arg8 harg8 hc0 x0 x1 x2 x3)]
  unfold kernelRun0_A
  dsimp only
  sl_unfold_words
  rw [View.canon_cons_unit_zero (S := S10x256) hz2]
  simp only [View.readAt_eq_ld, harg1.read_unread, harg2.read_unread, harg3.read_unread, harg4.read_unread, harg7.read_unread, harg8.read_unread, View.ld_unit_zero (S := S2048x1024) hz2, View.ld_unit_zero (S := S1x2048) hz2, View.ld_unit_zero (S := S1024x256) hz2, View.ld_unit_zero (S := S1x256) hz2, View.ld_unit_zero (S := S10x256) hz2, View.ld_unit_zero (S := S10x1) hz2, readCov_cons_unit_zero (S := S10x256) _ hz2, readCov_cons_unit_zero (S := S10x1) _ hz2]

/-- At the first point output window 5's buffer ends at a copy of the counts accumulator. -/
theorem out0_A_5_eq (c : Dev nD) (i : grid0.Coords) (arg1 : Memref sig .tc .vmem S2048x1024 .f32) (harg1 : arg1.IsWhole) (arg2 : Memref sig .tc .vmem S1x2048 .i32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S10x256 .f32) (harg5 : arg5.IsWhole) (arg6 : Memref sig .tc .vmem S10x1 .f32) (harg6 : arg6.IsWhole) (arg7 : Memref sig .tc .vmem S10x256 .f32) (harg7 : arg7.IsWhole) (arg8 : Memref sig .tc .vmem S10x1 .f32) (harg8 : arg8.IsWhole) (hc0 : cond0_0 i)
    (x0 : Vec F S2048x1024 .f32) (x1 : Vec F S1x2048 .i32) (x2 : Vec F S1024x256 .bf16) (x3 : Vec F S1x256 .f32) :
    out0_A_5 c i arg1 harg1 arg2 harg2 arg3 harg3 arg4 harg4 arg5 harg5 arg6 harg6 arg7 harg7 arg8 harg8 hc0 x0 x1 x2 x3 = k0_pay1 (k0_pay6 x1 (k0_pay3 (F := F))) := by
  unfold out0_A_5
  rw [View.read_writes_eq_canon _ _ _ (cover0_A_5 c i arg1 harg1 arg2 harg2 arg3 harg3 arg4 harg4 arg5 harg5 arg6 harg6 arg7 harg7 arg8 harg8 hc0 x0 x1 x2 x3)]
  unfold kernelRun0_A
  dsimp only
  sl_unfold_words
  rw [View.canon_cons_unit_zero (S := S10x1) hz2]
  simp only [View.readAt_eq_ld, harg1.read_unread, harg2.read_unread, harg3.read_unread, harg4.read_unread, harg7.read_unread, harg8.read_unread, View.ld_unit_zero (S := S2048x1024) hz2, View.ld_unit_zero (S := S1x2048) hz2, View.ld_unit_zero (S := S1024x256) hz2, View.ld_unit_zero (S := S1x256) hz2, View.ld_unit_zero (S := S10x256) hz2, View.ld_unit_zero (S := S10x1) hz2, readCov_cons_unit_zero (S := S10x256) _ hz2, readCov_cons_unit_zero (S := S10x1) _ hz2]

/-! ## A later point -/

/-- At a later point the sums accumulator ends at the tile's per-cluster sums added to what the point before left. -/
theorem sout0_B_0_eq (c : Dev nD) (i : grid0.Coords) (arg1 : Memref sig .tc .vmem S2048x1024 .f32) (harg1 : arg1.IsWhole) (arg2 : Memref sig .tc .vmem S1x2048 .i32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S10x256 .f32) (harg5 : arg5.IsWhole) (arg6 : Memref sig .tc .vmem S10x1 .f32) (harg6 : arg6.IsWhole) (arg7 : Memref sig .tc .vmem S10x256 .f32) (harg7 : arg7.IsWhole) (arg8 : Memref sig .tc .vmem S10x1 .f32) (harg8 : arg8.IsWhole) (hc0 : ¬cond0_0 i)
    (x0 : Vec F S2048x1024 .f32) (x1 : Vec F S1x2048 .i32) (x2 : Vec F S1024x256 .bf16) (x3 : Vec F S1x256 .f32) (xs0 : Vec F S10x256 .f32) (xs1 : Vec F S10x1 .f32) :
    sout0_B_0 c i arg1 harg1 arg2 harg2 arg3 harg3 arg4 harg4 arg5 harg5 arg6 harg6 arg7 harg7 arg8 harg8 hc0 x0 x1 x2 x3 xs0 xs1 = k0_pay5 x0 x2 x3 x1 xs0 := by
  unfold sout0_B_0
  rw [View.read_writes_eq_canon _ _ _ (scover0_B_0 c i arg1 harg1 arg2 harg2 arg3 harg3 arg4 harg4 arg5 harg5 arg6 harg6 arg7 harg7 arg8 harg8 hc0 x0 x1 x2 x3 xs0 xs1)]
  unfold kernelRun0_B
  dsimp only
  sl_unfold_words
  rw [View.canon_cons_unit_zero (S := S10x256) hz2]
  simp only [View.readAt_eq_ld, harg1.read_unread, harg2.read_unread, harg3.read_unread, harg4.read_unread, harg7.read_unread, harg8.read_unread, View.ld_unit_zero (S := S2048x1024) hz2, View.ld_unit_zero (S := S1x2048) hz2, View.ld_unit_zero (S := S1024x256) hz2, View.ld_unit_zero (S := S1x256) hz2, View.ld_unit_zero (S := S10x256) hz2, View.ld_unit_zero (S := S10x1) hz2, readCov_cons_unit_zero (S := S10x256) _ hz2, readCov_cons_unit_zero (S := S10x1) _ hz2]

/-- At a later point the counts accumulator ends at the tile's per-cluster counts added to what the point before left. -/
theorem sout0_B_1_eq (c : Dev nD) (i : grid0.Coords) (arg1 : Memref sig .tc .vmem S2048x1024 .f32) (harg1 : arg1.IsWhole) (arg2 : Memref sig .tc .vmem S1x2048 .i32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S10x256 .f32) (harg5 : arg5.IsWhole) (arg6 : Memref sig .tc .vmem S10x1 .f32) (harg6 : arg6.IsWhole) (arg7 : Memref sig .tc .vmem S10x256 .f32) (harg7 : arg7.IsWhole) (arg8 : Memref sig .tc .vmem S10x1 .f32) (harg8 : arg8.IsWhole) (hc0 : ¬cond0_0 i)
    (x0 : Vec F S2048x1024 .f32) (x1 : Vec F S1x2048 .i32) (x2 : Vec F S1024x256 .bf16) (x3 : Vec F S1x256 .f32) (xs0 : Vec F S10x256 .f32) (xs1 : Vec F S10x1 .f32) :
    sout0_B_1 c i arg1 harg1 arg2 harg2 arg3 harg3 arg4 harg4 arg5 harg5 arg6 harg6 arg7 harg7 arg8 harg8 hc0 x0 x1 x2 x3 xs0 xs1 = k0_pay1 (k0_pay6 x1 xs1) := by
  unfold sout0_B_1
  rw [View.read_writes_eq_canon _ _ _ (scover0_B_1 c i arg1 harg1 arg2 harg2 arg3 harg3 arg4 harg4 arg5 harg5 arg6 harg6 arg7 harg7 arg8 harg8 hc0 x0 x1 x2 x3 xs0 xs1)]
  unfold kernelRun0_B
  dsimp only
  sl_unfold_words
  rw [View.canon_cons_unit_zero (S := S10x1) hz2]
  simp only [View.readAt_eq_ld, harg1.read_unread, harg2.read_unread, harg3.read_unread, harg4.read_unread, harg7.read_unread, harg8.read_unread, View.ld_unit_zero (S := S2048x1024) hz2, View.ld_unit_zero (S := S1x2048) hz2, View.ld_unit_zero (S := S1024x256) hz2, View.ld_unit_zero (S := S1x256) hz2, View.ld_unit_zero (S := S10x256) hz2, View.ld_unit_zero (S := S10x1) hz2, readCov_cons_unit_zero (S := S10x256) _ hz2, readCov_cons_unit_zero (S := S10x1) _ hz2]

/-- At a later point output window 4's buffer ends at a copy of the sums accumulator. -/
theorem out0_B_4_eq (c : Dev nD) (i : grid0.Coords) (arg1 : Memref sig .tc .vmem S2048x1024 .f32) (harg1 : arg1.IsWhole) (arg2 : Memref sig .tc .vmem S1x2048 .i32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S10x256 .f32) (harg5 : arg5.IsWhole) (arg6 : Memref sig .tc .vmem S10x1 .f32) (harg6 : arg6.IsWhole) (arg7 : Memref sig .tc .vmem S10x256 .f32) (harg7 : arg7.IsWhole) (arg8 : Memref sig .tc .vmem S10x1 .f32) (harg8 : arg8.IsWhole) (hc0 : ¬cond0_0 i)
    (x0 : Vec F S2048x1024 .f32) (x1 : Vec F S1x2048 .i32) (x2 : Vec F S1024x256 .bf16) (x3 : Vec F S1x256 .f32) (xs0 : Vec F S10x256 .f32) (xs1 : Vec F S10x1 .f32) :
    out0_B_4 c i arg1 harg1 arg2 harg2 arg3 harg3 arg4 harg4 arg5 harg5 arg6 harg6 arg7 harg7 arg8 harg8 hc0 x0 x1 x2 x3 xs0 xs1 = k0_pay5 x0 x2 x3 x1 xs0 := by
  unfold out0_B_4
  rw [View.read_writes_eq_canon _ _ _ (cover0_B_4 c i arg1 harg1 arg2 harg2 arg3 harg3 arg4 harg4 arg5 harg5 arg6 harg6 arg7 harg7 arg8 harg8 hc0 x0 x1 x2 x3 xs0 xs1)]
  unfold kernelRun0_B
  dsimp only
  sl_unfold_words
  rw [View.canon_cons_unit_zero (S := S10x256) hz2]
  simp only [View.readAt_eq_ld, harg1.read_unread, harg2.read_unread, harg3.read_unread, harg4.read_unread, harg7.read_unread, harg8.read_unread, View.ld_unit_zero (S := S2048x1024) hz2, View.ld_unit_zero (S := S1x2048) hz2, View.ld_unit_zero (S := S1024x256) hz2, View.ld_unit_zero (S := S1x256) hz2, View.ld_unit_zero (S := S10x256) hz2, View.ld_unit_zero (S := S10x1) hz2, readCov_cons_unit_zero (S := S10x256) _ hz2, readCov_cons_unit_zero (S := S10x1) _ hz2]

/-- At a later point output window 5's buffer ends at a copy of the counts accumulator. -/
theorem out0_B_5_eq (c : Dev nD) (i : grid0.Coords) (arg1 : Memref sig .tc .vmem S2048x1024 .f32) (harg1 : arg1.IsWhole) (arg2 : Memref sig .tc .vmem S1x2048 .i32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S10x256 .f32) (harg5 : arg5.IsWhole) (arg6 : Memref sig .tc .vmem S10x1 .f32) (harg6 : arg6.IsWhole) (arg7 : Memref sig .tc .vmem S10x256 .f32) (harg7 : arg7.IsWhole) (arg8 : Memref sig .tc .vmem S10x1 .f32) (harg8 : arg8.IsWhole) (hc0 : ¬cond0_0 i)
    (x0 : Vec F S2048x1024 .f32) (x1 : Vec F S1x2048 .i32) (x2 : Vec F S1024x256 .bf16) (x3 : Vec F S1x256 .f32) (xs0 : Vec F S10x256 .f32) (xs1 : Vec F S10x1 .f32) :
    out0_B_5 c i arg1 harg1 arg2 harg2 arg3 harg3 arg4 harg4 arg5 harg5 arg6 harg6 arg7 harg7 arg8 harg8 hc0 x0 x1 x2 x3 xs0 xs1 = k0_pay1 (k0_pay6 x1 xs1) := by
  unfold out0_B_5
  rw [View.read_writes_eq_canon _ _ _ (cover0_B_5 c i arg1 harg1 arg2 harg2 arg3 harg3 arg4 harg4 arg5 harg5 arg6 harg6 arg7 harg7 arg8 harg8 hc0 x0 x1 x2 x3 xs0 xs1)]
  unfold kernelRun0_B
  dsimp only
  sl_unfold_words
  rw [View.canon_cons_unit_zero (S := S10x1) hz2]
  simp only [View.readAt_eq_ld, harg1.read_unread, harg2.read_unread, harg3.read_unread, harg4.read_unread, harg7.read_unread, harg8.read_unread, View.ld_unit_zero (S := S2048x1024) hz2, View.ld_unit_zero (S := S1x2048) hz2, View.ld_unit_zero (S := S1024x256) hz2, View.ld_unit_zero (S := S1x256) hz2, View.ld_unit_zero (S := S10x256) hz2, View.ld_unit_zero (S := S10x1) hz2, readCov_cons_unit_zero (S := S10x256) _ hz2, readCov_cons_unit_zero (S := S10x1) _ hz2]

end Cert.KernelIdeal.Seg

end
-- ==== Proof.SegIdeal.LastPoint.lean ====
/-
  The accumulators over the grid, and the call's two results.

  Writing S t and C t for what grid point t leaves in the sums and counts accumulators:
    S 0 = tile 0's per-cluster sums added to zeros,      S t = tile t's added to S (t - 1)  (t > 0),
    C 0 = tile 0's per-cluster counts added to zeros,    C t = tile t's added to C (t - 1)  (t > 0),
  each stated through the body's payloads of the point's blocks; and at every point the two output
  buffers hold S t and C t. Both output windows have one block, the whole array, written back once,
  after the last point (point 97): so after the call the sums array is S 97 and the counts array C 97.
-/
import proofs.«408968_j90941637525542_1_alg».proof.Proof.SegIdeal.Pieces

set_option maxRecDepth 16384

noncomputable section

namespace Cert.KernelIdeal.Seg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The recurrence -/

theorem accS_zero (c : Dev nD) (t : Fin cfg0.N) (h0 : t.val = 0) :
    (outsAt0 m c t.val t.isLt).2.2.1 = k0_pay5 (iblk m c 0 t) (iblk m c 2 t) (iblk m c 3 t) (iblk m c 1 t) (k0_pay2 (F := F)) := by
  rw [outsAt0_A m c t h0]; dsimp only
  exact sout0_A_0_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t)
theorem accC_zero (c : Dev nD) (t : Fin cfg0.N) (h0 : t.val = 0) :
    (outsAt0 m c t.val t.isLt).2.2.2 = k0_pay1 (k0_pay6 (iblk m c 1 t) (k0_pay3 (F := F))) := by
  rw [outsAt0_A m c t h0]; dsimp only
  exact sout0_A_1_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t)
theorem accS_succ (c : Dev nD) (t : Fin cfg0.N) (h0 : ¬t.val = 0) :
    (outsAt0 m c t.val t.isLt).2.2.1 = k0_pay5 (iblk m c 0 t) (iblk m c 2 t) (iblk m c 3 t) (iblk m c 1 t) (outsAt0 m c (t.val - 1) (Nat.lt_of_le_of_lt (Nat.sub_le _ _) t.isLt)).2.2.1 := by
  rw [outsAt0_B m c t h0]; dsimp only
  exact sout0_B_0_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2
theorem accC_succ (c : Dev nD) (t : Fin cfg0.N) (h0 : ¬t.val = 0) :
    (outsAt0 m c t.val t.isLt).2.2.2 = k0_pay1 (k0_pay6 (iblk m c 1 t) (outsAt0 m c (t.val - 1) (Nat.lt_of_le_of_lt (Nat.sub_le _ _) t.isLt)).2.2.2) := by
  rw [outsAt0_B m c t h0]; dsimp only
  exact sout0_B_1_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2

/-- At every point output window 4's buffer holds what the sums accumulator holds. -/
theorem out4_eq_acc (c : Dev nD) (t : Fin cfg0.N) : (outsAt0 m c t.val t.isLt).1 = (outsAt0 m c t.val t.isLt).2.2.1 := by
  by_cases h0 : t.val = 0
  · rw [outsAt0_A m c t h0]; dsimp only
    exact (out0_A_4_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t)).trans
      (sout0_A_0_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t)).symm
  · rw [outsAt0_B m c t h0]; dsimp only
    exact (out0_B_4_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2).trans
      (sout0_B_0_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2).symm
/-- At every point output window 5's buffer holds what the counts accumulator holds. -/
theorem out5_eq_acc (c : Dev nD) (t : Fin cfg0.N) : (outsAt0 m c t.val t.isLt).2.1 = (outsAt0 m c t.val t.isLt).2.2.2 := by
  by_cases h0 : t.val = 0
  · rw [outsAt0_A m c t h0]; dsimp only
    exact (out0_A_5_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t)).trans
      (sout0_A_1_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t)).symm
  · rw [outsAt0_B m c t h0]; dsimp only
    exact (out0_B_5_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2).trans
      (sout0_B_1_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2).symm

/-! ## The two result arrays after the call -/

theorem h97 : 97 < cfg0.N := by have : cfg0.N = 98 := N_0; omega

/-- The grid's last point, point 97, by name. -/
@[irreducible] def lastPt : Fin cfg0.N := ⟨97, h97⟩
theorem lastPt_val : (lastPt).val = 97 := by unfold lastPt; rfl

/-- Both output windows sit on block (0, 0), the whole array, at every point. -/
theorem idx4 : ∀ t : Fin cfg0.N, win0_4.index t = ![0, 0] :=
  (by decide +kernel : ∀ t : Fin grid0.N, win0_4.index t = ![0, 0])
theorem idx5 : ∀ t : Fin cfg0.N, win0_5.index t = ![0, 0] :=
  (by decide +kernel : ∀ t : Fin grid0.N, win0_5.index t = ![0, 0])

/-- A point that writes an output window back is the last point. -/
theorem last_of_flush4 (t : Fin cfg0.N) (hf : (cfg0.win 4).flush t = true) : t = lastPt := by
  apply Fin.ext; rw [lastPt_val]
  have h := (flush0_4 t).mp hf; have hl := t.isLt; have hN : cfg0.N = 98 := N_0; omega
theorem last_of_flush5 (t : Fin cfg0.N) (hf : (cfg0.win 5).flush t = true) : t = lastPt := by
  apply Fin.ext; rw [lastPt_val]
  have h := (flush0_5 t).mp hf; have hl := t.isLt; have hN : cfg0.N = 98 := N_0; omega
theorem flush4_last : (cfg0.win 4).flush lastPt = true := (flush0_4 _).mpr (by rw [lastPt_val])
theorem flush5_last : (cfg0.win 5).flush lastPt = true := (flush0_5 _).mpr (by rw [lastPt_val])

/-- The whole-array block's coordinates are the array's. -/
theorem emb4 (t : Fin cfg0.N) (j : S10x256.Idx) : ((cfg0.win 4).blk t).view.emb j = j := by
  funext a; apply Fin.ext
  have e0 : win0_4.index t (0 : Fin 2) = 0 := by rw [idx4 t]; rfl
  have e1 : win0_4.index t (1 : Fin 2) = 0 := by rw [idx4 t]; rfl
  match a with
  | ⟨0, _⟩ => show win0_4.index t (0 : Fin 2) * 10 + 1 * (j 0).val = (j 0).val; omega
  | ⟨1, _⟩ => show win0_4.index t (1 : Fin 2) * 256 + 1 * (j 1).val = (j 1).val; omega
theorem emb5 (t : Fin cfg0.N) (j : S10x1.Idx) : ((cfg0.win 5).blk t).view.emb j = j := by
  funext a; apply Fin.ext
  have e0 : win0_5.index t (0 : Fin 2) = 0 := by rw [idx5 t]; rfl
  have e1 : win0_5.index t (1 : Fin 2) = 0 := by rw [idx5 t]; rfl
  match a with
  | ⟨0, _⟩ => show win0_5.index t (0 : Fin 2) * 10 + 1 * (j 0).val = (j 0).val; omega
  | ⟨1, _⟩ => show win0_5.index t (1 : Fin 2) * 1 + 1 * (j 1).val = (j 1).val; omega

/-- Every index of the sums array lies in the whole-array block. -/
theorem mem_blk4 (t : Fin cfg0.N) (i : S10x256.Idx) : i ∈ ((cfg0.win 4).blk t).view.set := by
  show i ∈ ((View.whole main_v7_0).slice (win0_4.rect t)).set
  rw [View.set_slice_whole, Rect.mem_set_unit]
  have e0 : win0_4.index t (0 : Fin 2) = 0 := by rw [idx4 t]; rfl
  have e1 : win0_4.index t (1 : Fin 2) = 0 := by rw [idx4 t]; rfl
  have h0 : (i 0).val < 10 := (i 0).isLt
  have h1 : (i 1).val < 256 := (i 1).isLt
  intro a
  match a with
  | ⟨0, _⟩ => show win0_4.index t (0 : Fin 2) * 10 ≤ (i 0).val ∧ (i 0).val < win0_4.index t (0 : Fin 2) * 10 + 10; omega
  | ⟨1, _⟩ => show win0_4.index t (1 : Fin 2) * 256 ≤ (i 1).val ∧ (i 1).val < win0_4.index t (1 : Fin 2) * 256 + 256; omega
theorem mem_blk5 (t : Fin cfg0.N) (i : S10x1.Idx) : i ∈ ((cfg0.win 5).blk t).view.set := by
  show i ∈ ((View.whole main_v7_1).slice (win0_5.rect t)).set
  rw [View.set_slice_whole, Rect.mem_set_unit]
  have e0 : win0_5.index t (0 : Fin 2) = 0 := by rw [idx5 t]; rfl
  have e1 : win0_5.index t (1 : Fin 2) = 0 := by rw [idx5 t]; rfl
  have h0 : (i 0).val < 10 := (i 0).isLt
  have h1 : (i 1).val < 1 := (i 1).isLt
  intro a
  match a with
  | ⟨0, _⟩ => show win0_5.index t (0 : Fin 2) * 10 ≤ (i 0).val ∧ (i 0).val < win0_5.index t (0 : Fin 2) * 10 + 10; omega
  | ⟨1, _⟩ => show win0_5.index t (1 : Fin 2) * 1 ≤ (i 1).val ∧ (i 1).val < win0_5.index t (1 : Fin 2) * 1 + 1; omega

/-- What any point would write back of output window 4 is the whole-array block of its sums accumulator. -/
theorem flushed4_eq (c : Dev nD) (t : Fin cfg0.N) :
    (dats m 0 c).flushed 4 t = ((cfg0.win 4).blk t).view.read (Elt F) ((outsAt0 m c t.val t.isLt).2.2.1) := by
  show (cfg0.win 4).cut (grid0.coords t) ((dats m 0 c).after 4 t) = _
  rw [after0_4, out4_eq_acc m c t]
  funext j
  show (outsAt0 m c t.val t.isLt).2.2.1 j = (outsAt0 m c t.val t.isLt).2.2.1 (((cfg0.win 4).blk t).view.emb j)
  rw [emb4]
theorem flushed5_eq (c : Dev nD) (t : Fin cfg0.N) :
    (dats m 0 c).flushed 5 t = ((cfg0.win 5).blk t).view.read (Elt F) ((outsAt0 m c t.val t.isLt).2.2.2) := by
  show (cfg0.win 5).cut (grid0.coords t) ((dats m 0 c).after 5 t) = _
  rw [after0_5, out5_eq_acc m c t]
  funext j
  show (outsAt0 m c t.val t.isLt).2.2.2 j = (outsAt0 m c t.val t.isLt).2.2.2 (((cfg0.win 5).blk t).view.emb j)
  rw [emb5]

/-- After the call the sums array holds what the last point left in the sums accumulator. -/
theorem final_sums (c : Dev nD) : (dats m 0 c).arrAt 4 cfg0.N = (outsAt0 m c lastPt.val lastPt.isLt).2.2.1 :=
  (dats m 0 c).arrAt_eq_of_cover 4 _ (fun t hf => by rw [last_of_flush4 t hf]; exact flushed4_eq m c lastPt)
    (fun i => ⟨lastPt, flush4_last, mem_blk4 _ i⟩)
/-- After the call the counts array holds what the last point left in the counts accumulator. -/
theorem final_counts (c : Dev nD) : (dats m 0 c).arrAt 5 cfg0.N = (outsAt0 m c lastPt.val lastPt.isLt).2.2.2 :=
  (dats m 0 c).arrAt_eq_of_cover 5 _ (fun t hf => by rw [last_of_flush5 t hf]; exact flushed5_eq m c lastPt)
    (fun i => ⟨lastPt, flush5_last, mem_blk5 _ i⟩)

end Cert.KernelIdeal.Seg

end
-- ==== Proof.SharedTail.lean ====
/-
  What both programs do with the per-cluster sums [10, 256] and counts [10]: the empty-cluster-safe mean
  h = where(counts > 0, sums / max(counts, 1), 0), the hidden layer h1 = relu(h · W1ᵀ + b1), the gated attention scores
  ((tanh(h1 · Waᵀ + ba) ⊙ sigmoid(h1 · Wbᵀ + bb)) · Wcᵀ + bc), their softmax over the ten clusters, the pooled row
  A · h1 and the output (A · h1) · Woᵀ + bo — as ONE function of (sums, counts) and the ten later arguments, each host
  operation one line in the program's order, so that the two programs' results are compared by applying this function to
  equal sums and counts and it is never opened.
-/
import proofs.«408968_j90941637525542_1_alg».proof.KernelIdeal

noncomputable section

namespace Cert.KernelIdeal.Seg

open Idealize.ShloMosaic Cert.KernelIdeal

variable {F : FTy → Type} [FloatOps F] [Facts]
open Facts₀ Facts

set_option maxRecDepth 8192 in
/-- The host operations after the call, from the per-cluster sums and counts to the program's result. -/
def sharedTail (sums : (⟨S10x256, .f32⟩ : BufTy).Contents (Elt F)) (cnt : (⟨S10, .f32⟩ : BufTy).Contents (Elt F))
    (a4 : (⟨S256x256, .f32⟩ : BufTy).Contents (Elt F)) (a5 : (⟨S256, .f32⟩ : BufTy).Contents (Elt F))
    (a6 : (⟨S256x256, .f32⟩ : BufTy).Contents (Elt F)) (a7 : (⟨S256, .f32⟩ : BufTy).Contents (Elt F))
    (a8 : (⟨S256x256, .f32⟩ : BufTy).Contents (Elt F)) (a9 : (⟨S256, .f32⟩ : BufTy).Contents (Elt F))
    (a10 : (⟨S1x256, .f32⟩ : BufTy).Contents (Elt F)) (a11 : (⟨S1, .f32⟩ : BufTy).Contents (Elt F))
    (a12 : (⟨S1x256, .f32⟩ : BufTy).Contents (Elt F)) (a13 : (⟨S1, .f32⟩ : BufTy).Contents (Elt F)) :
    (⟨S1x1, .f32⟩ : BufTy).Contents (Elt F) :=
  have t_v9 := (broadcastInDim S10x1 ![0] bcast_S10_S10x1_0 : (⟨S10, .f32⟩ : BufTy).Contents (Elt F) → (⟨S10x1, .f32⟩ : BufTy).Contents (Elt F)) cnt
  have t_cst := (constant S_ .f32 0x00000000#32)
  have t_v10 := (broadcastInDim S10x1 ![] bcast_S_S10x1 : (⟨S_, .f32⟩ : BufTy).Contents (Elt F) → (⟨S10x1, .f32⟩ : BufTy).Contents (Elt F)) t_cst
  have t_v11 := (cmpf .ogt : (⟨S10x1, .f32⟩ : BufTy).Contents (Elt F) → (⟨S10x1, .f32⟩ : BufTy).Contents (Elt F) → (⟨S10x1, .i1⟩ : BufTy).Contents (Elt F)) t_v9 t_v10
  have t_cst_1 := (constant S_ .f32 0x3F800000#32)
  have t_v12 := (broadcastInDim S10 ![] bcast_S_S10 : (⟨S_, .f32⟩ : BufTy).Contents (Elt F) → (⟨S10, .f32⟩ : BufTy).Contents (Elt F)) t_cst_1
  have t_v13 := (maximumf : (⟨S10, .f32⟩ : BufTy).Contents (Elt F) → (⟨S10, .f32⟩ : BufTy).Contents (Elt F) → (⟨S10, .f32⟩ : BufTy).Contents (Elt F)) cnt t_v12
  have t_v14 := (broadcastInDim S10x1 ![0] bcast_S10_S10x1_0 : (⟨S10, .f32⟩ : BufTy).Contents (Elt F) → (⟨S10x1, .f32⟩ : BufTy).Contents (Elt F)) t_v13
  have t_v15 := (broadcastInDim S10x256 ![0, 1] bcast_S10x1_S10x256_0_1 : (⟨S10x1, .f32⟩ : BufTy).Contents (Elt F) → (⟨S10x256, .f32⟩ : BufTy).Contents (Elt F)) t_v14
  have t_v16 := (Host.divf : (⟨S10x256, .f32⟩ : BufTy).Contents (Elt F) → (⟨S10x256, .f32⟩ : BufTy).Contents (Elt F) → (⟨S10x256, .f32⟩ : BufTy).Contents (Elt F)) sums t_v15
  have t_cst_2 := (constant S_ .f32 0x00000000#32)
  have t_call2_v0 : FVec F S_ .f32 := id t_cst_2
  have t_call2_v1 : IVec S10x256 1 := broadcastInDim S10x256 ![0, 1] bcast_S10x1_S10x256_0_1 t_v11
  have t_call2_v2 : FVec F S10x256 .f32 := broadcastInDim S10x256 ![] bcast_S_S10x256 t_call2_v0
  have t_v17 : FVec F S10x256 .f32 := select t_call2_v1 t_v16 t_call2_v2
  have t_v18 := ((transpose S256x256 [1, 0] · transposes_S256x256_S256x256_1_0) : (⟨S256x256, .f32⟩ : BufTy).Contents (Elt F) → (⟨S256x256, .f32⟩ : BufTy).Contents (Elt F)) a4
  have t_v19 := ((fun l r => Host.dotGeneral dot_S10x256_S256x256_S10x256_1_0_0_1_n_n none l r) : (⟨S10x256, .f32⟩ : BufTy).Contents (Elt F) → (⟨S256x256, .f32⟩ : BufTy).Contents (Elt F) → (⟨S10x256, .f32⟩ : BufTy).Contents (Elt F)) t_v17 t_v18
  have t_v20 := (broadcastInDim S1x256 ![1] bcast_S256_S1x256_1 : (⟨S256, .f32⟩ : BufTy).Contents (Elt F) → (⟨S1x256, .f32⟩ : BufTy).Contents (Elt F)) a5
  have t_v21 := (broadcastInDim S10x256 ![0, 1] bcast_S1x256_S10x256_0_1 : (⟨S1x256, .f32⟩ : BufTy).Contents (Elt F) → (⟨S10x256, .f32⟩ : BufTy).Contents (Elt F)) t_v20
  have t_v22 := (addf : (⟨S10x256, .f32⟩ : BufTy).Contents (Elt F) → (⟨S10x256, .f32⟩ : BufTy).Contents (Elt F) → (⟨S10x256, .f32⟩ : BufTy).Contents (Elt F)) t_v19 t_v21
  have t_call3_cst : FVec F S_ .f32 := constant S_ .f32 0x00000000#32
  have t_call3_v0 : FVec F S10x256 .f32 := broadcastInDim S10x256 ![] bcast_S_S10x256 t_call3_cst
  have t_v23 : FVec F S10x256 .f32 := maximumf t_v22 t_call3_v0
  have t_v24 := ((transpose S256x256 [1, 0] · transposes_S256x256_S256x256_1_0) : (⟨S256x256, .f32⟩ : BufTy).Contents (Elt F) → (⟨S256x256, .f32⟩ : BufTy).Contents (Elt F)) a6
  have t_v25 := ((fun l r => Host.dotGeneral dot_S10x256_S256x256_S10x256_1_0_0_1_n_n none l r) : (⟨S10x256, .f32⟩ : BufTy).Contents (Elt F) → (⟨S256x256, .f32⟩ : BufTy).Contents (Elt F) → (⟨S10x256, .f32⟩ : BufTy).Contents (Elt F)) t_v23 t_v24
  have t_v26 := (broadcastInDim S1x256 ![1] bcast_S256_S1x256_1 : (⟨S256, .f32⟩ : BufTy).Contents (Elt F) → (⟨S1x256, .f32⟩ : BufTy).Contents (Elt F)) a7
  have t_v27 := (broadcastInDim S10x256 ![0, 1] bcast_S1x256_S10x256_0_1 : (⟨S1x256, .f32⟩ : BufTy).Contents (Elt F) → (⟨S10x256, .f32⟩ : BufTy).Contents (Elt F)) t_v26
  have t_v28 := (addf : (⟨S10x256, .f32⟩ : BufTy).Contents (Elt F) → (⟨S10x256, .f32⟩ : BufTy).Contents (Elt F) → (⟨S10x256, .f32⟩ : BufTy).Contents (Elt F)) t_v25 t_v27
  have t_v29 := (Host.tanh : (⟨S10x256, .f32⟩ : BufTy).Contents (Elt F) → (⟨S10x256, .f32⟩ : BufTy).Contents (Elt F)) t_v28
  have t_v30 := ((transpose S256x256 [1, 0] · transposes_S256x256_S256x256_1_0) : (⟨S256x256, .f32⟩ : BufTy).Contents (Elt F) → (⟨S256x256, .f32⟩ : BufTy).Contents (Elt F)) a8
  have t_v31 := ((fun l r => Host.dotGeneral dot_S10x256_S256x256_S10x256_1_0_0_1_n_n none l r) : (⟨S10x256, .f32⟩ : BufTy).Contents (Elt F) → (⟨S256x256, .f32⟩ : BufTy).Contents (Elt F) → (⟨S10x256, .f32⟩ : BufTy).Contents (Elt F)) t_v23 t_v30
  have t_v32 := (broadcastInDim S1x256 ![1] bcast_S256_S1x256_1 : (⟨S256, .f32⟩ : BufTy).Contents (Elt F) → (⟨S1x256, .f32⟩ : BufTy).Contents (Elt F)) a9
  have t_v33 := (broadcastInDim S10x256 ![0, 1] bcast_S1x256_S10x256_0_1 : (⟨S1x256, .f32⟩ : BufTy).Contents (Elt F) → (⟨S10x256, .f32⟩ : BufTy).Contents (Elt F)) t_v32
  have t_v34 := (addf : (⟨S10x256, .f32⟩ : BufTy).Contents (Elt F) → (⟨S10x256, .f32⟩ : BufTy).Contents (Elt F) → (⟨S10x256, .f32⟩ : BufTy).Contents (Elt F)) t_v31 t_v33
  have t_v35 := (Host.negf : (⟨S10x256, .f32⟩ : BufTy).Contents (Elt F) → (⟨S10x256, .f32⟩ : BufTy).Contents (Elt F)) t_v34
  have t_v36 := (Host.exp : (⟨S10x256, .f32⟩ : BufTy).Contents (Elt F) → (⟨S10x256, .f32⟩ : BufTy).Contents (Elt F)) t_v35
  have t_cst_3 := (constant S_ .f32 0x3F800000#32)
  have t_v37 := (broadcastInDim S10x256 ![] bcast_S_S10x256 : (⟨S_, .f32⟩ : BufTy).Contents (Elt F) → (⟨S10x256, .f32⟩ : BufTy).Contents (Elt F)) t_cst_3
  have t_v38 := (addf : (⟨S10x256, .f32⟩ : BufTy).Contents (Elt F) → (⟨S10x256, .f32⟩ : BufTy).Contents (Elt F) → (⟨S10x256, .f32⟩ : BufTy).Contents (Elt F)) t_v37 t_v36
  have t_cst_4 := (constant S_ .f32 0x3F800000#32)
  have t_v39 := (broadcastInDim S10x256 ![] bcast_S_S10x256 : (⟨S_, .f32⟩ : BufTy).Contents (Elt F) → (⟨S10x256, .f32⟩ : BufTy).Contents (Elt F)) t_cst_4
  have t_v40 := (Host.divf : (⟨S10x256, .f32⟩ : BufTy).Contents (Elt F) → (⟨S10x256, .f32⟩ : BufTy).Contents (Elt F) → (⟨S10x256, .f32⟩ : BufTy).Contents (Elt F)) t_v39 t_v38
  have t_v41 := (mulf : (⟨S10x256, .f32⟩ : BufTy).Contents (Elt F) → (⟨S10x256, .f32⟩ : BufTy).Contents (Elt F) → (⟨S10x256, .f32⟩ : BufTy).Contents (Elt F)) t_v29 t_v40
  have t_v42 := ((transpose S256x1 [1, 0] · transposes_S1x256_S256x1_1_0) : (⟨S1x256, .f32⟩ : BufTy).Contents (Elt F) → (⟨S256x1, .f32⟩ : BufTy).Contents (Elt F)) a10
  have t_v43 := ((fun l r => Host.dotGeneral dot_S10x256_S256x1_S10x1_1_0_0_1_n_n none l r) : (⟨S10x256, .f32⟩ : BufTy).Contents (Elt F) → (⟨S256x1, .f32⟩ : BufTy).Contents (Elt F) → (⟨S10x1, .f32⟩ : BufTy).Contents (Elt F)) t_v41 t_v42
  have t_v44 := (broadcastInDim S1x1 ![1] bcast_S1_S1x1_1 : (⟨S1, .f32⟩ : BufTy).Contents (Elt F) → (⟨S1x1, .f32⟩ : BufTy).Contents (Elt F)) a11
  have t_v45 := (broadcastInDim S10x1 ![0, 1] bcast_S1x1_S10x1_0_1 : (⟨S1x1, .f32⟩ : BufTy).Contents (Elt F) → (⟨S10x1, .f32⟩ : BufTy).Contents (Elt F)) t_v44
  have t_v46 := (addf : (⟨S10x1, .f32⟩ : BufTy).Contents (Elt F) → (⟨S10x1, .f32⟩ : BufTy).Contents (Elt F) → (⟨S10x1, .f32⟩ : BufTy).Contents (Elt F)) t_v43 t_v45
  have t_v47 := ((transpose S1x10 [1, 0] · transposes_S10x1_S1x10_1_0) : (⟨S10x1, .f32⟩ : BufTy).Contents (Elt F) → (⟨S1x10, .f32⟩ : BufTy).Contents (Elt F)) t_v46
  have t_cst_5 := (constant S_ .f32 0xFF800000#32)
  have t_v48 := ((fun x v => Host.reduce FloatOps.maximumf x v reducesTo_S1x10_S1_d1 h_S_) : (⟨S1x10, .f32⟩ : BufTy).Contents (Elt F) → (⟨S_, .f32⟩ : BufTy).Contents (Elt F) → (⟨S1, .f32⟩ : BufTy).Contents (Elt F)) t_v47 t_cst_5
  have t_cst_6 := (constant S_ .f32 0xFF800000#32)
  have t_v49 := (broadcastInDim S1 ![] bcast_S_S1 : (⟨S_, .f32⟩ : BufTy).Contents (Elt F) → (⟨S1, .f32⟩ : BufTy).Contents (Elt F)) t_cst_6
  have t_v50 := (maximumf : (⟨S1, .f32⟩ : BufTy).Contents (Elt F) → (⟨S1, .f32⟩ : BufTy).Contents (Elt F) → (⟨S1, .f32⟩ : BufTy).Contents (Elt F)) t_v49 t_v48
  have t_v51 := (broadcastInDim S1x1 ![0] bcast_S1_S1x1_0 : (⟨S1, .f32⟩ : BufTy).Contents (Elt F) → (⟨S1x1, .f32⟩ : BufTy).Contents (Elt F)) t_v50
  have t_v52 := (broadcastInDim S1x10 ![0, 1] bcast_S1x1_S1x10_0_1 : (⟨S1x1, .f32⟩ : BufTy).Contents (Elt F) → (⟨S1x10, .f32⟩ : BufTy).Contents (Elt F)) t_v51
  have t_v53 := (subf : (⟨S1x10, .f32⟩ : BufTy).Contents (Elt F) → (⟨S1x10, .f32⟩ : BufTy).Contents (Elt F) → (⟨S1x10, .f32⟩ : BufTy).Contents (Elt F)) t_v47 t_v52
  have t_v54 := (Host.exp : (⟨S1x10, .f32⟩ : BufTy).Contents (Elt F) → (⟨S1x10, .f32⟩ : BufTy).Contents (Elt F)) t_v53
  have t_cst_7 := (constant S_ .f32 0x00000000#32)
  have t_v55 := ((fun x v => Host.reduceAdd x v reducesTo_S1x10_S1_d1 h_S_) : (⟨S1x10, .f32⟩ : BufTy).Contents (Elt F) → (⟨S_, .f32⟩ : BufTy).Contents (Elt F) → (⟨S1, .f32⟩ : BufTy).Contents (Elt F)) t_v54 t_cst_7
  have t_v56 := (broadcastInDim S1x1 ![0] bcast_S1_S1x1_0 : (⟨S1, .f32⟩ : BufTy).Contents (Elt F) → (⟨S1x1, .f32⟩ : BufTy).Contents (Elt F)) t_v55
  have t_v57 := (broadcastInDim S1x10 ![0, 1] bcast_S1x1_S1x10_0_1 : (⟨S1x1, .f32⟩ : BufTy).Contents (Elt F) → (⟨S1x10, .f32⟩ : BufTy).Contents (Elt F)) t_v56
  have t_v58 := (Host.divf : (⟨S1x10, .f32⟩ : BufTy).Contents (Elt F) → (⟨S1x10, .f32⟩ : BufTy).Contents (Elt F) → (⟨S1x10, .f32⟩ : BufTy).Contents (Elt F)) t_v54 t_v57
  have t_v59 := ((fun l r => Host.dotGeneral dot_S1x10_S10x256_S1x256_1_0_0_1_n_n none l r) : (⟨S1x10, .f32⟩ : BufTy).Contents (Elt F) → (⟨S10x256, .f32⟩ : BufTy).Contents (Elt F) → (⟨S1x256, .f32⟩ : BufTy).Contents (Elt F)) t_v58 t_v23
  have t_v60 := ((transpose S256x1 [1, 0] · transposes_S1x256_S256x1_1_0) : (⟨S1x256, .f32⟩ : BufTy).Contents (Elt F) → (⟨S256x1, .f32⟩ : BufTy).Contents (Elt F)) a12
  have t_v61 := ((fun l r => Host.dotGeneral dot_S1x256_S256x1_S1x1_1_0_0_1_n_n none l r) : (⟨S1x256, .f32⟩ : BufTy).Contents (Elt F) → (⟨S256x1, .f32⟩ : BufTy).Contents (Elt F) → (⟨S1x1, .f32⟩ : BufTy).Contents (Elt F)) t_v59 t_v60
  have t_v62 := (broadcastInDim S1x1 ![1] bcast_S1_S1x1_1 : (⟨S1, .f32⟩ : BufTy).Contents (Elt F) → (⟨S1x1, .f32⟩ : BufTy).Contents (Elt F)) a13
  have t_v63 := (addf : (⟨S1x1, .f32⟩ : BufTy).Contents (Elt F) → (⟨S1x1, .f32⟩ : BufTy).Contents (Elt F) → (⟨S1x1, .f32⟩ : BufTy).Contents (Elt F)) t_v61 t_v62
  t_v63

end Cert.KernelIdeal.Seg

end
-- ==== Proof.SegIdeal.KernelResult.lean ====
/-
  The program's result after the call.

  The sixty-nine host operations after the call read only the call's two result arrays and the ten
  later arguments: the first reshapes the counts [10, 1] to [10] and the other sixty-eight are the
  function `sharedTail` of (sums, counts) and those arguments. None of them writes an argument or a
  result array of the call, so the result buffer ends at `sharedTail` of what the call left in the two
  arrays — the last point's accumulators.
-/
import proofs.«408968_j90941637525542_1_alg».proof.Proof.SegIdeal.LastPoint
import proofs.«408968_j90941637525542_1_alg».proof.Proof.SharedTail

set_option maxRecDepth 16384

noncomputable section

namespace Cert.KernelIdeal.Seg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ)

/-- The valuation the later operations start from: the call's arrays as the call leaves them, every other buffer as entered. -/
abbrev W0 (c : Dev nD) : Valuation τ sig (Elt F) :=
  Pipeline.withArrays spec0 c (V0 m c) fun w => (dats m 0 c).arrAt w cfg0.N

theorem W0_sums (c : Dev nD) : W0 m c (Proc.devRef .tc main_v7_0) = (outsAt0 m c lastPt.val lastPt.isLt).2.2.1 :=
  (Pipeline.withArrays_arr spec0 launch0.win.arr_inj c _ _ 4).trans (final_sums m c)
theorem W0_counts (c : Dev nD) : W0 m c (Proc.devRef .tc main_v7_1) = (outsAt0 m c lastPt.val lastPt.isLt).2.2.2 :=
  (Pipeline.withArrays_arr spec0 launch0.win.arr_inj c _ _ 5).trans (final_counts m c)
/-- A later argument is no array of the call and is entered as launched. -/
theorem W0_arg (c : Dev nD) (r : Ref sig .tc) (ha : ∀ w, Pipeline.arrRef spec0 w ≠ r) (hh : r ∉ headW) :
    W0 m c (Proc.devRef .tc r) = m ((c : Thread nD τ).loc r) :=
  (Pipeline.withArrays_of_ne _ c (V0 m c) _ r ha).trans (V_of_not_written m c r hh)

set_option maxRecDepth 16384 in
set_option maxHeartbeats 8000000 in
/-- The later operations' result, over any starting valuation: `sharedTail` of the sums array, the reshaped counts array
    and the ten later arguments as that valuation holds them. -/
theorem tail_result (W : Valuation τ sig (Elt F)) :
    StableHlo.after (List.flatten (tailOps (F := F))) W (Proc.devRef .tc main_v63)
      = sharedTail (W (Proc.devRef .tc main_v7_0)) (shapeCast S10 (W (Proc.devRef .tc main_v7_1)) shapeCasts_S10x1_S10)
          (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) := by
  simp only [tailOps, hostOps1, hostOps1_1, hostOps1_2, hostOps1_3, hostOps1_4, List.flatten_cons, List.flatten_nil, List.append_nil, List.cons_append, List.nil_append]
  after_results_simp
  unfold sharedTail
  rfl

/-- The program's result buffer after @main: the shared operations applied to the last point's accumulators. -/
theorem result_eq (c : Dev nD) :
    Pipeline.afterTail₀ cfgs (dats m) 0 (V0 m) tailOps c main_v63
      = sharedTail ((outsAt0 m c lastPt.val lastPt.isLt).2.2.1) (shapeCast S10 ((outsAt0 m c lastPt.val lastPt.isLt).2.2.2) shapeCasts_S10x1_S10)
          (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  unfold Pipeline.afterTail₀
  rw [tail_result (W0 m c), W0_sums, W0_counts,
    W0_arg m c main_arg4 (by decide) (by decide),
    W0_arg m c main_arg5 (by decide) (by decide),
    W0_arg m c main_arg6 (by decide) (by decide),
    W0_arg m c main_arg7 (by decide) (by decide),
    W0_arg m c main_arg8 (by decide) (by decide),
    W0_arg m c main_arg9 (by decide) (by decide),
    W0_arg m c main_arg10 (by decide) (by decide),
    W0_arg m c main_arg11 (by decide) (by decide),
    W0_arg m c main_arg12 (by decide) (by decide),
    W0_arg m c main_arg13 (by decide) (by decide)]

variable (ρ : Dev nD → PrngReg)

/-- @main runs; its result buffer ends at the shared operations of the last point's accumulators and the ten later arguments,
    and the fourteen arguments end as launched. -/
theorem run_value : θ_run defs (onTc (τ := τ) (main (F := F))) ⟨m, fun _ => 0, ρ⟩ (fun r => ∀ c : Dev nD,
      r.2.mem ((c.tc : Thread nD τ).loc main_v63)
        = sharedTail ((outsAt0 m c lastPt.val lastPt.isLt).2.2.1) (shapeCast S10 ((outsAt0 m c lastPt.val lastPt.isLt).2.2.2) shapeCasts_S10x1_S10)
            (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).2 main_v63 (Pipeline.mem_restRefs_of main_v63 (by decide) (by decide))).trans (result_eq m c),
    ((h c).2 main_arg0 (Pipeline.mem_restRefs_of main_arg0 (by decide) (by decide))).trans (arg_kept m (dats m) c main_arg0 (by decide) (by decide) (by decide)),
    ((h c).2 main_arg1 (Pipeline.mem_restRefs_of main_arg1 (by decide) (by decide))).trans (arg_kept m (dats m) c main_arg1 (by decide) (by decide) (by decide)),
    ((h c).2 main_arg2 (Pipeline.mem_restRefs_of main_arg2 (by decide) (by decide))).trans (arg_kept m (dats m) c main_arg2 (by decide) (by decide) (by decide)),
    ((h c).2 main_arg3 (Pipeline.mem_restRefs_of main_arg3 (by decide) (by decide))).trans (arg_kept m (dats m) c main_arg3 (by decide) (by decide) (by decide)),
    ((h c).2 main_arg4 (Pipeline.mem_restRefs_of main_arg4 (by decide) (by decide))).trans (arg_kept m (dats m) c main_arg4 (by decide) (by decide) (by decide)),
    ((h c).2 main_arg5 (Pipeline.mem_restRefs_of main_arg5 (by decide) (by decide))).trans (arg_kept m (dats m) c main_arg5 (by decide) (by decide) (by decide)),
    ((h c).2 main_arg6 (Pipeline.mem_restRefs_of main_arg6 (by decide) (by decide))).trans (arg_kept m (dats m) c main_arg6 (by decide) (by decide) (by decide)),
    ((h c).2 main_arg7 (Pipeline.mem_restRefs_of main_arg7 (by decide) (by decide))).trans (arg_kept m (dats m) c main_arg7 (by decide) (by decide) (by decide)),
    ((h c).2 main_arg8 (Pipeline.mem_restRefs_of main_arg8 (by decide) (by decide))).trans (arg_kept m (dats m) c main_arg8 (by decide) (by decide) (by decide)),
    ((h c).2 main_arg9 (Pipeline.mem_restRefs_of main_arg9 (by decide) (by decide))).trans (arg_kept m (dats m) c main_arg9 (by decide) (by decide) (by decide)),
    ((h c).2 main_arg10 (Pipeline.mem_restRefs_of main_arg10 (by decide) (by decide))).trans (arg_kept m (dats m) c main_arg10 (by decide) (by decide) (by decide)),
    ((h c).2 main_arg11 (Pipeline.mem_restRefs_of main_arg11 (by decide) (by decide))).trans (arg_kept m (dats m) c main_arg11 (by decide) (by decide) (by decide)),
    ((h c).2 main_arg12 (Pipeline.mem_restRefs_of main_arg12 (by decide) (by decide))).trans (arg_kept m (dats m) c main_arg12 (by decide) (by decide) (by decide)),
    ((h c).2 main_arg13 (Pipeline.mem_restRefs_of main_arg13 (by decide) (by decide))).trans (arg_kept m (dats m) c main_arg13 (by decide) (by decide) (by decide))⟩)
    (run_main m ρ)

end Cert.KernelIdeal.Seg

end
-- ==== Proof.SegIdeal.TileSums.lean ====
/-
  One tile of the segment sums, element by element.

  The body of the call reads a tile x of 2048 rows, the transposed weights w, the bias row b and the
  tile's 2048 cluster ids, and adds to the two accumulators the tile's contribution: for cluster c and
  feature d the sum over the rows r of the tile of  hot(c, r) * feat(r, d),  and for cluster c the sum
  over the rows of  hot(c, r).  Here hot(c, r) is 1 when row r's id is the word of c and 0 otherwise,
  and feat(r, d) = max(x_r · w_d + b_d, 0).  At the extended reals a change of float format is the
  identity and a product into a zero accumulator is the plain sum of products, so each stored vector,
  read at an index, is a closed formula in the loaded vectors.
-/
import proofs.«408968_j90941637525542_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal
import Idealize.ShloMosaic.PureOps.Ideal.Laws

noncomputable section

namespace Cert.KernelIdeal.Seg

open Idealize.ShloMosaic Idealize.ShloMosaic.ValueIdx Cert.KernelIdeal Cert.KernelIdeal.Gen
open scoped BigOperators

variable {α : Type}

/-! ## Two layout steps through a column -/

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, q)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! ## The one-hot word -/

/-- The comparison bit of two words, widened and converted, is 1 where they are equal and 0 elsewhere. -/
theorem onehot_word (a b : BitVec 32) :
    FloatOps.sitofp (F := Ideal) .f32 ((IntOp.cmpi .eq a b).setWidth 32) = if a = b then (1 : EReal) else 0 := by
  show (((((IntOp.cmpi .eq a b).setWidth 32).toInt : ℤ) : ℝ) : EReal) = _
  by_cases h : a = b
  · have e : IntOp.cmpi .eq a b = 1#1 := by simp [IntOp.cmpi, h]
    rw [if_pos h, e]
    have e1 : ((1#1 : BitVec 1).setWidth 32).toInt = 1 := by decide
    rw [e1]; simp
  · have hb : (a == b) = false := beq_eq_false_iff_ne.mpr h
    have e : IntOp.cmpi .eq a b = 0#1 := by
      show BitVec.ofBool (a == b) = 0#1
      rw [hb]; rfl
    rw [if_neg h, e]
    have e0 : ((0#1 : BitVec 1).setWidth 32).toInt = 0 := by decide
    rw [e0]; simp

/-! ## The two products, read at an index

Each product contracts axis 1 of its left operand with axis 0 of its right one into a zero accumulator, so at the
extended reals its element (p, q) is the sum over the contracted coordinate k of left(p, k) · right(k, q). The four axis
facts say where the dimension numbers put the output's and the contraction's coordinates. -/

theorem lhs_phi_0 (i : S2048x256.Idx) (q : dot_S2048x1024_S1024x256_S2048x256_1_0_0_1_n_n.contr.Idx) :
    (dot_S2048x1024_S1024x256_S2048x256_1_0_0_1_n_n.lhsIdx i q 0).val = (i 0).val := by
  unfold DotDims.lhsIdx
  rw [dif_neg (show ¬(0 : Fin S2048x1024.rank) ∈ dot_S2048x1024_S1024x256_S2048x256_1_0_0_1_n_n.lhsBatch by decide), dif_pos (show (0 : Fin S2048x1024.rank) ∈ dot_S2048x1024_S1024x256_S2048x256_1_0_0_1_n_n.lhsNonContracting by decide)]
  rfl
theorem lhs_phi_1 (i : S2048x256.Idx) (q : dot_S2048x1024_S1024x256_S2048x256_1_0_0_1_n_n.contr.Idx) :
    (dot_S2048x1024_S1024x256_S2048x256_1_0_0_1_n_n.lhsIdx i q 1).val = (q ⟨0, by decide⟩).val :=
  dot_S2048x1024_S1024x256_S2048x256_1_0_0_1_n_n.lhsIdx_val_of_single rfl i q
theorem rhs_phi_0 (i : S2048x256.Idx) (q : dot_S2048x1024_S1024x256_S2048x256_1_0_0_1_n_n.contr.Idx) :
    (dot_S2048x1024_S1024x256_S2048x256_1_0_0_1_n_n.rhsIdx i q 0).val = (q ⟨0, by decide⟩).val :=
  dot_S2048x1024_S1024x256_S2048x256_1_0_0_1_n_n.rhsIdx_val_of_single rfl i q
theorem rhs_phi_1 (i : S2048x256.Idx) (q : dot_S2048x1024_S1024x256_S2048x256_1_0_0_1_n_n.contr.Idx) :
    (dot_S2048x1024_S1024x256_S2048x256_1_0_0_1_n_n.rhsIdx i q 1).val = (i 1).val := by
  unfold DotDims.rhsIdx
  rw [dif_neg (show ¬(1 : Fin S1024x256.rank) ∈ dot_S2048x1024_S1024x256_S2048x256_1_0_0_1_n_n.rhsBatch by decide), dif_pos (show (1 : Fin S1024x256.rank) ∈ dot_S2048x1024_S1024x256_S2048x256_1_0_0_1_n_n.rhsNonContracting by decide)]
  rfl

/-- The affine map's product: tile rows times transposed weights. -/
theorem phi_matmul_apply (lhs : FVec Ideal S2048x1024 .bf16) (rhs : FVec Ideal S1024x256 .bf16) (p : Fin 2048) (q : Fin 256) :
    matmul dot_S2048x1024_S1024x256_S2048x256_1_0_0_1_n_n none lhs rhs (constant (F := Ideal) S2048x256 .f32 0x00000000#32) (ix2 p q)
      = ∑ k : Fin 1024, lhs (ix2 p k) * rhs (ix2 k q) := by
  simp only [matmul]
  rw [Ideal.matmul_constant_zero_apply, ← Equiv.sum_comp (contrEquiv1 dot_S2048x1024_S1024x256_S2048x256_1_0_0_1_n_n 1024 rfl rfl).symm]
  refine Finset.sum_congr rfl fun k _ => ?_
  have hk := contrEquiv1_symm_val dot_S2048x1024_S1024x256_S2048x256_1_0_0_1_n_n 1024 rfl rfl k
  have el : dot_S2048x1024_S1024x256_S2048x256_1_0_0_1_n_n.lhsIdx (ix2 p q) ((contrEquiv1 dot_S2048x1024_S1024x256_S2048x256_1_0_0_1_n_n 1024 rfl rfl).symm k) = ix2 p k := funext fun a => Fin.ext (by
    match a with
    | ⟨0, _⟩ => exact lhs_phi_0 _ _
    | ⟨1, _⟩ => exact (lhs_phi_1 _ _).trans hk)
  have er : dot_S2048x1024_S1024x256_S2048x256_1_0_0_1_n_n.rhsIdx (ix2 p q) ((contrEquiv1 dot_S2048x1024_S1024x256_S2048x256_1_0_0_1_n_n 1024 rfl rfl).symm k) = ix2 k q := funext fun a => Fin.ext (by
    match a with
    | ⟨0, _⟩ => exact (rhs_phi_0 _ _).trans hk
    | ⟨1, _⟩ => exact rhs_phi_1 _ _)
  rw [el, er]

theorem lhs_seg_0 (i : S10x256.Idx) (q : dot_S10x2048_S2048x256_S10x256_1_0_0_1_n_n.contr.Idx) :
    (dot_S10x2048_S2048x256_S10x256_1_0_0_1_n_n.lhsIdx i q 0).val = (i 0).val := by
  unfold DotDims.lhsIdx
  rw [dif_neg (show ¬(0 : Fin S10x2048.rank) ∈ dot_S10x2048_S2048x256_S10x256_1_0_0_1_n_n.lhsBatch by decide), dif_pos (show (0 : Fin S10x2048.rank) ∈ dot_S10x2048_S2048x256_S10x256_1_0_0_1_n_n.lhsNonContracting by decide)]
  rfl
theorem lhs_seg_1 (i : S10x256.Idx) (q : dot_S10x2048_S2048x256_S10x256_1_0_0_1_n_n.contr.Idx) :
    (dot_S10x2048_S2048x256_S10x256_1_0_0_1_n_n.lhsIdx i q 1).val = (q ⟨0, by decide⟩).val :=
  dot_S10x2048_S2048x256_S10x256_1_0_0_1_n_n.lhsIdx_val_of_single rfl i q
theorem rhs_seg_0 (i : S10x256.Idx) (q : dot_S10x2048_S2048x256_S10x256_1_0_0_1_n_n.contr.Idx) :
    (dot_S10x2048_S2048x256_S10x256_1_0_0_1_n_n.rhsIdx i q 0).val = (q ⟨0, by decide⟩).val :=
  dot_S10x2048_S2048x256_S10x256_1_0_0_1_n_n.rhsIdx_val_of_single rfl i q
theorem rhs_seg_1 (i : S10x256.Idx) (q : dot_S10x2048_S2048x256_S10x256_1_0_0_1_n_n.contr.Idx) :
    (dot_S10x2048_S2048x256_S10x256_1_0_0_1_n_n.rhsIdx i q 1).val = (i 1).val := by
  unfold DotDims.rhsIdx
  rw [dif_neg (show ¬(1 : Fin S2048x256.rank) ∈ dot_S10x2048_S2048x256_S10x256_1_0_0_1_n_n.rhsBatch by decide), dif_pos (show (1 : Fin S2048x256.rank) ∈ dot_S10x2048_S2048x256_S10x256_1_0_0_1_n_n.rhsNonContracting by decide)]
  rfl

/-- The segment product: one-hot rows times features. -/
theorem seg_matmul_apply (lhs : FVec Ideal S10x2048 .bf16) (rhs : FVec Ideal S2048x256 .bf16) (p : Fin 10) (q : Fin 256) :
    matmul dot_S10x2048_S2048x256_S10x256_1_0_0_1_n_n none lhs rhs (constant (F := Ideal) S10x256 .f32 0x00000000#32) (ix2 p q)
      = ∑ k : Fin 2048, lhs (ix2 p k) * rhs (ix2 k q) := by
  simp only [matmul]
  rw [Ideal.matmul_constant_zero_apply, ← Equiv.sum_comp (contrEquiv1 dot_S10x2048_S2048x256_S10x256_1_0_0_1_n_n 2048 rfl rfl).symm]
  refine Finset.sum_congr rfl fun k _ => ?_
  have hk := contrEquiv1_symm_val dot_S10x2048_S2048x256_S10x256_1_0_0_1_n_n 2048 rfl rfl k
  have el : dot_S10x2048_S2048x256_S10x256_1_0_0_1_n_n.lhsIdx (ix2 p q) ((contrEquiv1 dot_S10x2048_S2048x256_S10x256_1_0_0_1_n_n 2048 rfl rfl).symm k) = ix2 p k := funext fun a => Fin.ext (by
    match a with
    | ⟨0, _⟩ => exact lhs_seg_0 _ _
    | ⟨1, _⟩ => exact (lhs_seg_1 _ _).trans hk)
  have er : dot_S10x2048_S2048x256_S10x256_1_0_0_1_n_n.rhsIdx (ix2 p q) ((contrEquiv1 dot_S10x2048_S2048x256_S10x256_1_0_0_1_n_n 2048 rfl rfl).symm k) = ix2 k q := funext fun a => Fin.ext (by
    match a with
    | ⟨0, _⟩ => exact (rhs_seg_0 _ _).trans hk
    | ⟨1, _⟩ => exact rhs_seg_1 _ _)
  rw [el, er]

/-- 1 where row r's cluster id is cluster c's word, else 0. -/
def hot (cid : IVec S1x2048 32) (c : Fin 10) (r : Fin 2048) : EReal :=
  if BitVec.ofNat 32 c.val = cid (ix2 0 r) then 1 else 0

/-- The one-hot matrix of the tile's ids, read at cluster c and row r. -/
theorem pay4_apply (cid : Vec Ideal S1x2048 .i32) (c : Fin 10) (r : Fin 2048) :
    k0_pay4 (F := Ideal) cid (ix2 c r) = hot cid c r := by
  unfold k0_pay4 hot
  show FloatOps.sitofp (F := Ideal) .f32 ((IntOp.cmpi .eq
      (broadcastTo S10x2048 (iota .tc S10x1 32 [0] iota_S10x1_d0_w32) broadcasts_S10x1_S10x2048 (ix2 c r))
      (broadcastTo S10x2048 (shapeCast S1x2048 cid shapeCasts_S1x2048_S1x2048) broadcasts_S1x2048_S10x2048 (ix2 c r))).setWidth 32) = _
  rw [broadcastTo_a1_ab_apply, broadcastTo_1b_ab_apply, shapeCast_self, iota_single_apply]
  exact onehot_word _ _

/-- The lane sum of a [10, 2048] vector at cluster c is the sum over the 2048 rows. -/
theorem laneSum_apply (src : FVec Ideal S10x2048 .f32) (c : Fin 10) :
    multiReduction (F := Ideal) .add [1] S10 src 0x00000000#32 reduces_S10x2048_S10 (.inl rfl) rfl (ix1 c)
      = ∑ r : Fin 2048, src (ix2 c r) := by
  refine (Ideal.multiReduction_add_single src 0x00000000#32 reduces_S10x2048_S10 (.inl rfl) rfl (ix1 c)).trans ?_
  show ∑ r : Fin 2048, src (reduces_S10x2048_S10.lift (ix1 c) r) = _
  refine Finset.sum_congr rfl fun r _ => congrArg src ?_
  funext a
  refine Fin.ext ?_
  match a with
  | ⟨0, _⟩ => rfl
  | ⟨1, _⟩ => rfl

theorem pay6_apply (cid : Vec Ideal S1x2048 .i32) (acc : FVec Ideal S10x1 .f32) (c : Fin 10) :
    k0_pay1 (k0_pay6 (F := Ideal) cid acc) (ix2 c 0) = acc (ix2 c 0) + ∑ r : Fin 2048, hot cid c r := by
  unfold k0_pay1 k0_pay6
  rw [shapeCast_self]
  show acc (ix2 c 0) + shapeCast S10x1 (multiReduction (F := Ideal) .add [1] S10 (k0_pay4 cid) 0x00000000#32 reduces_S10x2048_S10 (.inl rfl) rfl) shapeCasts_S10_S10x1 (ix2 c 0) = _
  rw [shapeCast_a_a1_apply, laneSum_apply]
  simp only [pay4_apply]

/-! ## The features of the tile -/

/-- Row r's feature d: the affine map's value, clamped below at 0. -/
def feat (x : FVec Ideal S2048x1024 .f32) (w : FVec Ideal S1024x256 .bf16) (b : FVec Ideal S1x256 .f32)
    (r : Fin 2048) (d : Fin 256) : EReal :=
  max ((0 + ∑ k : Fin 1024, x (ix2 r k) * w (ix2 k d)) + b (ix2 0 d)) 0

/-- The tile's features as the body computes them: the product of the tile with the transposed weights, the bias row
    added to every row, and the maximum with 0. -/
def phiVec (x : FVec Ideal S2048x1024 .f32) (w : FVec Ideal S1024x256 .bf16) (b : FVec Ideal S1x256 .f32) :
    FVec Ideal S2048x256 .f32 :=
  maximumf
    (addf
      (matmul dot_S2048x1024_S1024x256_S2048x256_1_0_0_1_n_n none
        (truncf .bf16 (shapeCast S2048x1024 x shapeCasts_S2048x1024_S2048x1024) bitsLt_bf16_f32)
        (shapeCast S1024x256 w shapeCasts_S1024x256_S1024x256)
        (constant (F := Ideal) S2048x256 .f32 0x00000000#32))
      (broadcastTo S2048x256 (shapeCast S1x256 b shapeCasts_S1x256_S1x256) broadcasts_S1x256_S2048x256))
    (broadcast S2048x256 (Scalar.ofBits (F := Ideal) .f32 0x00000000#32))

/-- The features vector read at row r and feature d. -/
theorem phiVec_apply (x : FVec Ideal S2048x1024 .f32) (w : FVec Ideal S1024x256 .bf16) (b : FVec Ideal S1x256 .f32)
    (r : Fin 2048) (d : Fin 256) : phiVec x w b (ix2 r d) = feat x w b r d := by
  unfold phiVec feat
  rw [maximumf_apply, addf_apply, phi_matmul_apply, broadcastTo_1b_ab_apply, broadcast_apply]
  simp only [shapeCast_self, truncf_apply]
  rw [zero_add]
  exact congrArg (max _) Ideal.ofBits_zero_f32

/-! ## The stored accumulators -/

/-- The stored sums vector is the accumulator plus the product of the one-hot matrix with the features. -/
theorem pay5_eq (x : FVec Ideal S2048x1024 .f32) (w : FVec Ideal S1024x256 .bf16) (b : FVec Ideal S1x256 .f32)
    (cid : Vec Ideal S1x2048 .i32) (acc : FVec Ideal S10x256 .f32) :
    k0_pay5 (F := Ideal) x w b cid acc
      = shapeCast S10x256
          (addf acc
            (matmul dot_S10x2048_S2048x256_S10x256_1_0_0_1_n_n none
              (truncf .bf16 (k0_pay4 (F := Ideal) cid) bitsLt_bf16_f32)
              (truncf .bf16 (phiVec x w b) bitsLt_bf16_f32)
              (constant (F := Ideal) S10x256 .f32 0x00000000#32)))
          shapeCasts_S10x256_S10x256 := rfl

theorem pay5_apply (x : FVec Ideal S2048x1024 .f32) (w : FVec Ideal S1024x256 .bf16) (b : FVec Ideal S1x256 .f32)
    (cid : Vec Ideal S1x2048 .i32) (acc : FVec Ideal S10x256 .f32) (c : Fin 10) (d : Fin 256) :
    k0_pay5 (F := Ideal) x w b cid acc (ix2 c d)
      = acc (ix2 c d) + (0 + ∑ r : Fin 2048, hot cid c r * feat x w b r d) := by
  rw [pay5_eq, shapeCast_self, addf_apply, seg_matmul_apply, zero_add]
  refine congrArg (acc (ix2 c d) + ·) (Finset.sum_congr rfl fun r _ => ?_)
  rw [truncf_apply, truncf_apply, pay4_apply, phiVec_apply]

theorem pay2_apply (i : S10x256.Idx) : k0_pay2 (F := Ideal) i = 0 := by
  unfold k0_pay2
  rw [shapeCast_self]
  exact Ideal.ofBits_zero_f32

theorem pay3_apply (i : S10x1.Idx) : k0_pay3 (F := Ideal) i = 0 := by
  unfold k0_pay3
  rw [shapeCast_self]
  exact Ideal.ofBits_zero_f32

end Cert.KernelIdeal.Seg

end
-- ==== Proof.SegIdeal.EntryReads.lean ====
/-
  What the call's four input windows hold when it is entered, index by index.

  The eleven host operations before the call only move data: X[0] is read as a matrix of 200000 rows and
  padded below with 704 rows of zeros; the cluster ids are padded with 704 entries -1 and read as one row;
  W_phi is transposed (the change of float format is the identity on extended reals); b_phi is read as one row.
  So each of the four arrays is, at every index, an entry of one of @main's arguments or the padding value.

  Then each window's block at a grid point read off its array: windows 0 and 1 move down the rows, 2048 rows
  a point, so row r of point t's block is row t · 2048 + r of the array; windows 2 and 3 are the whole array at
  every point.
-/
import proofs.«408968_j90941637525542_1_alg».proof.Proof.SegIdeal.Around
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal
import Idealize.ShloMosaic.PureOps.Ideal.Laws

set_option maxRecDepth 16384

noncomputable section

namespace Cert.KernelIdeal.Seg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx

variable (m : (ℓ : Loc nD τ sig) → Buf (Elt Ideal) ℓ)

/-! ## The four arrays as the host operations leave them -/

/-- The padded rows: X[0] read as a matrix, 704 rows of the padding value (the integer 0 made a float) below. -/
theorem V_rows_eq (c : Dev nD) :
    (V m c main_v4 : S200704x1024.Idx → EReal)
      = pad S200704x1024 ![0, 0] ![704, 0] ![0, 0]
          (shapeCast S200000x1024 (m ((c : Thread nD τ).loc main_arg0)) shapeCasts_S1x200000x1024_S200000x1024)
          (sitofp (F := Ideal) .f32 (constantI S_ 32 0#32)) pads_S200000x1024_S200704x1024_07040_000 h_S_ := by
  dsimp only [V, V0]
  simp only [headOps, hostOps0, hostOps0_1, hostOps0_2, hostOps0_3, hostOps0_4, List.flatten_cons, List.flatten_nil, List.append_nil, List.cons_append, List.nil_append]
  after_results
  rfl

/-- The padded ids as one row: the ids, 704 entries of the padding word after them. -/
theorem V_ids_eq (c : Dev nD) :
    (V m c main_v6 : S1x200704.Idx → BitVec 32)
      = shapeCast S1x200704
          (pad S200704 ![0] ![704] ![0] (m ((c : Thread nD τ).loc main_arg1)) (constantI S_ 32 4294967295#32)
            pads_S200000_S200704_07040 h_S_) shapeCasts_S200704_S1x200704 := by
  dsimp only [V, V0]
  simp only [headOps, hostOps0, hostOps0_1, hostOps0_2, hostOps0_3, hostOps0_4, List.flatten_cons, List.flatten_nil, List.append_nil, List.cons_append, List.nil_append]
  after_results
  rfl

/-- The weights transposed (the change of float format is the identity on extended reals). -/
theorem V_w_eq (c : Dev nD) :
    (V m c main_v2 : S1024x256.Idx → EReal)
      = truncf (F := Ideal) .bf16 (transpose S1024x256 [1, 0] (m ((c : Thread nD τ).loc main_arg2)) transposes_S256x1024_S1024x256_1_0) bitsLt_bf16_f32 := by
  dsimp only [V, V0]
  simp only [headOps, hostOps0, hostOps0_1, hostOps0_2, hostOps0_3, hostOps0_4, List.flatten_cons, List.flatten_nil, List.append_nil, List.cons_append, List.nil_append]
  after_results

/-- The bias as one row. -/
theorem V_b_eq (c : Dev nD) :
    (V m c main_v3 : S1x256.Idx → EReal) = shapeCast S1x256 (m ((c : Thread nD τ).loc main_arg3)) shapeCasts_S256_S1x256 := by
  dsimp only [V, V0]
  simp only [headOps, hostOps0, hostOps0_1, hostOps0_2, hostOps0_3, hostOps0_4, List.flatten_cons, List.flatten_nil, List.append_nil, List.cons_append, List.nil_append]
  after_results
  rfl

/-- The integer 0 made a float is the real 0. -/
theorem padding_zero : (sitofp (F := Ideal) .f32 (constantI S_ 32 0#32) : S_.Idx → EReal) (Shape.Idx.first h_S_) = 0 := by
  show (((0#32 : BitVec 32).toInt : ℝ) : EReal) = 0
  rw [show (0#32 : BitVec 32).toInt = 0 from by decide, Int.cast_zero, EReal.coe_zero]

/-- Row `n` of the padded rows is row `n` of X[0] below 200000 and zero from there on. -/
theorem V_rows (c : Dev nD) (n : Fin 200704) (k : Fin 1024) :
    V m c main_v4 (ix2 n k) = if h : n.val < 200000 then m ((c : Thread nD τ).loc main_arg0) (ix3 0 ⟨n.val, h⟩ k) else (0 : EReal) := by
  refine (congrFun (V_rows_eq m c) (ix2 n k)).trans ?_
  by_cases h : n.val < 200000
  · rw [dif_pos h]
    refine (pad_apply_of_inside _ _ _ _ _ pads_S200000x1024_S200704x1024_07040_000 h_S_ (ix2 n k) (ix2 (⟨n.val, h⟩ : Fin 200000) k) (fun a => ?_)).trans ?_
    · match a with
      | ⟨0, _⟩ => show n.val = 0 + n.val * (0 + 1); omega
      | ⟨1, _⟩ => show k.val = 0 + k.val * (0 + 1); omega
    · exact shapeCast_1ab_ab_apply _ shapeCasts_S1x200000x1024_S200000x1024 (⟨n.val, h⟩ : Fin 200000) k
  · rw [dif_neg h]
    refine (pad_apply_of_not_inside _ _ _ _ _ pads_S200000x1024_S200704x1024_07040_000 h_S_ (ix2 n k) (0 : Fin 2) (fun hin => ?_)).trans (padding_zero)
    have e : (n.val - 0) / (0 + 1) < 200000 := hin.2.2
    omega

/-- Entry `n` of the padded ids is id `n` below 200000 and the padding word -1 from there on. -/
theorem V_ids (c : Dev nD) (n : Fin 200704) :
    V m c main_v6 (ix2 0 n) = if h : n.val < 200000 then m ((c : Thread nD τ).loc main_arg1) (ix1 ⟨n.val, h⟩) else (4294967295#32 : BitVec 32) := by
  refine (congrFun (V_ids_eq m c) (ix2 0 n)).trans ?_
  refine (shapeCast_a_1a_apply _ shapeCasts_S200704_S1x200704 0 n).trans ?_
  by_cases h : n.val < 200000
  · rw [dif_pos h]
    exact pad_apply_of_inside _ _ _ _ _ pads_S200000_S200704_07040 h_S_ (ix1 n) (ix1 (⟨n.val, h⟩ : Fin 200000)) (fun a => by
      match a with
      | ⟨0, _⟩ => show n.val = 0 + n.val * (0 + 1); omega)
  · rw [dif_neg h]
    refine (pad_apply_of_not_inside _ _ _ _ _ pads_S200000_S200704_07040 h_S_ (ix1 n) (0 : Fin 1) (fun hin => ?_)).trans rfl
    have e : (n.val - 0) / (0 + 1) < 200000 := hin.2.2
    omega

/-- The transposed weights at `(k, d)` are W_phi at `(d, k)`. -/
theorem V_w (c : Dev nD) (k : Fin 1024) (d : Fin 256) :
    V m c main_v2 (ix2 k d) = m ((c : Thread nD τ).loc main_arg2) (ix2 d k) := by
  refine (congrFun (V_w_eq m c) (ix2 k d)).trans ?_
  exact transpose_ix2_apply (m ((c : Thread nD τ).loc main_arg2)) transposes_S256x1024_S1024x256_1_0 k d

/-- The bias row at `(0, d)` is b_phi at `d`. -/
theorem V_b (c : Dev nD) (d : Fin 256) :
    V m c main_v3 (ix2 0 d) = m ((c : Thread nD τ).loc main_arg3) (ix1 d) := by
  refine (congrFun (V_b_eq m c) (ix2 0 d)).trans ?_
  exact shapeCast_a_1a_apply _ shapeCasts_S256_S1x256 0 d

/-! ## The windows' blocks read off their arrays -/

/-- The grid has 98 points, so a point's 2048 rows lie inside the 200704 padded rows. -/
theorem row_lt (t : Fin cfg0.N) (r : Fin 2048) : t.val * 2048 + r.val < 200704 := by
  have ht : t.val < 98 := lt_of_lt_of_eq t.isLt N_0
  have hr : r.val < 2048 := r.isLt
  omega

/-- The windows' block indices, decided over the grid: windows 0 and 1 step down the rows with the point, windows 2 and
    3 stay at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- Row `r` of point `t`'s block of the rows is row `t · 2048 + r` of the padded rows. -/
theorem iblk0_apply (c : Dev nD) (t : Fin cfg0.N) (r : Fin 2048) (k : Fin 1024) :
    iblk m c 0 t (ix2 r k) = V m c main_v4 (ix2 ⟨t.val * 2048 + r.val, row_lt t r⟩ k) := by
  obtain ⟨e0, e1, -⟩ := idx_facts t
  show V m c main_v4 (((cfg0.win 0).blk t).view.emb (ix2 r k)) = V m c main_v4 (ix2 ⟨t.val * 2048 + r.val, row_lt t r⟩ k)
  refine congrArg (V m c main_v4) (funext fun a => Fin.ext ?_)
  match a with
  | ⟨0, _⟩ => show win0_0.index t (0 : Fin 2) * 2048 + 1 * r.val = t.val * 2048 + r.val; omega
  | ⟨1, _⟩ => show win0_0.index t (1 : Fin 2) * 1024 + 1 * k.val = k.val; omega

/-- Entry `r` of point `t`'s block of the ids is entry `t · 2048 + r` of the padded ids. -/
theorem iblk1_apply (c : Dev nD) (t : Fin cfg0.N) (r : Fin 2048) :
    iblk m c 1 t (ix2 0 r) = V m c main_v6 (ix2 0 ⟨t.val * 2048 + r.val, row_lt t r⟩) := by
  obtain ⟨-, -, e0, e1, -⟩ := idx_facts t
  show V m c main_v6 (((cfg0.win 1).blk t).view.emb (ix2 0 r)) = V m c main_v6 (ix2 0 ⟨t.val * 2048 + r.val, row_lt t r⟩)
  refine congrArg (V m c main_v6) (funext fun a => Fin.ext ?_)
  match a with
  | ⟨0, _⟩ => show win0_1.index t (0 : Fin 2) * 1 + 1 * 0 = 0; omega
  | ⟨1, _⟩ => show win0_1.index t (1 : Fin 2) * 2048 + 1 * r.val = t.val * 2048 + r.val; omega

/-- The weights' block is the whole array at every point. -/
theorem iblk2_eq (c : Dev nD) (t : Fin cfg0.N) : iblk m c 2 t = V m c main_v2 := by
  obtain ⟨-, -, -, -, e0, e1, -⟩ := idx_facts t
  funext y
  show V m c main_v2 (((cfg0.win 2).blk t).view.emb y) = V m c main_v2 y
  refine congrArg (V m c main_v2) (funext fun a => Fin.ext ?_)
  match a with
  | ⟨0, _⟩ => show win0_2.index t (0 : Fin 2) * 1024 + 1 * (y 0).val = (y 0).val; omega
  | ⟨1, _⟩ => show win0_2.index t (1 : Fin 2) * 256 + 1 * (y 1).val = (y 1).val; omega

/-- The bias row's block is the whole array at every point. -/
theorem iblk3_eq (c : Dev nD) (t : Fin cfg0.N) : iblk m c 3 t = V m c main_v3 := by
  obtain ⟨-, -, -, -, -, -, e0, e1⟩ := idx_facts t
  funext y
  show V m c main_v3 (((cfg0.win 3).blk t).view.emb y) = V m c main_v3 y
  refine congrArg (V m c main_v3) (funext fun a => Fin.ext ?_)
  match a with
  | ⟨0, _⟩ => show win0_3.index t (0 : Fin 2) * 1 + 1 * (y 0).val = (y 0).val; omega
  | ⟨1, _⟩ => show win0_3.index t (1 : Fin 2) * 256 + 1 * (y 1).val = (y 1).val; omega

end Cert.KernelIdeal.Seg

end
-- ==== Proof.SegIdeal.GridSums.lean ====
/-
  The two accumulators after the last grid point, as sums over the 200000 rows.

  Grid point t adds to the sums accumulator, at cluster k and feature d, the sum over the 2048 rows r of
  its tile of  hot(k, r) * feat(r, d),  and to the counts accumulator the sum of  hot(k, r).  Row r of
  tile t is row t * 2048 + r of the padded arrays: below 200000 it is a row of X[0] with its own id, from
  200000 on its id is the padding word, which is no cluster's word, so the row adds 0. Point 0 starts from
  zeros. So after point n the accumulators hold the sum over the tiles 0..n, tile by tile and row by row, of a
  function of the row number that vanishes from 200000 on; 98 tiles of 2048 rows are the row numbers below
  200704, and dropping the vanishing ones leaves the sum over the 200000 rows.
-/
import proofs.«408968_j90941637525542_1_alg».proof.Proof.SegIdeal.LastPoint
import proofs.«408968_j90941637525542_1_alg».proof.Proof.SegIdeal.TileSums
import proofs.«408968_j90941637525542_1_alg».proof.Proof.SegIdeal.EntryReads

set_option maxRecDepth 16384

noncomputable section

namespace Cert.KernelIdeal.Seg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx
open scoped BigOperators

/-! ## Tiles to rows, over any additive commutative monoid -/

section SumTiles
variable {M : Type*} [AddCommMonoid M]

/-- A function of the first `A` naturals, extended by zero to all of them. -/
def extZero {A : ℕ} (f : Fin A → M) (n : ℕ) : M := if h : n < A then f ⟨n, h⟩ else 0

theorem extZero_of_lt {A : ℕ} (f : Fin A → M) {n : ℕ} (h : n < A) : extZero f n = f ⟨n, h⟩ := dif_pos h
theorem extZero_of_not_lt {A : ℕ} (f : Fin A → M) {n : ℕ} (h : ¬n < A) : extZero f n = 0 := dif_neg h

/-- `T` tiles of `R` rows each, summed tile by tile and row by row, are the first `T * R` rows summed in order. -/
theorem sum_tiles (R : ℕ) (g : ℕ → M) (T : ℕ) :
    ∑ t ∈ Finset.range T, ∑ r : Fin R, g (t * R + r.val) = ∑ n ∈ Finset.range (T * R), g n := by
  induction T with
  | zero => rw [Finset.sum_range_zero, Nat.zero_mul, Finset.sum_range_zero]
  | succ T ih =>
    rw [Finset.sum_range_succ, ih, Nat.succ_mul, Finset.sum_range_add]
    exact congrArg (_ + ·) (Fin.sum_univ_eq_sum_range (fun r => g (T * R + r)) R)

/-- Rows on which the function vanishes can be dropped from the end of a range. -/
theorem sum_range_drop (g : ℕ → M) (A B : ℕ) (h : ∀ n, A ≤ n → g n = 0) :
    ∑ n ∈ Finset.range (A + B), g n = ∑ n ∈ Finset.range A, g n := by
  rw [Finset.sum_range_add, Finset.sum_eq_zero (fun x _ => h _ (Nat.le_add_right _ _)), add_zero]

/-- The sum of a zero-extended function over the first `A` naturals is the sum of the function. -/
theorem sum_range_extZero {A : ℕ} (f : Fin A → M) : ∑ n ∈ Finset.range A, extZero f n = ∑ n : Fin A, f n := by
  rw [← Fin.sum_univ_eq_sum_range (extZero f) A]
  exact Finset.sum_congr rfl fun n _ => extZero_of_lt f n.isLt

/-- So `T` tiles of `R` rows that cover the first `A` rows and `B` more sum a zero-extended function to its sum. -/
theorem sum_tiles_extZero (T R A B : ℕ) (hA : T * R = A + B) (f : Fin A → M) :
    ∑ t ∈ Finset.range T, ∑ r : Fin R, extZero f (t * R + r.val) = ∑ n : Fin A, f n := by
  rw [sum_tiles R (extZero f) T, hA,
    sum_range_drop (extZero f) A B (fun n hn => extZero_of_not_lt f (Nat.not_lt.mpr hn)), sum_range_extZero]

end SumTiles

/-! ## The rows of the program's arguments -/

variable (m : (ℓ : Loc nD τ sig) → Buf (Elt Ideal) ℓ)

/-- The four arguments the call reads, as this thread holds them: the rows X, the cluster ids, the weights W_phi and the
    bias b_phi, each at its literal type. -/
abbrev argX (c : Dev nD) : S1x200000x1024.Idx → EReal := m ((c : Thread nD τ).loc main_arg0)
abbrev argIds (c : Dev nD) : S200000.Idx → BitVec 32 := m ((c : Thread nD τ).loc main_arg1)
abbrev argW (c : Dev nD) : S256x1024.Idx → EReal := m ((c : Thread nD τ).loc main_arg2)
abbrev argB (c : Dev nD) : S256.Idx → EReal := m ((c : Thread nD τ).loc main_arg3)

/-- 1 where row n's id is cluster k's word, else 0. -/
def inCluster (c : Dev nD) (k : Fin 10) (n : Fin 200000) : EReal :=
  if BitVec.ofNat 32 k.val = argIds m c (ix1 n) then 1 else 0

/-- Row n's feature d: the affine map clamped below at 0. -/
def rowFeat (c : Dev nD) (n : Fin 200000) (d : Fin 256) : EReal :=
  max ((0 + ∑ j : Fin 1024, argX m c (ix3 0 n j) * argW m c (ix2 d j)) + argB m c (ix1 d)) 0

/-- The padding word is no cluster's word. -/
theorem word_ne_padding : ∀ k : Fin 10, BitVec.ofNat 32 k.val ≠ 4294967295#32 := by decide

/-! ## One row of one tile

Stated over any four vectors that read the arguments as a tile at row offset `o` does: the rows and ids below 200000
are the arguments' and the padding from there on, the weights are transposed, the bias is a row. -/

/-- Row r's one-hot entry is the row's membership below 200000 and 0 on a padding row. -/
theorem hot_row_of (c : Dev nD) (cid : IVec S1x2048 32) (o : ℕ) (r : Fin 2048)
    (hid : cid (ix2 0 r) = if h : o + r.val < 200000 then m ((c : Thread nD τ).loc main_arg1) (ix1 ⟨o + r.val, h⟩) else (4294967295#32 : BitVec 32))
    (k : Fin 10) : hot cid k r = extZero (fun i : Fin 200000 => inCluster m c k i) (o + r.val) := by
  unfold hot
  rw [hid]
  by_cases h : o + r.val < 200000
  · rw [extZero_of_lt _ h, dif_pos h]; rfl
  · rw [extZero_of_not_lt _ h, dif_neg h, if_neg (word_ne_padding k)]

/-- Row r's features are the row's below 200000. -/
theorem feat_row_of (c : Dev nD) (x : FVec Ideal S2048x1024 .f32) (w : FVec Ideal S1024x256 .bf16) (b : FVec Ideal S1x256 .f32)
    (n : Fin 200000) (r : Fin 2048)
    (hx : ∀ j : Fin 1024, x (ix2 r j) = m ((c : Thread nD τ).loc main_arg0) (ix3 0 n j))
    (hw : ∀ (j : Fin 1024) (d : Fin 256), w (ix2 j d) = m ((c : Thread nD τ).loc main_arg2) (ix2 d j))
    (hb : ∀ d : Fin 256, b (ix2 0 d) = m ((c : Thread nD τ).loc main_arg3) (ix1 d)) (d : Fin 256) :
    feat x w b r d = rowFeat m c n d := by
  unfold feat rowFeat
  rw [hb d]
  refine congrArg (fun s => max ((0 + s) + _) 0) (Finset.sum_congr rfl fun j _ => ?_)
  rw [hx j, hw j d]

/-- Row r's term of the sums: the row's own below 200000, and 0 on a padding row. -/
theorem tile_row_of (c : Dev nD) (x : FVec Ideal S2048x1024 .f32) (w : FVec Ideal S1024x256 .bf16) (b : FVec Ideal S1x256 .f32)
    (cid : IVec S1x2048 32) (o : ℕ) (r : Fin 2048)
    (hx : ∀ j : Fin 1024, x (ix2 r j) = if h : o + r.val < 200000 then m ((c : Thread nD τ).loc main_arg0) (ix3 0 ⟨o + r.val, h⟩ j) else (0 : EReal))
    (hid : cid (ix2 0 r) = if h : o + r.val < 200000 then m ((c : Thread nD τ).loc main_arg1) (ix1 ⟨o + r.val, h⟩) else (4294967295#32 : BitVec 32))
    (hw : ∀ (j : Fin 1024) (d : Fin 256), w (ix2 j d) = m ((c : Thread nD τ).loc main_arg2) (ix2 d j))
    (hb : ∀ d : Fin 256, b (ix2 0 d) = m ((c : Thread nD τ).loc main_arg3) (ix1 d)) (k : Fin 10) (d : Fin 256) :
    hot cid k r * feat x w b r d
      = extZero (fun i : Fin 200000 => inCluster m c k i * rowFeat m c i d) (o + r.val) := by
  rw [hot_row_of m c cid o r hid k]
  by_cases h : o + r.val < 200000
  · rw [extZero_of_lt _ h, extZero_of_lt _ h,
      feat_row_of m c x w b ⟨o + r.val, h⟩ r (fun j => (hx j).trans (dif_pos h)) hw hb d]
  · rw [extZero_of_not_lt _ h, extZero_of_not_lt _ h, zero_mul]

/-! ## One row of grid point t's tile -/

theorem hot_row (c : Dev nD) (k : Fin 10) (t : Fin cfg0.N) (r : Fin 2048) :
    hot (iblk m c 1 t) k r = extZero (fun i : Fin 200000 => inCluster m c k i) (t.val * 2048 + r.val) :=
  hot_row_of m c (iblk m c 1 t) (t.val * 2048) r
    ((iblk1_apply m c t r).trans (V_ids m c ⟨t.val * 2048 + r.val, row_lt t r⟩)) k

theorem tile_row (c : Dev nD) (k : Fin 10) (d : Fin 256) (t : Fin cfg0.N) (r : Fin 2048) :
    hot (iblk m c 1 t) k r * feat (iblk m c 0 t) (iblk m c 2 t) (iblk m c 3 t) r d
      = extZero (fun i : Fin 200000 => inCluster m c k i * rowFeat m c i d) (t.val * 2048 + r.val) :=
  tile_row_of m c (iblk m c 0 t) (iblk m c 2 t) (iblk m c 3 t) (iblk m c 1 t) (t.val * 2048) r
    (fun j => (iblk0_apply m c t r j).trans (V_rows m c ⟨t.val * 2048 + r.val, row_lt t r⟩ j))
    ((iblk1_apply m c t r).trans (V_ids m c ⟨t.val * 2048 + r.val, row_lt t r⟩))
    (fun j d' => (congrFun (iblk2_eq m c t) (ix2 j d')).trans (V_w m c j d'))
    (fun d' => (congrFun (iblk3_eq m c t) (ix2 0 d')).trans (V_b m c d')) k d

/-! ## The accumulators after grid point n -/

/-- After point n the sums accumulator holds the tiles 0..n, tile by tile and row by row. -/
theorem sums_upto (c : Dev nD) (k : Fin 10) (d : Fin 256) : ∀ (n : ℕ) (hn : n < cfg0.N),
    (outsAt0 m c n hn).2.2.1 (ix2 k d)
      = ∑ t ∈ Finset.range (n + 1), ∑ r : Fin 2048,
          extZero (fun i : Fin 200000 => inCluster m c k i * rowFeat m c i d) (t * 2048 + r.val) := by
  intro n
  induction n with
  | zero =>
    intro hn
    refine (congrFun (accS_zero m c ⟨0, hn⟩ rfl) (ix2 k d)).trans ?_
    refine (pay5_apply (iblk m c 0 ⟨0, hn⟩) (iblk m c 2 ⟨0, hn⟩) (iblk m c 3 ⟨0, hn⟩) (iblk m c 1 ⟨0, hn⟩)
      (k0_pay2 (F := Ideal)) k d).trans ?_
    rw [pay2_apply, zero_add, zero_add, Finset.sum_range_one]
    exact Finset.sum_congr rfl fun r _ => tile_row m c k d ⟨0, hn⟩ r
  | succ n ih =>
    intro hn
    have hn' : n < cfg0.N := Nat.lt_of_succ_lt hn
    refine (congrFun (accS_succ m c ⟨n + 1, hn⟩ (Nat.succ_ne_zero n)) (ix2 k d)).trans ?_
    refine (pay5_apply (iblk m c 0 ⟨n + 1, hn⟩) (iblk m c 2 ⟨n + 1, hn⟩) (iblk m c 3 ⟨n + 1, hn⟩) (iblk m c 1 ⟨n + 1, hn⟩)
      (outsAt0 m c n hn').2.2.1 k d).trans ?_
    rw [ih hn', zero_add, Finset.sum_range_succ _ (n + 1)]
    exact congrArg (_ + ·) (Finset.sum_congr rfl fun r _ => tile_row m c k d ⟨n + 1, hn⟩ r)

/-- After point n the counts accumulator holds the tiles 0..n, tile by tile and row by row. -/
theorem counts_upto (c : Dev nD) (k : Fin 10) : ∀ (n : ℕ) (hn : n < cfg0.N),
    (outsAt0 m c n hn).2.2.2 (ix2 k 0)
      = ∑ t ∈ Finset.range (n + 1), ∑ r : Fin 2048,
          extZero (fun i : Fin 200000 => inCluster m c k i) (t * 2048 + r.val) := by
  intro n
  induction n with
  | zero =>
    intro hn
    refine (congrFun (accC_zero m c ⟨0, hn⟩ rfl) (ix2 k 0)).trans ?_
    refine (pay6_apply (iblk m c 1 ⟨0, hn⟩) (k0_pay3 (F := Ideal)) k).trans ?_
    rw [pay3_apply, zero_add, Finset.sum_range_one]
    exact Finset.sum_congr rfl fun r _ => hot_row m c k ⟨0, hn⟩ r
  | succ n ih =>
    intro hn
    have hn' : n < cfg0.N := Nat.lt_of_succ_lt hn
    refine (congrFun (accC_succ m c ⟨n + 1, hn⟩ (Nat.succ_ne_zero n)) (ix2 k 0)).trans ?_
    refine (pay6_apply (iblk m c 1 ⟨n + 1, hn⟩) (outsAt0 m c n hn').2.2.2 k).trans ?_
    rw [ih hn', Finset.sum_range_succ _ (n + 1)]
    exact congrArg (_ + ·) (Finset.sum_congr rfl fun r _ => hot_row m c k ⟨n + 1, hn⟩ r)

/-! ## After the last point -/

theorem sums_last (c : Dev nD) (k : Fin 10) (d : Fin 256) :
    (outsAt0 m c lastPt.val lastPt.isLt).2.2.1 (ix2 k d) = ∑ n : Fin 200000, inCluster m c k n * rowFeat m c n d :=
  (sums_upto m c k d lastPt.val lastPt.isLt).trans (by
    rw [lastPt_val]
    exact sum_tiles_extZero 98 2048 200000 704 (by norm_num) _)

theorem counts_last (c : Dev nD) (k : Fin 10) :
    (outsAt0 m c lastPt.val lastPt.isLt).2.2.2 (ix2 k 0) = ∑ n : Fin 200000, inCluster m c k n :=
  (counts_upto m c k lastPt.val lastPt.isLt).trans (by
    rw [lastPt_val]
    exact sum_tiles_extZero 98 2048 200000 704 (by norm_num) _)

end Cert.KernelIdeal.Seg

end
-- ==== Proof.RefSide.lean ====
/-
  The reference side of the segment-mean certificate.

  The reference computes phi = max(x · Wᵀ + b, 0) for all 200000 rows, accumulates the rows of phi into ten
  per-cluster sums and a one per row into ten per-cluster counts with two accumulating scatters keyed by the
  rows' cluster ids, and then applies the same host operations the kernel's program applies to its own sums
  and counts.

  Here: an accumulating scatter lands update j on operand element i exactly when, on every operand axis, the
  signed start plus the window coordinate is i's coordinate (the range test is then i's own bound); for the two
  scatters of this program that says "the id of row n is c" (and, for the sums, "the column is d"), for EVERY
  32-bit id: an id outside 0..9 lands nowhere. So the sums at (c, d) are the sum over the rows n whose id is c
  of phi at (n, d), the counts at c the number of such rows, each as a sum over all rows of a guarded term; and
  the reference's result is the shared tail of host operations applied to these sums and counts.
-/
import proofs.«408968_j90941637525542_1_alg».proof.Proof.RefRunP
import proofs.«408968_j90941637525542_1_alg».proof.Proof.RefReadP
import proofs.«408968_j90941637525542_1_alg».proof.Proof.SharedTail
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem
open Idealize.ShloMosaic.StableHlo Idealize.ShloMosaic.ValueIdx
open scoped BigOperators

/-- An update index lands on operand element `i` exactly when, on every operand axis, the signed start plus the
    window coordinate is `i`'s coordinate: the range test of the result index is then `i`'s own bound. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro e a
      have hv : (d.start j idx a + (d.window j a : Int)).toNat = (i a).val := congrArg Fin.val (congrFun e a)
      have := h a
      omega
    · intro e
      funext a
      apply Fin.ext
      show (d.start j idx a + (d.window j a : Int)).toNat = (i a).val
      have := e a
      omega
  · rename_i h
    constructor
    · intro e; cases e
    · intro e
      exact absurd (fun a => ⟨by have := e a; omega, by have := e a; have := (i a).isLt; omega⟩) h

/-! ### The per-cluster sums' scatter: update (row n, column e) lands on (cluster id of row n, column e) -/

theorem start_sums_0 (idx : IVec S200000x1 32) (n : Fin 200000) (e : Fin 256) :
    scatter_S10x256_S200000x1_S200000x256_1_0_0_1.start (ix2 n e) idx 0 = (idx (ix2 n 0)).toInt := by
  unfold ScatterDims.start
  rw [dif_pos (show (0 : Fin S10x256.rank) ∈ scatter_S10x256_S200000x1_S200000x256_1_0_0_1.scatterDimsToOperandDims by decide)]
  refine congrArg (fun k => (idx k).toInt) (funext fun b => Fin.ext ?_)
  match b with
  | ⟨0, _⟩ => rfl
  | ⟨1, _⟩ => rfl

theorem start_sums_1 (idx : IVec S200000x1 32) (n : Fin 200000) (e : Fin 256) :
    scatter_S10x256_S200000x1_S200000x256_1_0_0_1.start (ix2 n e) idx 1 = 0 := by
  unfold ScatterDims.start
  rw [dif_neg (show ¬(1 : Fin S10x256.rank) ∈ scatter_S10x256_S200000x1_S200000x256_1_0_0_1.scatterDimsToOperandDims by decide)]

theorem window_sums_0 (n : Fin 200000) (e : Fin 256) :
    scatter_S10x256_S200000x1_S200000x256_1_0_0_1.window (ix2 n e) 0 = 0 := by
  unfold ScatterDims.window
  rw [dif_neg (show ¬(0 : Fin S10x256.rank) ∈ scatter_S10x256_S200000x1_S200000x256_1_0_0_1.sKept by decide)]

theorem window_sums_1 (n : Fin 200000) (e : Fin 256) :
    scatter_S10x256_S200000x1_S200000x256_1_0_0_1.window (ix2 n e) 1 = e.val := by
  unfold ScatterDims.window
  rw [dif_pos (show (1 : Fin S10x256.rank) ∈ scatter_S10x256_S200000x1_S200000x256_1_0_0_1.sKept by decide)]
  rfl

theorem resultIdx?_sums (idx : IVec S200000x1 32) (n : Fin 200000) (e : Fin 256) (c : Fin 10) (d : Fin 256) :
    scatter_S10x256_S200000x1_S200000x256_1_0_0_1.resultIdx? (ix2 n e) idx = some (ix2 c d)
      ↔ (idx (ix2 n 0)).toInt = (c.val : Int) ∧ e = d := by
  rw [resultIdx?_eq_some_iff]
  constructor
  · intro h
    have h0 := h 0
    have h1 := h 1
    rw [start_sums_0, window_sums_0] at h0
    rw [start_sums_1, window_sums_1] at h1
    refine ⟨?_, Fin.ext ?_⟩
    · simpa using h0
    · have : ((e.val : Nat) : Int) = (d.val : Int) := by simpa using h1
      exact_mod_cast this
  · rintro ⟨hc, rfl⟩ a
    match a with
    | ⟨0, _⟩ =>
      show scatter_S10x256_S200000x1_S200000x256_1_0_0_1.start (ix2 n e) idx 0 + (scatter_S10x256_S200000x1_S200000x256_1_0_0_1.window (ix2 n e) 0 : Int) = _
      rw [start_sums_0, window_sums_0, hc]; simp
    | ⟨1, _⟩ =>
      show scatter_S10x256_S200000x1_S200000x256_1_0_0_1.start (ix2 n e) idx 1 + (scatter_S10x256_S200000x1_S200000x256_1_0_0_1.window (ix2 n e) 1 : Int) = _
      rw [start_sums_1, window_sums_1]; simp

/-- The accumulating scatter of the row features by cluster id, read at (cluster c, column d): the operand's
    element plus the sum over the rows whose id is c of the update's element in column d. -/
theorem scatterAdd_sums (x : S10x256.Idx → EReal) (idx : IVec S200000x1 32) (upd : S200000x256.Idx → EReal)
    (c : Fin 10) (d : Fin 256) :
    Ideal.hostScatterAdd scatter_S10x256_S200000x1_S200000x256_1_0_0_1 x idx upd (ix2 c d)
      = x (ix2 c d) + ∑ n : Fin 200000, if (idx (ix2 n 0)).toInt = (c.val : Int) then upd (ix2 n d) else 0 := by
  unfold Ideal.hostScatterAdd
  refine congrArg (x (ix2 c d) + ·) ?_
  rw [Finset.sum_filter]
  refine (sum_idx2 (n0 := 200000) (n1 := 256) _).trans ?_
  refine Finset.sum_congr rfl fun n _ => ?_
  rw [Finset.sum_eq_single_of_mem d (Finset.mem_univ d)
    (fun e _ hne => if_neg (fun h => hne ((resultIdx?_sums idx n e c d).1 h).2))]
  by_cases hc : (idx (ix2 n 0)).toInt = (c.val : Int)
  · rw [if_pos ((resultIdx?_sums idx n d c d).2 ⟨hc, rfl⟩), if_pos hc]
  · rw [if_neg (fun h => hc ((resultIdx?_sums idx n d c d).1 h).1), if_neg hc]

/-- A rank-one index is its one coordinate, so a sum over the indices is the sum over that coordinate. -/
def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ### The per-cluster counts' scatter: update n lands on the cluster id of row n -/

theorem start_counts_0 (idx : IVec S200000x1 32) (n : Fin 200000) :
    scatter_S10_S200000x1_S200000_n_0_0_1.start (ix1 n) idx 0 = (idx (ix2 n 0)).toInt := by
  unfold ScatterDims.start
  rw [dif_pos (show (0 : Fin S10.rank) ∈ scatter_S10_S200000x1_S200000_n_0_0_1.scatterDimsToOperandDims by decide)]
  refine congrArg (fun k => (idx k).toInt) (funext fun b => Fin.ext ?_)
  match b with
  | ⟨0, _⟩ => rfl
  | ⟨1, _⟩ => rfl

theorem window_counts_0 (n : Fin 200000) :
    scatter_S10_S200000x1_S200000_n_0_0_1.window (ix1 n) 0 = 0 := by
  unfold ScatterDims.window
  rw [dif_neg (show ¬(0 : Fin S10.rank) ∈ scatter_S10_S200000x1_S200000_n_0_0_1.sKept by decide)]

theorem resultIdx?_counts (idx : IVec S200000x1 32) (n : Fin 200000) (c : Fin 10) :
    scatter_S10_S200000x1_S200000_n_0_0_1.resultIdx? (ix1 n) idx = some (ix1 c)
      ↔ (idx (ix2 n 0)).toInt = (c.val : Int) := by
  rw [resultIdx?_eq_some_iff]
  constructor
  · intro h
    have h0 := h 0
    rw [start_counts_0, window_counts_0] at h0
    simpa using h0
  · intro hc a
    match a with
    | ⟨0, _⟩ =>
      show scatter_S10_S200000x1_S200000_n_0_0_1.start (ix1 n) idx 0 + (scatter_S10_S200000x1_S200000_n_0_0_1.window (ix1 n) 0 : Int) = _
      rw [start_counts_0, window_counts_0, hc]; simp

/-- The accumulating scatter of ones by cluster id, read at cluster c: the operand's element plus the sum over
    the rows whose id is c of the update's element. -/
theorem scatterAdd_counts (x : S10.Idx → EReal) (idx : IVec S200000x1 32) (upd : S200000.Idx → EReal) (c : Fin 10) :
    Ideal.hostScatterAdd scatter_S10_S200000x1_S200000_n_0_0_1 x idx upd (ix1 c)
      = x (ix1 c) + ∑ n : Fin 200000, if (idx (ix2 n 0)).toInt = (c.val : Int) then upd (ix1 n) else 0 := by
  unfold Ideal.hostScatterAdd
  refine congrArg (x (ix1 c) + ·) ?_
  rw [Finset.sum_filter]
  refine (sum_idx1 (n := 200000) _).trans ?_
  refine Finset.sum_congr rfl fun n _ => ?_
  by_cases hc : (idx (ix2 n 0)).toInt = (c.val : Int)
  · rw [if_pos ((resultIdx?_counts idx n c).2 hc), if_pos hc]
  · rw [if_neg (fun h => hc ((resultIdx?_counts idx n c).1 h)), if_neg hc]

/-! ### The two scatters of the program at an index -/

/-- The word 0x3F800000 is the number one. -/
theorem ofBits_one_f32 : Ideal.ofBits .f32 0x3F800000#32 = 1 := by
  have h1 : ((0x3F800000#32 : BitVec 32).extractLsb' (8 + 23) 1 == 1#1) = false := by decide
  have h2 : ((0x3F800000#32 : BitVec 32).extractLsb' 23 8).toNat = 127 := by decide
  have h3 : ((0x3F800000#32 : BitVec 32).extractLsb' 0 23).toNat = 0 := by decide
  simp only [Ideal.ofBits, Ideal.ieee, h1, h2, h3]
  norm_num

theorem idx_ids (n : Fin 200000) : ReadP.idx_main_v8 (ix2 n 0) = ix1 n :=
  funext fun a => match a with | ⟨0, _⟩ => rfl

theorem idx_ids' (n : Fin 200000) : ReadP.idx_main_v12 (ix2 n 0) = ix1 n :=
  funext fun a => match a with | ⟨0, _⟩ => rfl

theorem idx_bias (n : Fin 200000) (d : Fin 256) : ReadP.idx_main_v3 (ReadP.idx_main_v4 (ix2 n d)) = ix1 d :=
  funext fun a => match a with | ⟨0, _⟩ => rfl

theorem idx_row (n : Fin 200000) (d : Fin 256) (k : Fin 1024) :
    ReadP.idx_main_v0 (ReadP.lidx_main_v2 (ix2 n d) k) = ix3 0 n k :=
  funext fun a => Fin.ext (by
    have hn := n.isLt
    have hk := k.isLt
    match a with
    | ⟨0, _⟩ => rfl
    | ⟨1, _⟩ => show (n.val * 1024 + k.val) / 1024 % 200000 = n.val; omega
    | ⟨2, _⟩ => show (n.val * 1024 + k.val) % 1024 = k.val; omega)

theorem idx_weight (n : Fin 200000) (d : Fin 256) (k : Fin 1024) :
    ReadP.idx_main_v1 (ReadP.ridx_main_v2 (ix2 n d) k) = ix2 d k :=
  funext fun a => match a with | ⟨0, _⟩ => rfl | ⟨1, _⟩ => rfl

/-- phi at (row n, column d): max(Σ_k x[0, n, k] · W[d, k] + b[d], 0). -/
theorem phi_apply (x0 : (⟨S1x200000x1024, .f32⟩ : BufTy).Contents (Elt Ideal))
    (x2 : (⟨S256x1024, .f32⟩ : BufTy).Contents (Elt Ideal)) (x3 : (⟨S256, .f32⟩ : BufTy).Contents (Elt Ideal))
    (n : Fin 200000) (d : Fin 256) :
    ReadP.val_main_v6 (F := Ideal) x0 x2 x3 (ix2 n d)
      = (max ((∑ k : Fin 1024, x0 (ix3 0 n k) * x2 (ix2 d k)) + x3 (ix1 d)) 0 : EReal) := by
  rw [ReadP.val_main_v6_apply, ReadP.val_main_v5_apply, ReadP.val_main_v2_apply, ReadP.val_main_v4_apply,
    ReadP.val_main_v3_apply, ReadP.val_main_call0_v0_apply, ReadP.val_main_call0_cst_apply, idx_bias]
  simp only [ReadP.val_main_v0_apply, ReadP.val_main_v1_apply, idx_row, idx_weight, Ideal.maximumf_def, Ideal.addf_def,
    Ideal.ofBits_def, Ideal.ofBits_zero_f32]

/-- The reference's per-cluster sums at (cluster c, column d): over all rows, phi at (n, d) where row n's id is c. -/
theorem refSums_apply (x0 : (⟨S1x200000x1024, .f32⟩ : BufTy).Contents (Elt Ideal))
    (x1 : (⟨S200000, .i32⟩ : BufTy).Contents (Elt Ideal)) (x2 : (⟨S256x1024, .f32⟩ : BufTy).Contents (Elt Ideal))
    (x3 : (⟨S256, .f32⟩ : BufTy).Contents (Elt Ideal)) (c : Fin 10) (d : Fin 256) :
    ReadP.val_main_v9 (F := Ideal) x0 x1 x2 x3 (ix2 c d)
      = (0 + ∑ n : Fin 200000, if (x1 (ix1 n)).toInt = (c.val : Int)
          then max ((∑ k : Fin 1024, x0 (ix3 0 n k) * x2 (ix2 d k)) + x3 (ix1 d)) 0 else 0 : EReal) := by
  unfold ReadP.val_main_v9
  simp only [Host.scatterAdd, Ideal.hostScatterAdd_def]
  rw [scatterAdd_sums, ReadP.val_main_v7_apply, ReadP.val_main_cst_apply, Ideal.ofBits_def, Ideal.ofBits_zero_f32]
  refine congrArg ((0 : EReal) + ·) (Finset.sum_congr rfl fun n _ => ?_)
  rw [ReadP.val_main_v8_apply, idx_ids, phi_apply]

/-- The reference's per-cluster counts at cluster c: the number of rows whose id is c. -/
theorem refCounts_apply (x1 : (⟨S200000, .i32⟩ : BufTy).Contents (Elt Ideal)) (c : Fin 10) :
    ReadP.val_main_v13 (F := Ideal) x1 (ix1 c)
      = (0 + ∑ n : Fin 200000, if (x1 (ix1 n)).toInt = (c.val : Int) then 1 else 0 : EReal) := by
  unfold ReadP.val_main_v13
  simp only [Host.scatterAdd, Ideal.hostScatterAdd_def]
  rw [scatterAdd_counts, ReadP.val_main_v11_apply, ReadP.val_main_cst_1_apply, Ideal.ofBits_def, Ideal.ofBits_zero_f32]
  refine congrArg ((0 : EReal) + ·) (Finset.sum_congr rfl fun n _ => ?_)
  rw [ReadP.val_main_v12_apply, idx_ids', ReadP.val_main_v10_apply, ReadP.val_main_cst_0_apply, Ideal.ofBits_def,
    ofBits_one_f32]

/-! ### The reference's result is the shared tail of its sums and counts -/

set_option maxRecDepth 16384 in
/-- The reference's result: the host operations both programs share, applied to the reference's per-cluster
    sums and counts and the ten later arguments. -/
theorem ref_result {F : FTy → Type} [FloatOps F] [Cert.KernelIdeal.Facts]
    (m' : (ℓ : Loc nD τ sig) → Buf (Elt F) ℓ) (c : Dev nD) :
    Cert.ReferenceIdeal.ValueP.res_main_v68 (F := F) m' c
      = Cert.KernelIdeal.Seg.sharedTail
          (ReadP.val_main_v9 (F := F) (m' ((c.tc : Thread nD τ).loc main_arg0)) (m' ((c.tc : Thread nD τ).loc main_arg1)) (m' ((c.tc : Thread nD τ).loc main_arg2)) (m' ((c.tc : Thread nD τ).loc main_arg3)))
          (ReadP.val_main_v13 (F := F) (m' ((c.tc : Thread nD τ).loc main_arg1)))
          (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12)) (m' ((c.tc : Thread nD τ).loc main_arg13)) := by
  unfold Cert.ReferenceIdeal.ValueP.res_main_v68 Cert.KernelIdeal.Seg.sharedTail ReadP.val_main_v9 ReadP.val_main_v13
    ReadP.val_main_v6 ReadP.val_main_v5 ReadP.val_main_v2 ReadP.val_main_v0 ReadP.val_main_v1 ReadP.val_main_v4
    ReadP.val_main_v3 ReadP.val_main_call0_v0 ReadP.val_main_call0_cst ReadP.val_main_v7 ReadP.val_main_cst
    ReadP.val_main_v8 ReadP.val_main_v10 ReadP.val_main_cst_0 ReadP.val_main_v11 ReadP.val_main_cst_1
    ReadP.val_main_v12
  rfl

end Cert.ReferenceIdeal.RefValue

end
-- ==== Proof.Join.lean ====
/-
  The reference's two accumulating scatters are the kernel's two accumulators after the last grid point.

  Both are, at (cluster k, column d), the sum over the 200000 rows n of phi(n, d) guarded by "row n's id is
  cluster k", and at cluster k the number of such rows. The reference states the guard on the id read as a
  signed integer, the kernel on the id compared as a word with the word of k: for k below ten these are the same
  condition on every 32-bit word. The guard as a factor 1 or 0 is the guarded term, and a leading zero added to
  the dot product changes nothing. The kernel's counts are a column [10, 1]; read as a vector [10] it is the
  reference's counts.
-/
import proofs.«408968_j90941637525542_1_alg».proof.Proof.SegIdeal.GridSums
import proofs.«408968_j90941637525542_1_alg».proof.Proof.RefSide
import Idealize.ShloMosaic.Lib.ValueIdx
import Idealize.ShloMosaic.Lib.Pipeline.Value

noncomputable section

namespace Cert.KernelIdeal.Seg

open Cert.KernelIdeal Cert.KernelIdeal.Gen Idealize.ShloMosaic Idealize.ShloMosaic.TcCoe Idealize.SL.Sem
open Idealize.ShloMosaic.ValueIdx
open scoped BigOperators

variable (m : (ℓ : Loc nD τ sig) → Buf (Elt Ideal) ℓ)

/-- For a cluster number k below ten, a 32-bit word is the word of k exactly when it reads, signed, as k. -/
theorem word_iff (k : Fin 10) (w : BitVec 32) : BitVec.ofNat 32 k.val = w ↔ w.toInt = (k.val : Int) := by
  have fwd : ∀ k : Fin 10, (BitVec.ofNat 32 k.val).toInt = (k.val : Int) := by decide
  constructor
  · rintro rfl
    exact fwd k
  · intro h
    exact BitVec.eq_of_toInt_eq ((fwd k).trans h.symm)

/-- A column [10, 1] read as a vector [10]: element k is the column's element (k, 0). -/
theorem shapeCast_col_apply {α : Type} (x : S10x1.Idx → α) (k : Fin 10) :
    shapeCast S10 x shapeCasts_S10x1_S10 (ix1 k) = x (ix2 k 0) :=
  shapeCast_apply x shapeCasts_S10x1_S10 (ix1 k) (ix2 k 0) (by
    rw [Shape.rowMajor_val_two, Shape.rowMajor_val_one]
    show k.val * 1 + 0 = k.val
    omega)

/-- A guard as a factor: 1 or 0 times a term is the term under the guard, a leading zero in the inner sum dropped;
    the two sides may state the guard by equivalent conditions. -/
theorem guard_mul_max (p q : Prop) [Decidable p] [Decidable q] (hpq : p ↔ q) (s b : EReal) :
    (if q then max (s + b) 0 else 0 : EReal) = (if p then (1 : EReal) else 0) * max ((0 + s) + b) 0 := by
  by_cases h : p
  · rw [if_pos h, if_pos (hpq.1 h), one_mul, zero_add]
  · rw [if_neg h, if_neg (fun h' => h (hpq.2 h')), zero_mul]

theorem guard_one (p q : Prop) [Decidable p] [Decidable q] (hpq : p ↔ q) :
    (if q then (1 : EReal) else 0) = (if p then (1 : EReal) else 0) := by
  by_cases h : p
  · rw [if_pos h, if_pos (hpq.1 h)]
  · rw [if_neg h, if_neg (fun h' => h (hpq.2 h'))]

/-- The reference's per-cluster sums are the kernel's sums accumulator after the last grid point. -/
theorem sums_join (c : Dev nD) :
    Cert.ReferenceIdeal.ReadP.val_main_v9 (F := Ideal) (m ((c : Thread nD τ).loc main_arg0))
        (m ((c : Thread nD τ).loc main_arg1)) (m ((c : Thread nD τ).loc main_arg2)) (m ((c : Thread nD τ).loc main_arg3))
      = (outsAt0 m c lastPt.val lastPt.isLt).2.2.1 := by
  funext i
  obtain ⟨k, d, rfl⟩ : ∃ (k : Fin 10) (d : Fin 256), i = ix2 k d := ⟨i 0, i 1, eq_ix2 i⟩
  refine (Cert.ReferenceIdeal.RefValue.refSums_apply _ _ _ _ k d).trans ?_
  rw [sums_last, zero_add]
  refine Finset.sum_congr rfl fun n _ => ?_
  unfold inCluster rowFeat
  exact guard_mul_max _ _ (word_iff k _) _ _

/-- The reference's per-cluster counts are the kernel's counts accumulator after the last grid point, its
    column read as a vector. -/
theorem counts_join (c : Dev nD) :
    Cert.ReferenceIdeal.ReadP.val_main_v13 (F := Ideal) (m ((c : Thread nD τ).loc main_arg1))
      = shapeCast S10 ((outsAt0 m c lastPt.val lastPt.isLt).2.2.2) shapeCasts_S10x1_S10 := by
  funext i
  obtain ⟨k, rfl⟩ : ∃ k : Fin 10, i = ix1 k := ⟨i 0, eq_ix1 i⟩
  refine (Cert.ReferenceIdeal.RefValue.refCounts_apply _ k).trans ?_
  rw [shapeCast_col_apply, counts_last, zero_add]
  refine Finset.sum_congr rfl fun n _ => ?_
  unfold inCluster
  exact guard_one _ _ (word_iff k _)

end Cert.KernelIdeal.Seg

end
-- ==== Proof.lean ====
/-
  The certificate of the segment-mean kernel against its reference.

  The kernel pads the 200000 rows and their cluster ids to 98 tiles of 2048 rows (padding rows zero, their
  ids -1), and in one kernel call over the 98 tiles accumulates, for each of the ten clusters k,
      sums[k, d]  += Σ_r [id_r = k] · max(x_r · w_d + b_d, 0)        counts[k] += Σ_r [id_r = k]
  in two scratch accumulators zeroed at the first tile; the reference scatter-adds the same features and
  ones by row id. Over the extended reals both are sums of the same terms: the tile sums regroup the
  rows, a padding row and a row whose id is no cluster's meet no cluster on either side
  (0 · y = 0, 1 · y = y), and nothing needs finiteness. After that both programs apply the same
  sixty-seven host operations (`sharedTail`: the empty-cluster-safe mean, the hidden layer, the gated
  attention scores, their softmax, the pooled row, the output layer) to (sums, counts) and the ten later
  arguments, so equal sums and counts give equal results.

  Frames: each kernel program runs to the end through the call's 98 points (the body's obligation met at
  every point with the accumulators carried in the call's invariant) and the sixty-nine later
  operations, none of which writes an argument; the reference is a host program and its run is read
  back operation by operation. The idealization rewrote nothing, so `preserves` is trivial.
-/
import proofs.«408968_j90941637525542_1_alg».proof.Defs
import proofs.«408968_j90941637525542_1_alg».proof.Proof.Gen.Kernel
import proofs.«408968_j90941637525542_1_alg».proof.Proof.Gen.KernelIdeal
import proofs.«408968_j90941637525542_1_alg».proof.Proof.Gen.ReferenceIdeal
import proofs.«408968_j90941637525542_1_alg».proof.Proof.Gen.Pre_finite_inputs
import proofs.«408968_j90941637525542_1_alg».proof.Proof.SegBits.Accumulate
import proofs.«408968_j90941637525542_1_alg».proof.Proof.SegIdeal.KernelResult
import proofs.«408968_j90941637525542_1_alg».proof.Proof.Join

noncomputable section

namespace Cert.Proof

open Idealize.ShloMosaic Idealize.SL.Sem

/-- The word-level kernel program runs and leaves its arguments as launched. -/
theorem frame_k : Cert.frame_Kernel := fun m ρ _ => Cert.Kernel.Seg.frame (F := Bits) m ρ
/-- So does the idealized kernel program. -/
theorem frame_ki : Cert.frame_KernelIdeal := fun m ρ _ => Cert.KernelIdeal.Seg.frame (F := Ideal) m ρ
/-- The reference is a host program: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- At the ideal instance both programs end at the shared operations of the same sums and counts. -/
theorem algebraic : Cert.algebraic_KernelIdeal_ReferenceIdeal := by
  intro m ρ m' ρ' _ hagree
  refine ⟨_, Cert.KernelIdeal.Seg.run_value (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5, e6, e7, e8, e9, e10, e11, e12, e13⟩ := hagree c
  rw [Cert.ReferenceIdeal.RefValue.ref_result m' c, e0, e1, e2, e3, e4, e5, e6, e7, e8, e9, e10, e11, e12, e13,
    Cert.KernelIdeal.Seg.sums_join m c, Cert.KernelIdeal.Seg.counts_join m c]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
